-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x27000 : Shape := ⟨2, ![1024, 27000]⟩
abbrev S138700 : Shape := ⟨1, ![138700]⟩
abbrev S1387 : Shape := ⟨1, ![1387]⟩
abbrev S_ : Shape := ⟨0, ![]⟩

class Facts : Prop where
  bcast_S_S1024x27000 : S_.BroadcastsInDim S1024x27000 (![] : Fin 0 → Fin S1024x27000.rank)
  reducesTo_S1024x27000_S_d0_1 : S1024x27000.ReducesTo [0, 1] S_
  h_S_ : 0 < S_.numel
  bcast_S_S138700 : S_.BroadcastsInDim S138700 (![] : Fin 0 → Fin S138700.rank)
  reducesTo_S138700_S_d0 : S138700.ReducesTo [0] S_
  bcast_S_S1387 : S_.BroadcastsInDim S1387 (![] : Fin 0 → Fin S1387.rank)
  reducesTo_S1387_S_d0 : S1387.ReducesTo [0] S_

variable [Facts]

def fn_part1 {F : FTy → Type} [FloatOps F] (main_arg3 : IVec S138700 32) (main_arg4 : IVec S138700 32) (main_v13 : IVec S_ 1) (main_v15 : IVec S138700 1) (main_c_5 : IVec S_ 1) : IVec S_ 1 :=
  let main_v16 : IVec S_ 1 := (fun x v => Host.reduce IntOp.andi x v reducesTo_S138700_S_d0 h_S_) main_v15 main_c_5
  let main_v17 : IVec S_ 1 := andi main_v13 main_v16
  let main_c_6 : IVec S_ 32 := constantI S_ 32 27000#32
  let main_v18 : IVec S138700 32 := broadcastInDim S138700 ![] bcast_S_S138700 main_c_6
  let main_v19 : IVec S138700 1 := cmpi .slt main_arg3 main_v18
  let main_c_7 : IVec S_ 1 := constantI S_ 1 1#1
  let main_v20 : IVec S_ 1 := (fun x v => Host.reduce IntOp.andi x v reducesTo_S138700_S_d0 h_S_) main_v19 main_c_7
  let main_v21 : IVec S_ 1 := andi main_v17 main_v20
  let main_c_8 : IVec S_ 32 := constantI S_ 32 0#32
  let main_v22 : IVec S138700 32 := broadcastInDim S138700 ![] bcast_S_S138700 main_c_8
  let main_v23 : IVec S138700 1 := cmpi .sge main_arg4 main_v22
  let main_c_9 : IVec S_ 1 := constantI S_ 1 1#1
  let main_v24 : IVec S_ 1 := (fun x v => Host.reduce IntOp.andi x v reducesTo_S138700_S_d0 h_S_) main_v23 main_c_9
  let main_v25 : IVec S_ 1 := andi main_v21 main_v24
  main_v25

def fn {F : FTy → Type} [FloatOps F] (main_arg0 : FVec F S1024x27000 .f32) (main_arg1 : FVec F S138700 .f32) (main_arg2 : FVec F S1387 .f32) (main_arg3 : IVec S138700 32) (main_arg4 : IVec S138700 32) : IVec S_ 1 :=
  let main_v0 : FVec F S1024x27000 .f32 := Host.absf main_arg0
  let main_cst : FVec F S_ .f32 := constant S_ .f32 0x7F800000#32
  let main_v1 : FVec F S1024x27000 .f32 := broadcastInDim S1024x27000 ![] bcast_S_S1024x27000 main_cst
  let main_v2 : IVec S1024x27000 1 := cmpf .olt main_v0 main_v1
  let main_c : IVec S_ 1 := constantI S_ 1 1#1
  let main_v3 : IVec S_ 1 := (fun x v => Host.reduce IntOp.andi x v reducesTo_S1024x27000_S_d0_1 h_S_) main_v2 main_c
  let main_v4 : FVec F S138700 .f32 := Host.absf main_arg1
  let main_cst_0 : FVec F S_ .f32 := constant S_ .f32 0x7F800000#32
  let main_v5 : FVec F S138700 .f32 := broadcastInDim S138700 ![] bcast_S_S138700 main_cst_0
  let main_v6 : IVec S138700 1 := cmpf .olt main_v4 main_v5
  let main_c_1 : IVec S_ 1 := constantI S_ 1 1#1
  let main_v7 : IVec S_ 1 := (fun x v => Host.reduce IntOp.andi x v reducesTo_S138700_S_d0 h_S_) main_v6 main_c_1
  let main_v8 : IVec S_ 1 := andi main_v3 main_v7
  let main_v9 : FVec F S1387 .f32 := Host.absf main_arg2
  let main_cst_2 : FVec F S_ .f32 := constant S_ .f32 0x7F800000#32
  let main_v10 : FVec F S1387 .f32 := broadcastInDim S1387 ![] bcast_S_S1387 main_cst_2
  let main_v11 : IVec S1387 1 := cmpf .olt main_v9 main_v10
  let main_c_3 : IVec S_ 1 := constantI S_ 1 1#1
  let main_v12 : IVec S_ 1 := (fun x v => Host.reduce IntOp.andi x v reducesTo_S1387_S_d0 h_S_) main_v11 main_c_3
  let main_v13 : IVec S_ 1 := andi main_v8 main_v12
  let main_c_4 : IVec S_ 32 := constantI S_ 32 0#32
  let main_v14 : IVec S138700 32 := broadcastInDim S138700 ![] bcast_S_S138700 main_c_4
  let main_v15 : IVec S138700 1 := cmpi .sge main_arg3 main_v14
  let main_c_5 : IVec S_ 1 := constantI S_ 1 1#1
  fn_part1 (F := F) main_arg3 main_arg4 main_v13 main_v15 main_c_5
-- ==== Kernel.lean ====
abbrev S1024x27000 : Shape := ⟨2, ![1024, 27000]⟩
abbrev S138700 : Shape := ⟨1, ![138700]⟩
abbrev S1387 : Shape := ⟨1, ![1387]⟩
abbrev S_ : Shape := ⟨0, ![]⟩
abbrev S28160x1408 : Shape := ⟨2, ![28160, 1408]⟩
abbrev S138700x1 : Shape := ⟨2, ![138700, 1]⟩
abbrev S138700x2 : Shape := ⟨2, ![138700, 2]⟩
abbrev S1408 : Shape := ⟨1, ![1408]⟩
abbrev S1x1408 : Shape := ⟨2, ![1, 1408]⟩
abbrev S1024x1408 : Shape := ⟨2, ![1024, 1408]⟩
abbrev S512x1280 : Shape := ⟨2, ![512, 1280]⟩
abbrev S1280x1408 : Shape := ⟨2, ![1280, 1408]⟩
abbrev S512x1408 : Shape := ⟨2, ![512, 1408]⟩
abbrev S1024x1387 : Shape := ⟨2, ![1024, 1387]⟩

abbrev nBuf : Space → Nat
  | .hbm => 32
  | .vmem => 7
  | .smem => 0
  | _ => 0

abbrev bufTy : (tb : Table) → Fin (tcTables nBuf tb) → BufTy
  | .hbm, ⟨0, _⟩ => ⟨S1024x27000, .f32⟩
  | .hbm, ⟨1, _⟩ => ⟨S138700, .f32⟩
  | .hbm, ⟨2, _⟩ => ⟨S1387, .f32⟩
  | .hbm, ⟨3, _⟩ => ⟨S138700, .i32⟩
  | .hbm, ⟨4, _⟩ => ⟨S138700, .i32⟩
  | .hbm, ⟨5, _⟩ => ⟨S_, .f32⟩
  | .hbm, ⟨6, _⟩ => ⟨S28160x1408, .f32⟩
  | .hbm, ⟨7, _⟩ => ⟨S_, .i32⟩
  | .hbm, ⟨8, _⟩ => ⟨S138700, .i32⟩
  | .hbm, ⟨9, _⟩ => ⟨S138700, .i1⟩
  | .hbm, ⟨10, _⟩ => ⟨S_, .i32⟩
  | .hbm, ⟨11, _⟩ => ⟨S138700, .i32⟩
  | .hbm, ⟨12, _⟩ => ⟨S138700, .i32⟩
  | .hbm, ⟨13, _⟩ => ⟨S138700, .i32⟩
  | .hbm, ⟨14, _⟩ => ⟨S_, .i32⟩
  | .hbm, ⟨15, _⟩ => ⟨S138700, .i32⟩
  | .hbm, ⟨16, _⟩ => ⟨S138700, .i1⟩
  | .hbm, ⟨17, _⟩ => ⟨S_, .i32⟩
  | .hbm, ⟨18, _⟩ => ⟨S138700, .i32⟩
  | .hbm, ⟨19, _⟩ => ⟨S138700, .i32⟩
  | .hbm, ⟨20, _⟩ => ⟨S138700, .i32⟩
  | .hbm, ⟨21, _⟩ => ⟨S138700x1, .i32⟩
  | .hbm, ⟨22, _⟩ => ⟨S138700x1, .i32⟩
  | .hbm, ⟨23, _⟩ => ⟨S138700x2, .i32⟩
  | .hbm, ⟨24, _⟩ => ⟨S28160x1408, .f32⟩
  | .hbm, ⟨25, _⟩ => ⟨S28160x1408, .bf16⟩
  | .hbm, ⟨26, _⟩ => ⟨S_, .i32⟩
  | .hbm, ⟨27, _⟩ => ⟨S_, .f32⟩
  | .hbm, ⟨28, _⟩ => ⟨S1408, .f32⟩
  | .hbm, ⟨29, _⟩ => ⟨S1x1408, .f32⟩
  | .hbm, ⟨30, _⟩ => ⟨S1024x1408, .f32⟩
  | .hbm, ⟨31, _⟩ => ⟨S1024x1387, .f32⟩
  | .local _ .vmem, ⟨0, _⟩ => ⟨S512x1280, .f32⟩
  | .local _ .vmem, ⟨1, _⟩ => ⟨S512x1280, .f32⟩
  | .local _ .vmem, ⟨2, _⟩ => ⟨S1280x1408, .bf16⟩
  | .local _ .vmem, ⟨3, _⟩ => ⟨S1280x1408, .bf16⟩
  | .local _ .vmem, ⟨4, _⟩ => ⟨S1x1408, .f32⟩
  | .local _ .vmem, ⟨5, _⟩ => ⟨S512x1408, .f32⟩
  | .local _ .vmem, ⟨6, _⟩ => ⟨S512x1408, .f32⟩
  | _, _ => ⟨S1024x27000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 22], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S28160x1408 : S_.BroadcastsInDim S28160x1408 (![] : Fin 0 → Fin S28160x1408.rank)
  bcast_S_S138700 : S_.BroadcastsInDim S138700 (![] : Fin 0 → Fin S138700.rank)
  bcast_S138700_S138700x1_0 : S138700.BroadcastsInDim S138700x1 (![0] : Fin 1 → Fin S138700x1.rank)
  concatenates_S138700x1_S138700x1_S138700x2_d1 : Shape.Concatenates [S138700x1, S138700x1] S138700x2 1
  bitsLt_bf16_f32 : FTy.bits .bf16 < FTy.bits .f32
  pads_S1387_S1408_0210 : S1387.Pads (![0] : Fin 1 → Nat) ![21] ![0] S1408
  h_S_ : 0 < S_.numel
  shapeCasts_S1408_S1x1408 : S1408.ShapeCasts S1x1408
  inb_S512x1408_S512x1408_0_0 : ∀ a, (![0, 0] : Fin 2 → Nat) a + S512x1408.size a ≤ S512x1408.size a
  h_S512x1408 : 0 < S512x1408.numel
  inb_S512x1280_S512x1280_0_0 : ∀ a, (![0, 0] : Fin 2 → Nat) a + S512x1280.size a ≤ S512x1280.size a
  h_S512x1280 : 0 < S512x1280.numel
  iota_S512x1280_d1_w32 : S512x1280.Iotas .tc 32 [1]
  inb_S1280x1408_S1280x1408_0_0 : ∀ a, (![0, 0] : Fin 2 → Nat) a + S1280x1408.size a ≤ S1280x1408.size a
  h_S1280x1408 : 0 < S1280x1408.numel
  shapeCasts_S1280x1408_S1280x1408 : S1280x1408.ShapeCasts S1280x1408
  shapeCasts_S512x1408_S512x1408 : S512x1408.ShapeCasts S512x1408
  inb_S1x1408_S1x1408_0_0 : ∀ a, (![0, 0] : Fin 2 → Nat) a + S1x1408.size a ≤ S1x1408.size a
  h_S1x1408 : 0 < S1x1408.numel
  shapeCasts_S1x1408_S1x1408 : S1x1408.ShapeCasts S1x1408
  broadcasts_S1x1408_S512x1408 : S1x1408.Broadcasts S512x1408
  slices_S1024x1408_S1024x1387_0_0 : S1024x1408.Slices ![0, 0] S1024x1387
  scatter_S28160x1408_S138700x2_S138700_n_01_01_1_wf : ScatterDims.WF S28160x1408 S138700x2 S138700 [] [0, 1] [0, 1] 1
  dot_S512x1280_S1280x1408_S512x1408_1_0_0_1_n_n_wf : DotDims.WF S512x1280 S1280x1408 S512x1408 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x1280.size a < S1024x27000.size a
  hwx0_0 : ∀ i : grid0.Coords, EltTy.bits .f32 = 32 ∨ (Rect.unit (s := S1024x27000) (fun a => cc0_transform_0 i a * S512x1280.size a) (fun a => (Pipeline.Clip.of (cc0_transform_0 i a) (S512x1280.size a) (S1024x27000.size a)).extent (S512x1280.size a)) fun a => Pipeline.Clip.inb (Pipeline.Clip.ok_of (hstart0_0 i a))).WholeWords (EltTy.packing .f32)
  hwxs0_0 : ∀ i : grid0.Coords, EltTy.bits .f32 = 32 ∨ (Rect.unit (s := S512x1280) (fun _ => 0) (fun a => (Pipeline.Clip.of (cc0_transform_0 i a) (S512x1280.size a) (S1024x27000.size a)).extent (S512x1280.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x1408.size a ≤ S28160x1408.size a
  hwx0_1 : ∀ i : grid0.Coords, EltTy.bits .bf16 = 32 ∨ (Rect.block (s := S28160x1408) S1280x1408.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1408.size a ≤ S1x1408.size a
  hwx0_2 : ∀ i : grid0.Coords, EltTy.bits .f32 = 32 ∨ (Rect.block (s := S1x1408) S1x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1408.size a ≤ S1024x1408.size a
  hwx0_3 : ∀ i : grid0.Coords, EltTy.bits .f32 = 32 ∨ (Rect.block (s := S1024x1408) S512x1408.size (cc0_transform_3 i) (hinb0_3 i)).WholeWords (EltTy.packing .f32)

variable [Facts₀]

def scatter_S28160x1408_S138700x2_S138700_n_01_01_1 : ScatterDims S28160x1408 S138700x2 S138700 where
  updateWindowDims := []
  insertedWindowDims := [0, 1]
  scatterDimsToOperandDims := [0, 1]
  indexVectorDim := 1
  wf := scatter_S28160x1408_S138700x2_S138700_n_01_01_1_wf
def dot_S512x1280_S1280x1408_S512x1408_1_0_0_1_n_n : DotDims S512x1280 S1280x1408 S512x1408 where
  lhsContracting := [1]
  rhsContracting := [0]
  lhsNonContracting := [0]
  rhsNonContracting := [1]
  lhsBatch := []
  rhsBatch := []
  wf := dot_S512x1280_S1280x1408_S512x1408_1_0_0_1_n_n_wf

abbrev win0_0 : Pipeline.Window sig grid0 :=
  Pipeline.Window.ofSpecClip (Memref.whole main_arg0) S512x1280.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v15) S1280x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S1x1408.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S512x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x27000 : Shape := ⟨2, ![1024, 27000]⟩
abbrev S138700 : Shape := ⟨1, ![138700]⟩
abbrev S1387 : Shape := ⟨1, ![1387]⟩
abbrev S_ : Shape := ⟨0, ![]⟩
abbrev S138700x1 : Shape := ⟨2, ![138700, 1]⟩
abbrev S1024x138700 : Shape := ⟨2, ![1024, 138700]⟩
abbrev S1x138700 : Shape := ⟨2, ![1, 138700]⟩
abbrev S138700x1024 : Shape := ⟨2, ![138700, 1024]⟩
abbrev S1387x1024 : Shape := ⟨2, ![1387, 1024]⟩
abbrev S1024x1387 : Shape := ⟨2, ![1024, 1387]⟩
abbrev S1x1387 : Shape := ⟨2, ![1, 1387]⟩

abbrev nBuf : Space → Nat
  | .hbm => 27
  | .vmem => 0
  | .smem => 0
  | _ => 0

abbrev bufTy : (tb : Table) → Fin (tcTables nBuf tb) → BufTy
  | .hbm, ⟨0, _⟩ => ⟨S1024x27000, .f32⟩
  | .hbm, ⟨1, _⟩ => ⟨S138700, .f32⟩
  | .hbm, ⟨2, _⟩ => ⟨S1387, .f32⟩
  | .hbm, ⟨3, _⟩ => ⟨S138700, .i32⟩
  | .hbm, ⟨4, _⟩ => ⟨S138700, .i32⟩
  | .hbm, ⟨5, _⟩ => ⟨S_, .i32⟩
  | .hbm, ⟨6, _⟩ => ⟨S138700, .i32⟩
  | .hbm, ⟨7, _⟩ => ⟨S138700, .i1⟩
  | .hbm, ⟨8, _⟩ => ⟨S_, .i32⟩
  | .hbm, ⟨9, _⟩ => ⟨S138700, .i32⟩
  | .hbm, ⟨10, _⟩ => ⟨S138700, .i32⟩
  | .hbm, ⟨11, _⟩ => ⟨S138700, .i32⟩
  | .hbm, ⟨12, _⟩ => ⟨S138700x1, .i32⟩
  | .hbm, ⟨13, _⟩ => ⟨S1024x138700, .f32⟩
  | .hbm, ⟨14, _⟩ => ⟨S1x138700, .f32⟩
  | .hbm, ⟨15, _⟩ => ⟨S1024x138700, .f32⟩
  | .hbm, ⟨16, _⟩ => ⟨S1024x138700, .f32⟩
  | .hbm, ⟨17, _⟩ => ⟨S138700x1024, .f32⟩
  | .hbm, ⟨18, _⟩ => ⟨S_, .f32⟩
  | .hbm, ⟨19, _⟩ => ⟨S1387x1024, .f32⟩
  | .hbm, ⟨20, _⟩ => ⟨S138700x1, .i32⟩
  | .hbm, ⟨21, _⟩ => ⟨S1387x1024, .f32⟩
  | .hbm, ⟨22, _⟩ => ⟨S1024x1387, .f32⟩
  | .hbm, ⟨23, _⟩ => ⟨S1x1387, .f32⟩
  | .hbm, ⟨24, _⟩ => ⟨S1024x1387, .f32⟩
  | .hbm, ⟨25, _⟩ => ⟨S1024x1387, .f32⟩
  | .hbm, ⟨26, _⟩ => ⟨S1024x1387, .f32⟩
  | _, _ => ⟨S1024x27000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S138700 : S_.BroadcastsInDim S138700 (![] : Fin 0 → Fin S138700.rank)
  bcast_S138700_S138700x1_0 : S138700.BroadcastsInDim S138700x1 (![0] : Fin 1 → Fin S138700x1.rank)
  bcast_S138700_S1x138700_1 : S138700.BroadcastsInDim S1x138700 (![1] : Fin 1 → Fin S1x138700.rank)
  bcast_S1x138700_S1024x138700_0_1 : S1x138700.BroadcastsInDim S1024x138700 (![0, 1] : Fin 2 → Fin S1024x138700.rank)
  transposes_S1024x138700_S138700x1024_1_0 : S1024x138700.Transposes [1, 0] S138700x1024
  bcast_S_S1387x1024 : S_.BroadcastsInDim S1387x1024 (![] : Fin 0 → Fin S1387x1024.rank)
  transposes_S1387x1024_S1024x1387_1_0 : S1387x1024.Transposes [1, 0] S1024x1387
  bcast_S1387_S1x1387_1 : S1387.BroadcastsInDim S1x1387 (![1] : Fin 1 → Fin S1x1387.rank)
  bcast_S1x1387_S1024x1387_0_1 : S1x1387.BroadcastsInDim S1024x1387 (![0, 1] : Fin 2 → Fin S1024x1387.rank)
  gather_S1024x27000_S138700x1_S1024x138700_0_1_n_n_1_1_10241_wf : GatherDims.WF S1024x27000 S138700x1 S1024x138700 [0] [1] [] [1] [] 1 ![1024, 1]
  scatter_S1387x1024_S138700x1_S138700x1024_1_0_0_1_wf : ScatterDims.WF S1387x1024 S138700x1 S138700x1024 [1] [0] [0] 1

variable [Facts₀]

def gather_S1024x27000_S138700x1_S1024x138700_0_1_n_n_1_1_10241 : GatherDims S1024x27000 S138700x1 S1024x138700 where
  offsetDims := [0]
  collapsedSliceDims := [1]
  operandBatchingDims := []
  startIndicesBatchingDims := []
  startIndexMap := [1]
  indexVectorDim := 1
  sliceSizes := ![1024, 1]
  wf := gather_S1024x27000_S138700x1_S1024x138700_0_1_n_n_1_1_10241_wf
def scatter_S1387x1024_S138700x1_S138700x1024_1_0_0_1 : ScatterDims S1387x1024 S138700x1 S138700x1024 where
  updateWindowDims := [1]
  insertedWindowDims := [0]
  scatterDimsToOperandDims := [0]
  indexVectorDim := 1
  wf := scatter_S1387x1024_S138700x1_S138700x1024_1_0_0_1_wf

class Facts : Prop extends Facts₀ where

variable [Facts]
-- ==== Proof.KB.Runs.lean ====
/-
  The kernel body run on whole staging buffers, in each of the three cases the grid meets.

  The body branches twice on the reduction coordinate k of the grid point: at k = 0 it first clears the output block;
  at every point it adds the tile product onto the output block; at k = 21 it then replaces the block by tanh of the
  block plus the bias row. So a point is in one of three cases: FIRST (k = 0: clear, then add), MIDDLE (0 < k < 21:
  add onto what the point before left), LAST (k = 21: add onto what the point before left, then the bias and tanh).
  In each case the body runs, on any four whole buffers holding the `x` tile, the weight tile, the bias row and the
  output block, to a state where the three inputs hold what they held and the output block holds its stores written
  in order; the list of stores is found by the run itself.
-/
import proofs.«426682_j6717328851824_3_alg».proof.Proof.Gen.Kernel.Frame
import proofs.«426682_j6717328851824_3_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch's condition, from the grid coordinates: the reduction coordinate is 0. -/
abbrev condFirst (i : grid0.Coords) : Prop :=
  (Scalar.cmpi .ne (Scalar.extui (Scalar.cmpi .eq (BitVec.ofNat 32 (i 1).val) 0#32)) 0#32) = 1#1
/-- The second branch's condition: the reduction coordinate is 21, the last. -/
abbrev condLast (i : grid0.Coords) : Prop :=
  (Scalar.cmpi .ne (Scalar.extui (Scalar.cmpi .eq (BitVec.ofNat 32 (i 1).val) 21#32)) 0#32) = 1#1

/-- The grid is 2 × 22, the reduction coordinate the fast one: the first condition holds at the points ≡ 0 (mod 22), -/
theorem hcondFirst : ∀ t : Fin cfg0.N, condFirst (grid0.coords t) ↔ t.val % 22 = 0 :=
  (by decide +kernel : ∀ t : Fin grid0.N, condFirst (grid0.coords t) ↔ t.val % 22 = 0)
/-- and the second at the points ≡ 21 (mod 22). -/
theorem hcondLast : ∀ t : Fin cfg0.N, condLast (grid0.coords t) ↔ t.val % 22 = 21 :=
  (by decide +kernel : ∀ t : Fin grid0.N, condLast (grid0.coords t) ↔ t.val % 22 = 21)

/-! ## The staging buffers at a point -/

/-- One staging buffer of the output window, through which its contents are stated. -/
abbrev VO : View sig .tc .vmem S512x1408 .f32 := (Memref.whole cc0_stg3_0 : Memref sig .tc .vmem S512x1408 .f32).view
/-- Each window's current staging buffer at point `t`, as the pipeline passes it to the body, and its wholeness. -/
abbrev ms0 (t : Fin cfg0.N) : Memref sig .tc .vmem S512x1280 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1280x1408 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1408 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1408 .f32 := win0_3.stage (cfg0.slots t 3)
abbrev hs3 (t : Fin cfg0.N) : (ms3 t).IsWhole := hstage0_3 ((cfg0.slots t 3).cast nbuf0_3)

/-! ## The body's run, case by case -/

set_option maxHeartbeats 1000000 in
/-- FIRST case (k = 0): the output block, at anything, is cleared, then the tile product is added onto it. -/
noncomputable def runFirst (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) :
    { L : List (View.Piece (Elt F) S512x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_bias_tanh_kernel i arg2 harg2 arg3 harg3 arg4 harg4 arg5 harg5) K } := by
  refine ⟨?_, fun E K => ?run⟩
  case run =>
    simp only [cc0__matmul_bias_tanh_kernel_eq_skeleton]; unfold cc0__matmul_bias_tanh_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- MIDDLE case (0 < k < 21): the tile product is added onto what the output block holds. -/
noncomputable def runMid (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) :
    { L : List (View.Piece (Elt F) S512x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_bias_tanh_kernel i arg2 harg2 arg3 harg3 arg4 harg4 arg5 harg5) K } := by
  refine ⟨?_, fun E K => ?run⟩
  case run =>
    simp only [cc0__matmul_bias_tanh_kernel_eq_skeleton]; unfold cc0__matmul_bias_tanh_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- LAST case (k = 21): the tile product is added onto what the output block holds, then the bias row is added and
    tanh applied. -/
noncomputable def runLast (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) :
    { L : List (View.Piece (Elt F) S512x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_bias_tanh_kernel i arg2 harg2 arg3 harg3 arg4 harg4 arg5 harg5) K } := by
  refine ⟨?_, fun E K => ?run⟩
  case run =>
    simp only [cc0__matmul_bias_tanh_kernel_eq_skeleton]; unfold cc0__matmul_bias_tanh_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.Kernel.Hand

end
-- ==== Proof.KB.Pieces.lean ====
/-
  What each case of the body leaves in the output block, as a value: the body's stores read back are its named
  arithmetic (`k0_pay1`: the zero block; `k0_pay2`: the block plus the tile product; `k0_pay3`: tanh of the block plus
  the bias row) of what the buffers held.
-/
import proofs.«426682_j6717328851824_3_alg».proof.Proof.KB.Runs
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores cover the output block -/

theorem coverFirst (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) (y : S512x1408.Idx) :
    ∃ pc ∈ (runFirst c i arg2 harg2 arg3 harg3 arg4 harg4 arg5 harg5 hc0 hc1 x0 x1 x2).1, y ∈ pc.1.set :=
  View.cover_of_tiledL (runFirst c i arg2 harg2 arg3 harg3 arg4 harg4 arg5 harg5 hc0 hc1 x0 x1 x2).1 S512x1408.size (by sl_kernel_rfl) y

theorem coverMid (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) (y : S512x1408.Idx) :
    ∃ pc ∈ (runMid c i arg2 harg2 arg3 harg3 arg4 harg4 arg5 harg5 hc0 hc1 x0 x1 x2 xo).1, y ∈ pc.1.set :=
  View.cover_of_tiledL (runMid c i arg2 harg2 arg3 harg3 arg4 harg4 arg5 harg5 hc0 hc1 x0 x1 x2 xo).1 S512x1408.size (by sl_kernel_rfl) y

theorem coverLast (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) (y : S512x1408.Idx) :
    ∃ pc ∈ (runLast c i arg2 harg2 arg3 harg3 arg4 harg4 arg5 harg5 hc0 hc1 x0 x1 x2 xo).1, y ∈ pc.1.set :=
  View.cover_of_tiledL (runLast c i arg2 harg2 arg3 harg3 arg4 harg4 arg5 harg5 hc0 hc1 x0 x1 x2 xo).1 S512x1408.size (by sl_kernel_rfl) y

/-! ## What each case leaves, as the stores read back over anything -/

def outFirst (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) : Vec F S512x1408 .f32 :=
  VO.read (Elt F) (VO.writes (Elt F) VO.junk (runFirst c i arg2 harg2 arg3 harg3 arg4 harg4 arg5 harg5 hc0 hc1 x0 x1 x2).1)

def outMid (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) : Vec F S512x1408 .f32 :=
  VO.read (Elt F) (VO.writes (Elt F) VO.junk (runMid c i arg2 harg2 arg3 harg3 arg4 harg4 arg5 harg5 hc0 hc1 x0 x1 x2 xo).1)

def outLast (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) : Vec F S512x1408 .f32 :=
  VO.read (Elt F) (VO.writes (Elt F) VO.junk (runLast c i arg2 harg2 arg3 harg3 arg4 harg4 arg5 harg5 hc0 hc1 x0 x1 x2 xo).1)

/-! ## The stores read back are the body's arithmetic -/

/-- FIRST: the zero block plus the tile product. -/
theorem outFirst_eq (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) :
    outFirst c i arg2 harg2 arg3 harg3 arg4 harg4 arg5 harg5 hc0 hc1 x0 x1 x2 = k0_pay2 (F := F) i x0 x1 (k0_pay1 (F := F)) := by
  have hz : (![0, 0] : Fin 2 → Nat) = fun _ => 0 := funext fun a => by fin_cases a <;> rfl
  unfold outFirst
  rw [View.read_writes_eq_canon _ _ _ (coverFirst c i arg2 harg2 arg3 harg3 arg4 harg4 arg5 harg5 hc0 hc1 x0 x1 x2)]
  unfold runFirst
  dsimp only
  sl_unfold_words
  rw [View.canon_cons_unit_zero (S := S512x1408) hz, View.readCov_unit_zero (S := S512x1408) _ hz]
  simp only [View.readAt_eq_ld, harg2.read_unread, harg3.read_unread,
    View.ld_unit_zero (S := S512x1280) hz, View.ld_unit_zero (S := S1280x1408) hz]

/-- MIDDLE: what the block held plus the tile product. -/
theorem outMid_eq (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) :
    outMid c i arg2 harg2 arg3 harg3 arg4 harg4 arg5 harg5 hc0 hc1 x0 x1 x2 xo = k0_pay2 (F := F) i x0 x1 xo := by
  have hz : (![0, 0] : Fin 2 → Nat) = fun _ => 0 := funext fun a => by fin_cases a <;> rfl
  unfold outMid
  rw [View.read_writes_eq_canon _ _ _ (coverMid c i arg2 harg2 arg3 harg3 arg4 harg4 arg5 harg5 hc0 hc1 x0 x1 x2 xo)]
  unfold runMid
  dsimp only
  sl_unfold_words
  rw [View.canon_unit_zero hz]
  simp only [View.readAt_eq_ld, harg2.read_unread, harg3.read_unread, harg5.read_unread,
    View.ld_unit_zero (S := S512x1280) hz, View.ld_unit_zero (S := S1280x1408) hz, View.ld_unit_zero (S := S512x1408) hz]

/-- LAST: tanh of (what the block held plus the tile product) plus the bias row. -/
theorem outLast_eq (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) :
    outLast c i arg2 harg2 arg3 harg3 arg4 harg4 arg5 harg5 hc0 hc1 x0 x1 x2 xo = k0_pay3 (F := F) (k0_pay2 (F := F) i x0 x1 xo) x2 := by
  have hz : (![0, 0] : Fin 2 → Nat) = fun _ => 0 := funext fun a => by fin_cases a <;> rfl
  unfold outLast
  rw [View.read_writes_eq_canon _ _ _ (coverLast c i arg2 harg2 arg3 harg3 arg4 harg4 arg5 harg5 hc0 hc1 x0 x1 x2 xo)]
  unfold runLast
  dsimp only
  sl_unfold_words
  rw [View.canon_cons_unit_zero (S := S512x1408) hz, View.readCov_unit_zero (S := S512x1408) _ hz]
  simp only [View.readAt_eq_ld, harg2.read_unread, harg3.read_unread, harg4.read_unread, harg5.read_unread,
    View.ld_unit_zero (S := S512x1280) hz, View.ld_unit_zero (S := S1280x1408) hz,
    View.ld_unit_zero (S := S1x1408) hz, View.ld_unit_zero (S := S512x1408) hz]

end Cert.Kernel.Hand

end
-- ==== Proof.KB.Mask.lean ====
/-
  The tile product does not see the words of the `x` tile that lie past column 27000 of the array.

  The `x` window's last tile along the reduction axis overhangs the array: the array has 27000 columns, the tiles are
  1280 wide, so tile 21 starts at column 26880 and only its first 120 columns are fetched; the rest of the staging buffer
  holds words nothing names. The body computes the global column of every position (1280·k plus the position's column),
  selects zero wherever it is 27000 or more, and only then multiplies. Every position the fetch does not fill has
  such a column, so two buffer contents that hold the same fetched part give the same block.
-/
import proofs.«426682_j6717328851824_3_alg».proof.Proof.Gen.Kernel.Frame
import proofs.«426682_j6717328851824_3_alg».proof.Proof.Gen.Kernel.Skeleton
import Idealize.ShloMosaic.Lib.StableHlo.Predicate

set_option maxRecDepth 16384

noncomputable section

namespace Cert.Kernel.Hand

open Cert.Kernel Cert.Kernel.Gen
open Idealize.ShloMosaic Idealize.ShloMosaic.TcCoe
open Idealize.ShloMosaic.Pipeline (Dat Cfg Window)

variable {F : FTy → Type} [FloatOps F]

/-- The `x` window never cuts a tile's rows: both row tiles lie inside the array's 1024 rows. -/
theorem xsize_row (i : grid0.Coords) : win0_0.xsize i 0 = 512 := by
  have h0 : (i 0).val < 2 := (i 0).isLt
  have hk : cc0_transform_0 i 0 = (i 0).val := by
    show (BitVec.ofNat 32 (i 0).val).toNat = (i 0).val
    rw [BitVec.toNat_ofNat]; omega
  show (Pipeline.Clip.of (cc0_transform_0 i 0) 512 1024).extent 512 = 512
  rw [hk]; unfold Pipeline.Clip.of
  rw [if_pos (by omega)]

/-- Along the columns a tile is fetched whole, or it is cut exactly at the array's column 27000. -/
theorem xsize_col (i : grid0.Coords) : win0_0.xsize i 1 = 1280 ∨ 27000 ≤ (i 1).val * 1280 + win0_0.xsize i 1 := by
  have h1 : (i 1).val < 22 := (i 1).isLt
  have hk : cc0_transform_0 i 1 = (i 1).val := by
    show (BitVec.ofNat 32 (i 1).val).toNat = (i 1).val
    rw [BitVec.toNat_ofNat]; omega
  show (Pipeline.Clip.of (cc0_transform_0 i 1) 1280 27000).extent 1280 = 1280
    ∨ 27000 ≤ (i 1).val * 1280 + (Pipeline.Clip.of (cc0_transform_0 i 1) 1280 27000).extent 1280
  rw [hk]; unfold Pipeline.Clip.of
  split
  · exact Or.inl rfl
  · next hn => right; show 27000 ≤ (i 1).val * 1280 + (27000 - (i 1).val * 1280); omega

/-- A position the fetch does not fill has global column 27000 or more. -/
theorem col_ge_of_not_moved (i : grid0.Coords) (y : S512x1280.Idx) (h : ¬ win0_0.moved i y = true) :
    27000 ≤ (i 1).val * 1280 + (y 1).val := by
  rw [Window.moved_iff] at h
  have y0 : (y 0).val < 512 := (y 0).isLt
  have y1 : (y 1).val < 1280 := (y 1).isLt
  by_contra hc
  apply h
  intro a
  match a with
  | ⟨0, _⟩ => show (y 0).val < win0_0.xsize i 0; rw [xsize_row]; exact y0
  | ⟨1, _⟩ =>
    show (y 1).val < win0_0.xsize i 1
    rcases xsize_col i with e | e
    · rw [e]; exact y1
    · omega

/-- The body's mask bit at a position: the global column, 1280·k plus the position's column, is below 27000. At a
    position whose global column is 27000 or more the bit is clear. -/
theorem mask_ne_one (i : grid0.Coords) (y : S512x1280.Idx) (hc : 27000 ≤ (i 1).val * 1280 + (y 1).val) :
    cmpi .slt (addi (broadcast S512x1280 (Scalar.muli (BitVec.ofNat 32 (i 1).val) 1280#32))
        (iota .tc S512x1280 32 [1] iota_S512x1280_d1_w32)) (broadcast S512x1280 27000#32) y ≠ 1 := by
  have h1 : (i 1).val < 22 := (i 1).isLt
  have y1 : (y 1).val < 1280 := (y 1).isLt
  have e : cmpi .slt (addi (broadcast S512x1280 (Scalar.muli (BitVec.ofNat 32 (i 1).val) 1280#32))
        (iota .tc S512x1280 32 [1] iota_S512x1280_d1_w32)) (broadcast S512x1280 27000#32) y
      = BitVec.ofBool ((BitVec.ofNat 32 (i 1).val * BitVec.ofNat 32 1280
          + iota .tc S512x1280 32 [1] iota_S512x1280_d1_w32 y).slt (BitVec.ofNat 32 27000)) := rfl
  -- an iota along the columns reads the position's column
  have ei : iota .tc S512x1280 32 [1] iota_S512x1280_d1_w32 y = BitVec.ofNat 32 (y 1).val := by
    show BitVec.ofNat 32 (0 * 1280 + (y 1).val) = _
    rw [Nat.zero_mul, Nat.zero_add]
  rw [e, ei, ← BitVec.ofNat_mul, ← BitVec.ofNat_add]
  intro hb
  have := (StableHlo.Predicate.slt_ofNat_iff _ _ (by omega) (by omega)).1 hb
  omega

/-- At every grid point, two contents of the `x` staging buffer that hold the same fetched part (the tile's part inside
    the array) give the same block: the body selects zero wherever the global column is 27000 or more, and every
    position the fetch does not fill has such a column. -/
theorem pay2_fill_indep (t : Fin cfg0.N) (d d' : S512x1280.Idx → Elt F .f32)
    (g : (win0_0.xblock (grid0.coords t)).Idx → Elt F .f32) (x1 : Vec F S1280x1408 .bf16) (xo : Vec F S512x1408 .f32) :
    k0_pay2 (F := F) (grid0.coords t) (win0_0.fill (grid0.coords t) d g) x1 xo
      = k0_pay2 (F := F) (grid0.coords t) (win0_0.fill (grid0.coords t) d' g) x1 xo := by
  have key : select (cmpi .slt (addi (broadcast S512x1280 (Scalar.muli (BitVec.ofNat 32 (grid0.coords t 1).val) 1280#32))
        (iota .tc S512x1280 32 [1] iota_S512x1280_d1_w32)) (broadcast S512x1280 27000#32))
        (win0_0.fill (grid0.coords t) d g) (broadcast S512x1280 (Scalar.ofBits (F := F) .f32 0x00000000#32))
      = select (cmpi .slt (addi (broadcast S512x1280 (Scalar.muli (BitVec.ofNat 32 (grid0.coords t 1).val) 1280#32))
        (iota .tc S512x1280 32 [1] iota_S512x1280_d1_w32)) (broadcast S512x1280 27000#32))
        (win0_0.fill (grid0.coords t) d' g) (broadcast S512x1280 (Scalar.ofBits (F := F) .f32 0x00000000#32)) := by
    funext y
    by_cases hm : win0_0.moved (grid0.coords t) y = true
    · -- a filled position holds the fetched word in both
      have ef : win0_0.fill (grid0.coords t) d g y = win0_0.fill (grid0.coords t) d' g y := by
        unfold Window.fill; rw [dif_pos hm, dif_pos hm]
      show Scalar.select _ _ _ = Scalar.select _ _ _
      rw [ef]
    · -- an unfilled position lies past column 27000: the mask bit is clear, both selects give zero
      have hb := mask_ne_one (grid0.coords t) y (col_ge_of_not_moved _ y hm)
      show Scalar.select _ _ _ = Scalar.select _ _ _
      unfold Scalar.select
      rw [if_neg hb, if_neg hb]
  unfold k0_pay2
  dsimp only
  rw [key]

end Cert.Kernel.Hand

end
-- ==== Proof.KB.Frame.lean ====
/-
  The frame of the program: it runs to the end, faults nowhere, and leaves its five argument arrays unchanged; and,
  for the value proof, what the output array holds at the end in terms of the body's arithmetic.

  The pipeline's proof data. After the body at a grid point: the `x` window's staging buffer holds its tile (the
  tile's part inside the array; past column 27000 we state zeros, which nothing reads: that window's obligation speaks
  of the fetched part only), the weight and bias windows' buffers their blocks, and the output window's buffer the
  running block `accAt`: at k = 0 the zero block plus the tile product, at a later k what the point before left plus
  the tile product, and at k = 21 tanh of that plus the bias row. The output block is written back after k = 21 only,
  so between k = 0 and k = 21 its buffer keeps what the point before left.
-/
import proofs.«426682_j6717328851824_3_alg».proof.Proof.KB.Pieces
import proofs.«426682_j6717328851824_3_alg».proof.Proof.KB.Mask

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after each point -/

/-- The `x` tile at point `t`: its part inside the array, zeros past the array's end. -/
def xz (c : Dev nD) (t : Fin cfg0.N) : Vec F S512x1280 .f32 :=
  win0_0.fill (grid0.coords t) (fun _ => Scalar.ofBits .f32 0#32) (iblk m c 0 t)

/-- THE ACCUMULATION: the output block after the body at position `n`. -/
def accAt (c : Dev nD) : (n : ℕ) → n < cfg0.N → Vec F S512x1408 .f32
  | 0, hn => k0_pay2 (F := F) (grid0.coords ⟨0, hn⟩) (xz m c ⟨0, hn⟩) (iblk m c 1 ⟨0, hn⟩) (k0_pay1 (F := F))
  | n + 1, hn =>
    if (n + 1) % 22 = 0 then
      k0_pay2 (F := F) (grid0.coords ⟨n + 1, hn⟩) (xz m c ⟨n + 1, hn⟩) (iblk m c 1 ⟨n + 1, hn⟩) (k0_pay1 (F := F))
    else if (n + 1) % 22 = 21 then
      k0_pay3 (F := F) (k0_pay2 (F := F) (grid0.coords ⟨n + 1, hn⟩) (xz m c ⟨n + 1, hn⟩) (iblk m c 1 ⟨n + 1, hn⟩) (accAt c n (Nat.lt_of_succ_lt hn)))
        (iblk m c 2 ⟨n + 1, hn⟩)
    else
      k0_pay2 (F := F) (grid0.coords ⟨n + 1, hn⟩) (xz m c ⟨n + 1, hn⟩) (iblk m c 1 ⟨n + 1, hn⟩) (accAt c n (Nat.lt_of_succ_lt hn))

/-- At a first tile: the zero block plus the tile product. -/
theorem accAt_first (c : Dev nD) (t : Fin cfg0.N) (h0 : t.val % 22 = 0) :
    accAt m c t.val t.isLt = k0_pay2 (F := F) (grid0.coords t) (xz m c t) (iblk m c 1 t) (k0_pay1 (F := F)) := by
  obtain ⟨n, hn⟩ := t
  cases n with
  | zero => rfl
  | succ n => exact (if_pos h0).trans rfl

/-- At a middle tile: what the point before left plus the tile product. -/
theorem accAt_mid (c : Dev nD) (t : Fin cfg0.N) (h0 : ¬t.val % 22 = 0) (h1 : ¬t.val % 22 = 21) :
    accAt m c t.val t.isLt = k0_pay2 (F := F) (grid0.coords t) (xz m c t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact ((if_neg h0).trans (if_neg h1)).trans rfl

/-- At a last tile: tanh of (what the point before left plus the tile product) plus the bias row. -/
theorem accAt_last (c : Dev nD) (t : Fin cfg0.N) (h1 : t.val % 22 = 21) :
    accAt m c t.val t.isLt = k0_pay3 (F := F) (k0_pay2 (F := F) (grid0.coords t) (xz m c t) (iblk m c 1 t)
      (accAt m c (t.val - 1) (Nat.lt_of_le_of_lt (Nat.sub_le _ _) t.isLt))) (iblk m c 2 t) := by
  obtain ⟨n, hn⟩ := t
  cases n with
  | zero => exact absurd h1 (by show ¬(0 % 22 = 21); decide)
  | succ n =>
    have h0 : ¬(n + 1) % 22 = 0 := by dsimp only at h1; omega
    exact ((if_neg h0).trans (if_pos h1)).trans rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xz m c t
    | ⟨1, _⟩ => iblk m c 1 t
    | ⟨2, _⟩ => iblk m c 2 t
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xz m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-! ## What the body finds in each staging buffer -/

/-- The `x` window is fetched at every point: its buffer holds the tile's part inside the array, and past it whatever
    the fetch left (`d`). -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The weight window's buffer holds its block, -/
theorem before1 (c : Dev nD) (t : Fin cfg0.N) (d) : (dats m 0 c).before 1 t d = iblk m c 1 t :=
  before0_1_of m (dats m 0 c) (A_eq m c 1) (after1 m c) t d
/-- and the bias window's its row. -/
theorem before2 (c : Dev nD) (t : Fin cfg0.N) (d) : (dats m 0 c).before 2 t d = iblk m c 2 t :=
  before0_2_of m (dats m 0 c) (A_eq m c 2) (after2 m c) t d

/-- At a first tile the output window's buffer holds anything: it is the run's first point, or the block was written
    back at the point before. -/
theorem before3_first (c : Dev nD) (t : Fin cfg0.N) (h0 : t.val % 22 = 0) (d) : (dats m 0 c).before 3 t d = d := by
  have hN : t.val < 44 := lt_of_lt_of_eq t.isLt (show cfg0.N = 44 from N_0)
  refine Dat.before_out_reset _ 3 rfl t ?_ d
  by_cases ht : t.val = 0
  · exact Or.inl ht
  · exact Or.inr ⟨ht, (flush0_3 _).mpr (by dsimp only; omega)⟩

/-- At a later tile it holds what the body left at the point before: the block was not written back between. -/
theorem before3_acc (c : Dev nD) (t : Fin cfg0.N) (h0 : ¬t.val % 22 = 0) (d) :
    (dats m 0 c).before 3 t d = accAt m c (t.val - 1) (Nat.lt_of_le_of_lt (Nat.sub_le _ _) t.isLt) := by
  have hN : t.val < 44 := lt_of_lt_of_eq t.isLt (show cfg0.N = 44 from N_0)
  rw [Dat.before_out_kept _ 3 rfl t (by omega) (Bool.eq_false_iff.mpr fun h => by have := (flush0_3 _).mp h; dsimp only at this; omega)
    (fun _ => rfl) (fun _ _ => rfl)]
  dsimp only [dats]

/-- The tile product of the `x` buffer as the fetch left it (anything past the array's end) is the tile product of the
    tile with zeros there. -/
theorem pay2_xz (c : Dev nD) (t : Fin cfg0.N) (d0 : S512x1280.Idx → Elt F .f32) (x1 : Vec F S1280x1408 .bf16) (xo : Vec F S512x1408 .f32) :
    k0_pay2 (F := F) (grid0.coords t) (xz m c t) x1 xo
      = k0_pay2 (F := F) (grid0.coords t) (win0_0.fill (grid0.coords t) d0 (iblk m c 0 t)) x1 xo := by
  unfold xz
  exact pay2_fill_indep t _ d0 _ x1 xo

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the `x` window's buffer is stated on the fetched part only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the closed forms of the two conditions say which case the point is in; the inputs' buffers
    hold their blocks, the output's what the case needs; the case's run applies; what it leaves in the output block is
    the body's arithmetic of the buffers' contents, which does not depend on the `x` buffer's words past the array. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  have hcut : win0_0.cut (grid0.coords t) (xz m c t) = iblk m c 0 t := win0_0.cut_fill _ _ _
  rw [hcut]
  have hN : t.val < 44 := lt_of_lt_of_eq t.isLt (show cfg0.N = 44 from N_0)
  by_cases h0 : t.val % 22 = 0
  · have h1 : ¬t.val % 22 = 21 := by omega
    rw [accAt_first m c t h0]
    simp only [before3_first m c t h0]
    iintro ⟨HΦ, Ho, ⟨%d0, H0⟩, ⟨%d1, H1⟩, ⟨%d2, H2⟩, ⟨%d3, H3⟩⟩
    rw [pay2_xz m c t d0 (iblk m c 1 t) (k0_pay1 (F := F)),
      ← outFirst_eq c (grid0.coords t) (ms0 t) (hs0 t) (ms1 t) (hs1 t) (ms2 t) (hs2 t) (ms3 t) (hs3 t)
        ((hcondFirst t).mpr h0) (fun h => h1 ((hcondLast t).mp h)) (win0_0.fill (grid0.coords t) d0 (iblk m c 0 t)) (iblk m c 1 t) (iblk m c 2 t)]
    unfold outFirst
    iapply ((runFirst c (grid0.coords t) _ _ _ _ _ _ _ _ ((hcondFirst t).mpr h0) (fun h => h1 ((hcondLast t).mp h))
      (win0_0.fill (grid0.coords t) d0 (iblk m c 0 t)) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexists d0; iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · simp only [before3_acc m c t h0]
    by_cases h1 : t.val % 22 = 21
    · rw [accAt_last m c t h1]
      iintro ⟨HΦ, Ho, ⟨%d0, H0⟩, ⟨%d1, H1⟩, ⟨%d2, H2⟩, ⟨%d3, H3⟩⟩
      rw [pay2_xz m c t d0 (iblk m c 1 t) (accAt m c (t.val - 1) (Nat.lt_of_le_of_lt (Nat.sub_le _ _) t.isLt)),
        ← outLast_eq c (grid0.coords t) (ms0 t) (hs0 t) (ms1 t) (hs1 t) (ms2 t) (hs2 t) (ms3 t) (hs3 t)
          (fun h => h0 ((hcondFirst t).mp h)) ((hcondLast t).mpr h1) (win0_0.fill (grid0.coords t) d0 (iblk m c 0 t)) (iblk m c 1 t) (iblk m c 2 t)
          (accAt m c (t.val - 1) (Nat.lt_of_le_of_lt (Nat.sub_le _ _) t.isLt))]
      unfold outLast
      iapply ((runLast c (grid0.coords t) _ _ _ _ _ _ _ _ (fun h => h0 ((hcondFirst t).mp h)) ((hcondLast t).mpr h1)
        (win0_0.fill (grid0.coords t) d0 (iblk m c 0 t)) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexists d0; iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _)
    · rw [accAt_mid m c t h0 h1]
      iintro ⟨HΦ, Ho, ⟨%d0, H0⟩, ⟨%d1, H1⟩, ⟨%d2, H2⟩, ⟨%d3, H3⟩⟩
      rw [pay2_xz m c t d0 (iblk m c 1 t) (accAt m c (t.val - 1) (Nat.lt_of_le_of_lt (Nat.sub_le _ _) t.isLt)),
        ← outMid_eq c (grid0.coords t) (ms0 t) (hs0 t) (ms1 t) (hs1 t) (ms2 t) (hs2 t) (ms3 t) (hs3 t)
          (fun h => h0 ((hcondFirst t).mp h)) (fun h => h1 ((hcondLast t).mp h)) (win0_0.fill (grid0.coords t) d0 (iblk m c 0 t)) (iblk m c 1 t) (iblk m c 2 t)
          (accAt m c (t.val - 1) (Nat.lt_of_le_of_lt (Nat.sub_le _ _) t.isLt))]
      unfold outMid
      iapply ((runMid c (grid0.coords t) _ _ _ _ _ _ _ _ (fun h => h0 ((hcondFirst t).mp h)) (fun h => h1 ((hcondLast t).mp h))
        (win0_0.fill (grid0.coords t) d0 (iblk m c 0 t)) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexists d0; iexact H0
      isplitl [H1]; · iexact H1
      isplitl [H2]; · iexact H2
      unfold owns; iexists _; isplitr
      swap; · iexact H3
      ipureintro; exact View.read_writes_of_cover _ _ _ _ _ (coverMid c _ _ _ _ _ _ _ _ _ _ _ _ _ _ _)

/-- The library's body obligation, at every point: no point is idle for a window, and only the `x` window's buffer
    is stated on its fetched part. -/
theorem body_obligation (c : Dev nD) : BodyObligationLoose (dats (F := F) m 0 c) (defs₀ (F := F)) Variants.none () Set.univ := fun t => by
  rw [bigSep_W0, bigSep_W0]
  simp only
  exact sound_body m c t

/-! ## The run and the frame -/

set_option backward.isDefEq.respectTransparency.types false in
/-- At the compiled mesh, for any values, from any memory with zero counters: every weakly fair execution of @main
    terminates, and every final state has every array of the pipeline at what the library computes from the proof
    data and every other unscoped buffer at what the host lines after the region make of the region's results. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float instance: the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.KI.Runs.lean ====
/-
  The kernel body run on whole staging buffers, in each of the three cases the grid meets.

  The body branches twice on the reduction coordinate k of the grid point: at k = 0 it first clears the output block;
  at every point it adds the tile product onto the output block; at k = 21 it then replaces the block by tanh of the
  block plus the bias row. So a point is in one of three cases: FIRST (k = 0: clear, then add), MIDDLE (0 < k < 21:
  add onto what the point before left), LAST (k = 21: add onto what the point before left, then the bias and tanh).
  In each case the body runs, on any four whole buffers holding the `x` tile, the weight tile, the bias row and the
  output block, to a state where the three inputs hold what they held and the output block holds its stores written
  in order; the list of stores is found by the run itself.
-/
import proofs.«426682_j6717328851824_3_alg».proof.Proof.Gen.KernelIdeal.Frame
import proofs.«426682_j6717328851824_3_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, decided over the grid -/

/-- The first branch's condition, from the grid coordinates: the reduction coordinate is 0. -/
abbrev condFirst (i : grid0.Coords) : Prop :=
  (Scalar.cmpi .ne (Scalar.extui (Scalar.cmpi .eq (BitVec.ofNat 32 (i 1).val) 0#32)) 0#32) = 1#1
/-- The second branch's condition: the reduction coordinate is 21, the last. -/
abbrev condLast (i : grid0.Coords) : Prop :=
  (Scalar.cmpi .ne (Scalar.extui (Scalar.cmpi .eq (BitVec.ofNat 32 (i 1).val) 21#32)) 0#32) = 1#1

/-- The grid is 2 × 22, the reduction coordinate the fast one: the first condition holds at the points ≡ 0 (mod 22), -/
theorem hcondFirst : ∀ t : Fin cfg0.N, condFirst (grid0.coords t) ↔ t.val % 22 = 0 :=
  (by decide +kernel : ∀ t : Fin grid0.N, condFirst (grid0.coords t) ↔ t.val % 22 = 0)
/-- and the second at the points ≡ 21 (mod 22). -/
theorem hcondLast : ∀ t : Fin cfg0.N, condLast (grid0.coords t) ↔ t.val % 22 = 21 :=
  (by decide +kernel : ∀ t : Fin grid0.N, condLast (grid0.coords t) ↔ t.val % 22 = 21)

/-! ## The staging buffers at a point -/

/-- One staging buffer of the output window, through which its contents are stated. -/
abbrev VO : View sig .tc .vmem S512x1408 .f32 := (Memref.whole cc0_stg3_0 : Memref sig .tc .vmem S512x1408 .f32).view
/-- Each window's current staging buffer at point `t`, as the pipeline passes it to the body, and its wholeness. -/
abbrev ms0 (t : Fin cfg0.N) : Memref sig .tc .vmem S512x1280 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1280x1408 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1408 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x1408 .f32 := win0_3.stage (cfg0.slots t 3)
abbrev hs3 (t : Fin cfg0.N) : (ms3 t).IsWhole := hstage0_3 ((cfg0.slots t 3).cast nbuf0_3)

/-! ## The body's run, case by case -/

set_option maxHeartbeats 1000000 in
/-- FIRST case (k = 0): the output block, at anything, is cleared, then the tile product is added onto it. -/
noncomputable def runFirst (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) :
    { L : List (View.Piece (Elt F) S512x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_bias_tanh_kernel i arg2 harg2 arg3 harg3 arg4 harg4 arg5 harg5) K } := by
  refine ⟨?_, fun E K => ?run⟩
  case run =>
    simp only [cc0__matmul_bias_tanh_kernel_eq_skeleton]; unfold cc0__matmul_bias_tanh_kernel_skel
    unfold owns
    iintro ⟨⟨%f0, %hf0, H0⟩, ⟨%f1, %hf1, H1⟩, ⟨%f2, %hf2, H2⟩, ⟨%d3, %f3, -, H3⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- MIDDLE case (0 < k < 21): the tile product is added onto what the output block holds. -/
noncomputable def runMid (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) :
    { L : List (View.Piece (Elt F) S512x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_bias_tanh_kernel i arg2 harg2 arg3 harg3 arg4 harg4 arg5 harg5) K } := by
  refine ⟨?_, fun E K => ?run⟩
  case run =>
    simp only [cc0__matmul_bias_tanh_kernel_eq_skeleton]; unfold cc0__matmul_bias_tanh_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

set_option maxHeartbeats 1000000 in
/-- LAST case (k = 21): the tile product is added onto what the output block holds, then the bias row is added and
    tanh applied. -/
noncomputable def runLast (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) :
    { L : List (View.Piece (Elt F) S512x1408 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E (cc0__matmul_bias_tanh_kernel i arg2 harg2 arg3 harg3 arg4 harg4 arg5 harg5) K } := by
  refine ⟨?_, fun E K => ?run⟩
  case run =>
    simp only [cc0__matmul_bias_tanh_kernel_eq_skeleton]; unfold cc0__matmul_bias_tanh_kernel_skel
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

end Cert.KernelIdeal.Hand

end
-- ==== Proof.KI.Pieces.lean ====
/-
  What each case of the body leaves in the output block, as a value: the body's stores read back are its named
  arithmetic (`k0_pay1`: the zero block; `k0_pay2`: the block plus the tile product; `k0_pay3`: tanh of the block plus
  the bias row) of what the buffers held.
-/
import proofs.«426682_j6717328851824_3_alg».proof.Proof.KI.Runs
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The stores cover the output block -/

theorem coverFirst (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) (y : S512x1408.Idx) :
    ∃ pc ∈ (runFirst c i arg2 harg2 arg3 harg3 arg4 harg4 arg5 harg5 hc0 hc1 x0 x1 x2).1, y ∈ pc.1.set :=
  View.cover_of_tiledL (runFirst c i arg2 harg2 arg3 harg3 arg4 harg4 arg5 harg5 hc0 hc1 x0 x1 x2).1 S512x1408.size (by sl_kernel_rfl) y

theorem coverMid (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) (y : S512x1408.Idx) :
    ∃ pc ∈ (runMid c i arg2 harg2 arg3 harg3 arg4 harg4 arg5 harg5 hc0 hc1 x0 x1 x2 xo).1, y ∈ pc.1.set :=
  View.cover_of_tiledL (runMid c i arg2 harg2 arg3 harg3 arg4 harg4 arg5 harg5 hc0 hc1 x0 x1 x2 xo).1 S512x1408.size (by sl_kernel_rfl) y

theorem coverLast (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) (y : S512x1408.Idx) :
    ∃ pc ∈ (runLast c i arg2 harg2 arg3 harg3 arg4 harg4 arg5 harg5 hc0 hc1 x0 x1 x2 xo).1, y ∈ pc.1.set :=
  View.cover_of_tiledL (runLast c i arg2 harg2 arg3 harg3 arg4 harg4 arg5 harg5 hc0 hc1 x0 x1 x2 xo).1 S512x1408.size (by sl_kernel_rfl) y

/-! ## What each case leaves, as the stores read back over anything -/

def outFirst (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) : Vec F S512x1408 .f32 :=
  VO.read (Elt F) (VO.writes (Elt F) VO.junk (runFirst c i arg2 harg2 arg3 harg3 arg4 harg4 arg5 harg5 hc0 hc1 x0 x1 x2).1)

def outMid (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) : Vec F S512x1408 .f32 :=
  VO.read (Elt F) (VO.writes (Elt F) VO.junk (runMid c i arg2 harg2 arg3 harg3 arg4 harg4 arg5 harg5 hc0 hc1 x0 x1 x2 xo).1)

def outLast (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) : Vec F S512x1408 .f32 :=
  VO.read (Elt F) (VO.writes (Elt F) VO.junk (runLast c i arg2 harg2 arg3 harg3 arg4 harg4 arg5 harg5 hc0 hc1 x0 x1 x2 xo).1)

/-! ## The stores read back are the body's arithmetic -/

/-- FIRST: the zero block plus the tile product. -/
theorem outFirst_eq (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : condFirst i) (hc1 : ¬condLast i)
    (x0 : Vec F S512x1280 .f32) (x1 : Vec F S1280x1408 .bf16) (x2 : Vec F S1x1408 .f32) :
    outFirst c i arg2 harg2 arg3 harg3 arg4 harg4 arg5 harg5 hc0 hc1 x0 x1 x2 = k0_pay2 (F := F) i x0 x1 (k0_pay1 (F := F)) := by
  have hz : (![0, 0] : Fin 2 → Nat) = fun _ => 0 := funext fun a => by fin_cases a <;> rfl
  unfold outFirst
  rw [View.read_writes_eq_canon _ _ _ (coverFirst c i arg2 harg2 arg3 harg3 arg4 harg4 arg5 harg5 hc0 hc1 x0 x1 x2)]
  unfold runFirst
  dsimp only
  sl_unfold_words
  rw [View.canon_cons_unit_zero (S := S512x1408) hz, View.readCov_unit_zero (S := S512x1408) _ hz]
  simp only [View.readAt_eq_ld, harg2.read_unread, harg3.read_unread,
    View.ld_unit_zero (S := S512x1280) hz, View.ld_unit_zero (S := S1280x1408) hz]

/-- MIDDLE: what the block held plus the tile product. -/
theorem outMid_eq (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : ¬condLast i)
    (x0 : Vec F S512x1280 .f32) (x1 : Vec F S1280x1408 .bf16) (x2 : Vec F S1x1408 .f32) (xo : Vec F S512x1408 .f32) :
    outMid c i arg2 harg2 arg3 harg3 arg4 harg4 arg5 harg5 hc0 hc1 x0 x1 x2 xo = k0_pay2 (F := F) i x0 x1 xo := by
  have hz : (![0, 0] : Fin 2 → Nat) = fun _ => 0 := funext fun a => by fin_cases a <;> rfl
  unfold outMid
  rw [View.read_writes_eq_canon _ _ _ (coverMid c i arg2 harg2 arg3 harg3 arg4 harg4 arg5 harg5 hc0 hc1 x0 x1 x2 xo)]
  unfold runMid
  dsimp only
  sl_unfold_words
  rw [View.canon_unit_zero hz]
  simp only [View.readAt_eq_ld, harg2.read_unread, harg3.read_unread, harg5.read_unread,
    View.ld_unit_zero (S := S512x1280) hz, View.ld_unit_zero (S := S1280x1408) hz, View.ld_unit_zero (S := S512x1408) hz]

/-- LAST: tanh of (what the block held plus the tile product) plus the bias row. -/
theorem outLast_eq (c : Dev nD) (i : grid0.Coords)
    (arg2 : Memref sig .tc .vmem S512x1280 .f32) (harg2 : arg2.IsWhole) (arg3 : Memref sig .tc .vmem S1280x1408 .bf16) (harg3 : arg3.IsWhole)
    (arg4 : Memref sig .tc .vmem S1x1408 .f32) (harg4 : arg4.IsWhole) (arg5 : Memref sig .tc .vmem S512x1408 .f32) (harg5 : arg5.IsWhole)
    (hc0 : ¬condFirst i) (hc1 : condLast i)
    (x0 : Vec F S512x1280 .f32) (x1 : Vec F S1280x1408 .bf16) (x2 : Vec F S1x1408 .f32) (xo : Vec F S512x1408 .f32) :
    outLast c i arg2 harg2 arg3 harg3 arg4 harg4 arg5 harg5 hc0 hc1 x0 x1 x2 xo = k0_pay3 (F := F) (k0_pay2 (F := F) i x0 x1 xo) x2 := by
  have hz : (![0, 0] : Fin 2 → Nat) = fun _ => 0 := funext fun a => by fin_cases a <;> rfl
  unfold outLast
  rw [View.read_writes_eq_canon _ _ _ (coverLast c i arg2 harg2 arg3 harg3 arg4 harg4 arg5 harg5 hc0 hc1 x0 x1 x2 xo)]
  unfold runLast
  dsimp only
  sl_unfold_words
  rw [View.canon_cons_unit_zero (S := S512x1408) hz, View.readCov_unit_zero (S := S512x1408) _ hz]
  simp only [View.readAt_eq_ld, harg2.read_unread, harg3.read_unread, harg4.read_unread, harg5.read_unread,
    View.ld_unit_zero (S := S512x1280) hz, View.ld_unit_zero (S := S1280x1408) hz,
    View.ld_unit_zero (S := S1x1408) hz, View.ld_unit_zero (S := S512x1408) hz]

end Cert.KernelIdeal.Hand

end
-- ==== Proof.KI.Mask.lean ====
/-
  The tile product does not see the words of the `x` tile that lie past column 27000 of the array.

  The `x` window's last tile along the reduction axis overhangs the array: the array has 27000 columns, the tiles are
  1280 wide, so tile 21 starts at column 26880 and only its first 120 columns are fetched; the rest of the staging buffer
  holds words nothing names. The body computes the global column of every position (1280·k plus the position's column),
  selects zero wherever it is 27000 or more, and only then multiplies. Every position the fetch does not fill has
  such a column, so two buffer contents that hold the same fetched part give the same block.
-/
import proofs.«426682_j6717328851824_3_alg».proof.Proof.Gen.KernelIdeal.Frame
import proofs.«426682_j6717328851824_3_alg».proof.Proof.Gen.KernelIdeal.Skeleton
import Idealize.ShloMosaic.Lib.StableHlo.Predicate

set_option maxRecDepth 16384

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]

/-- The `x` window never cuts a tile's rows: both row tiles lie inside the array's 1024 rows. -/
theorem xsize_row (i : grid0.Coords) : win0_0.xsize i 0 = 512 := by
  have h0 : (i 0).val < 2 := (i 0).isLt
  have hk : cc0_transform_0 i 0 = (i 0).val := by
    show (BitVec.ofNat 32 (i 0).val).toNat = (i 0).val
    rw [BitVec.toNat_ofNat]; omega
  show (Pipeline.Clip.of (cc0_transform_0 i 0) 512 1024).extent 512 = 512
  rw [hk]; unfold Pipeline.Clip.of
  rw [if_pos (by omega)]

/-- Along the columns a tile is fetched whole, or it is cut exactly at the array's column 27000. -/
theorem xsize_col (i : grid0.Coords) : win0_0.xsize i 1 = 1280 ∨ 27000 ≤ (i 1).val * 1280 + win0_0.xsize i 1 := by
  have h1 : (i 1).val < 22 := (i 1).isLt
  have hk : cc0_transform_0 i 1 = (i 1).val := by
    show (BitVec.ofNat 32 (i 1).val).toNat = (i 1).val
    rw [BitVec.toNat_ofNat]; omega
  show (Pipeline.Clip.of (cc0_transform_0 i 1) 1280 27000).extent 1280 = 1280
    ∨ 27000 ≤ (i 1).val * 1280 + (Pipeline.Clip.of (cc0_transform_0 i 1) 1280 27000).extent 1280
  rw [hk]; unfold Pipeline.Clip.of
  split
  · exact Or.inl rfl
  · next hn => right; show 27000 ≤ (i 1).val * 1280 + (27000 - (i 1).val * 1280); omega

/-- A position the fetch does not fill has global column 27000 or more. -/
theorem col_ge_of_not_moved (i : grid0.Coords) (y : S512x1280.Idx) (h : ¬ win0_0.moved i y = true) :
    27000 ≤ (i 1).val * 1280 + (y 1).val := by
  rw [Window.moved_iff] at h
  have y0 : (y 0).val < 512 := (y 0).isLt
  have y1 : (y 1).val < 1280 := (y 1).isLt
  by_contra hc
  apply h
  intro a
  match a with
  | ⟨0, _⟩ => show (y 0).val < win0_0.xsize i 0; rw [xsize_row]; exact y0
  | ⟨1, _⟩ =>
    show (y 1).val < win0_0.xsize i 1
    rcases xsize_col i with e | e
    · rw [e]; exact y1
    · omega

/-- The body's mask bit at a position: the global column, 1280·k plus the position's column, is below 27000. At a
    position whose global column is 27000 or more the bit is clear. -/
theorem mask_ne_one (i : grid0.Coords) (y : S512x1280.Idx) (hc : 27000 ≤ (i 1).val * 1280 + (y 1).val) :
    cmpi .slt (addi (broadcast S512x1280 (Scalar.muli (BitVec.ofNat 32 (i 1).val) 1280#32))
        (iota .tc S512x1280 32 [1] iota_S512x1280_d1_w32)) (broadcast S512x1280 27000#32) y ≠ 1 := by
  have h1 : (i 1).val < 22 := (i 1).isLt
  have y1 : (y 1).val < 1280 := (y 1).isLt
  have e : cmpi .slt (addi (broadcast S512x1280 (Scalar.muli (BitVec.ofNat 32 (i 1).val) 1280#32))
        (iota .tc S512x1280 32 [1] iota_S512x1280_d1_w32)) (broadcast S512x1280 27000#32) y
      = BitVec.ofBool ((BitVec.ofNat 32 (i 1).val * BitVec.ofNat 32 1280
          + iota .tc S512x1280 32 [1] iota_S512x1280_d1_w32 y).slt (BitVec.ofNat 32 27000)) := rfl
  -- an iota along the columns reads the position's column
  have ei : iota .tc S512x1280 32 [1] iota_S512x1280_d1_w32 y = BitVec.ofNat 32 (y 1).val := by
    show BitVec.ofNat 32 (0 * 1280 + (y 1).val) = _
    rw [Nat.zero_mul, Nat.zero_add]
  rw [e, ei, ← BitVec.ofNat_mul, ← BitVec.ofNat_add]
  intro hb
  have := (StableHlo.Predicate.slt_ofNat_iff _ _ (by omega) (by omega)).1 hb
  omega

/-- At every grid point, two contents of the `x` staging buffer that hold the same fetched part (the tile's part inside
    the array) give the same block: the body selects zero wherever the global column is 27000 or more, and every
    position the fetch does not fill has such a column. -/
theorem pay2_fill_indep (t : Fin cfg0.N) (d d' : S512x1280.Idx → Elt F .f32)
    (g : (win0_0.xblock (grid0.coords t)).Idx → Elt F .f32) (x1 : Vec F S1280x1408 .bf16) (xo : Vec F S512x1408 .f32) :
    k0_pay2 (F := F) (grid0.coords t) (win0_0.fill (grid0.coords t) d g) x1 xo
      = k0_pay2 (F := F) (grid0.coords t) (win0_0.fill (grid0.coords t) d' g) x1 xo := by
  have key : select (cmpi .slt (addi (broadcast S512x1280 (Scalar.muli (BitVec.ofNat 32 (grid0.coords t 1).val) 1280#32))
        (iota .tc S512x1280 32 [1] iota_S512x1280_d1_w32)) (broadcast S512x1280 27000#32))
        (win0_0.fill (grid0.coords t) d g) (broadcast S512x1280 (Scalar.ofBits (F := F) .f32 0x00000000#32))
      = select (cmpi .slt (addi (broadcast S512x1280 (Scalar.muli (BitVec.ofNat 32 (grid0.coords t 1).val) 1280#32))
        (iota .tc S512x1280 32 [1] iota_S512x1280_d1_w32)) (broadcast S512x1280 27000#32))
        (win0_0.fill (grid0.coords t) d' g) (broadcast S512x1280 (Scalar.ofBits (F := F) .f32 0x00000000#32)) := by
    funext y
    by_cases hm : win0_0.moved (grid0.coords t) y = true
    · -- a filled position holds the fetched word in both
      have ef : win0_0.fill (grid0.coords t) d g y = win0_0.fill (grid0.coords t) d' g y := by
        unfold Window.fill; rw [dif_pos hm, dif_pos hm]
      show Scalar.select _ _ _ = Scalar.select _ _ _
      rw [ef]
    · -- an unfilled position lies past column 27000: the mask bit is clear, both selects give zero
      have hb := mask_ne_one (grid0.coords t) y (col_ge_of_not_moved _ y hm)
      show Scalar.select _ _ _ = Scalar.select _ _ _
      unfold Scalar.select
      rw [if_neg hb, if_neg hb]
  unfold k0_pay2
  dsimp only
  rw [key]

end Cert.KernelIdeal.Hand

end
-- ==== Proof.KI.Frame.lean ====
/-
  The frame of the program: it runs to the end, faults nowhere, and leaves its five argument arrays unchanged; and,
  for the value proof, what the output array holds at the end in terms of the body's arithmetic.

  The pipeline's proof data. After the body at a grid point: the `x` window's staging buffer holds its tile (the
  tile's part inside the array; past column 27000 we state zeros, which nothing reads: that window's obligation speaks
  of the fetched part only), the weight and bias windows' buffers their blocks, and the output window's buffer the
  running block `accAt`: at k = 0 the zero block plus the tile product, at a later k what the point before left plus
  the tile product, and at k = 21 tanh of that plus the bias row. The output block is written back after k = 21 only,
  so between k = 0 and k = 21 its buffer keeps what the point before left.
-/
import proofs.«426682_j6717328851824_3_alg».proof.Proof.KI.Pieces
import proofs.«426682_j6717328851824_3_alg».proof.Proof.KI.Mask

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the staging buffers hold after each point -/

/-- The `x` tile at point `t`: its part inside the array, zeros past the array's end. -/
def xz (c : Dev nD) (t : Fin cfg0.N) : Vec F S512x1280 .f32 :=
  win0_0.fill (grid0.coords t) (fun _ => Scalar.ofBits .f32 0#32) (iblk m c 0 t)

/-- THE ACCUMULATION: the output block after the body at position `n`. -/
def accAt (c : Dev nD) : (n : ℕ) → n < cfg0.N → Vec F S512x1408 .f32
  | 0, hn => k0_pay2 (F := F) (grid0.coords ⟨0, hn⟩) (xz m c ⟨0, hn⟩) (iblk m c 1 ⟨0, hn⟩) (k0_pay1 (F := F))
  | n + 1, hn =>
    if (n + 1) % 22 = 0 then
      k0_pay2 (F := F) (grid0.coords ⟨n + 1, hn⟩) (xz m c ⟨n + 1, hn⟩) (iblk m c 1 ⟨n + 1, hn⟩) (k0_pay1 (F := F))
    else if (n + 1) % 22 = 21 then
      k0_pay3 (F := F) (k0_pay2 (F := F) (grid0.coords ⟨n + 1, hn⟩) (xz m c ⟨n + 1, hn⟩) (iblk m c 1 ⟨n + 1, hn⟩) (accAt c n (Nat.lt_of_succ_lt hn)))
        (iblk m c 2 ⟨n + 1, hn⟩)
    else
      k0_pay2 (F := F) (grid0.coords ⟨n + 1, hn⟩) (xz m c ⟨n + 1, hn⟩) (iblk m c 1 ⟨n + 1, hn⟩) (accAt c n (Nat.lt_of_succ_lt hn))

/-- At a first tile: the zero block plus the tile product. -/
theorem accAt_first (c : Dev nD) (t : Fin cfg0.N) (h0 : t.val % 22 = 0) :
    accAt m c t.val t.isLt = k0_pay2 (F := F) (grid0.coords t) (xz m c t) (iblk m c 1 t) (k0_pay1 (F := F)) := by
  obtain ⟨n, hn⟩ := t
  cases n with
  | zero => rfl
  | succ n => exact (if_pos h0).trans rfl

/-- At a middle tile: what the point before left plus the tile product. -/
theorem accAt_mid (c : Dev nD) (t : Fin cfg0.N) (h0 : ¬t.val % 22 = 0) (h1 : ¬t.val % 22 = 21) :
    accAt m c t.val t.isLt = k0_pay2 (F := F) (grid0.coords t) (xz m c t) (iblk m c 1 t)
      (accAt m c (t.val - 1) (Nat.lt_of_le_of_lt (Nat.sub_le _ _) t.isLt)) := by
  obtain ⟨n, hn⟩ := t
  cases n with
  | zero => exact absurd (Nat.zero_mod _) h0
  | succ n => exact ((if_neg h0).trans (if_neg h1)).trans rfl

/-- At a last tile: tanh of (what the point before left plus the tile product) plus the bias row. -/
theorem accAt_last (c : Dev nD) (t : Fin cfg0.N) (h1 : t.val % 22 = 21) :
    accAt m c t.val t.isLt = k0_pay3 (F := F) (k0_pay2 (F := F) (grid0.coords t) (xz m c t) (iblk m c 1 t)
      (accAt m c (t.val - 1) (Nat.lt_of_le_of_lt (Nat.sub_le _ _) t.isLt))) (iblk m c 2 t) := by
  obtain ⟨n, hn⟩ := t
  cases n with
  | zero => exact absurd h1 (by show ¬(0 % 22 = 21); decide)
  | succ n =>
    have h0 : ¬(n + 1) % 22 = 0 := by dsimp only at h1; omega
    exact ((if_neg h0).trans (if_pos h1)).trans rfl

/-! ## The pipeline's proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xz m c t
    | ⟨1, _⟩ => iblk m c 1 t
    | ⟨2, _⟩ => iblk m c 2 t
    | ⟨3, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = xz m c t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = accAt m c t.val t.isLt := by dsimp only [dats]

/-! ## What the body finds in each staging buffer -/

/-- The `x` window is fetched at every point: its buffer holds the tile's part inside the array, and past it whatever
    the fetch left (`d`). -/
theorem before0 (c : Dev nD) (t : Fin cfg0.N) (d) :
    (dats m 0 c).before 0 t d = win0_0.fill (grid0.coords t) d (iblk m c 0 t) := by
  unfold Dat.before; rw [if_pos (fetch0_0 t)]
  unfold Dat.fetched Dat.blockOf iblk; rw [A_eq]

/-- The weight window's buffer holds its block, -/
theorem before1 (c : Dev nD) (t : Fin cfg0.N) (d) : (dats m 0 c).before 1 t d = iblk m c 1 t :=
  before0_1_of m (dats m 0 c) (A_eq m c 1) (after1 m c) t d
/-- and the bias window's its row. -/
theorem before2 (c : Dev nD) (t : Fin cfg0.N) (d) : (dats m 0 c).before 2 t d = iblk m c 2 t :=
  before0_2_of m (dats m 0 c) (A_eq m c 2) (after2 m c) t d

/-- At a first tile the output window's buffer holds anything: it is the run's first point, or the block was written
    back at the point before. -/
theorem before3_first (c : Dev nD) (t : Fin cfg0.N) (h0 : t.val % 22 = 0) (d) : (dats m 0 c).before 3 t d = d := by
  have hN : t.val < 44 := lt_of_lt_of_eq t.isLt (show cfg0.N = 44 from N_0)
  refine Dat.before_out_reset _ 3 rfl t ?_ d
  by_cases ht : t.val = 0
  · exact Or.inl ht
  · exact Or.inr ⟨ht, (flush0_3 _).mpr (by dsimp only; omega)⟩

/-- At a later tile it holds what the body left at the point before: the block was not written back between. -/
theorem before3_acc (c : Dev nD) (t : Fin cfg0.N) (h0 : ¬t.val % 22 = 0) (d) :
    (dats m 0 c).before 3 t d = accAt m c (t.val - 1) (Nat.lt_of_le_of_lt (Nat.sub_le _ _) t.isLt) := by
  have hN : t.val < 44 := lt_of_lt_of_eq t.isLt (show cfg0.N = 44 from N_0)
  rw [Dat.before_out_kept _ 3 rfl t (by omega) (Bool.eq_false_iff.mpr fun h => by have := (flush0_3 _).mp h; dsimp only at this; omega)
    (fun _ => rfl) (fun _ _ => rfl)]
  dsimp only [dats]

/-- The tile product of the `x` buffer as the fetch left it (anything past the array's end) is the tile product of the
    tile with zeros there. -/
theorem pay2_xz (c : Dev nD) (t : Fin cfg0.N) (d0 : S512x1280.Idx → Elt F .f32) (x1 : Vec F S1280x1408 .bf16) (xo : Vec F S512x1408 .f32) :
    k0_pay2 (F := F) (grid0.coords t) (xz m c t) x1 xo
      = k0_pay2 (F := F) (grid0.coords t) (win0_0.fill (grid0.coords t) d0 (iblk m c 0 t)) x1 xo := by
  unfold xz
  exact pay2_fill_indep t _ d0 _ x1 xo

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns: the `x` window's buffer is stated on the fetched part only. -/
def bodyPost (c : Dev nD) (t : Fin cfg0.N) : sProp 𝕄 :=
  iprop((dats m 0 c).Φ t.succ ∗ (dats m 0 c).owesAt () t.succ
    ∗ (∃ d, owns (c : Thread nD τ) (ms0 t) fullShare (win0_0.fill (grid0.coords t) d (win0_0.cut (grid0.coords t) ((dats m 0 c).after 0 t))))
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1600000 in
/-- The body at any point: the closed forms of the two conditions say which case the point is in; the inputs' buffers
    hold their blocks, the output's what the case needs; the case's run applies; what it leaves in the output block is
    the body's arithmetic of the buffers' contents, which does not depend on the `x` buffer's words past the array. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3]
  have hcut : win0_0.cut (grid0.coords t) (xz m c t) = iblk m c 0 t := win0_0.cut_fill _ _ _
  rw [hcut]
  have hN : t.val < 44 := lt_of_lt_of_eq t.isLt (show cfg0.N = 44 from N_0)
  by_cases h0 : t.val % 22 = 0
  · have h1 : ¬t.val % 22 = 21 := by omega
    rw [accAt_first m c t h0]
    simp only [before3_first m c t h0]
    iintro ⟨HΦ, Ho, ⟨%d0, H0⟩, ⟨%d1, H1⟩, ⟨%d2, H2⟩, ⟨%d3, H3⟩⟩
    rw [pay2_xz m c t d0 (iblk m c 1 t) (k0_pay1 (F := F)),
      ← outFirst_eq c (grid0.coords t) (ms0 t) (hs0 t) (ms1 t) (hs1 t) (ms2 t) (hs2 t) (ms3 t) (hs3 t)
        ((hcondFirst t).mpr h0) (fun h => h1 ((hcondLast t).mp h)) (win0_0.fill (grid0.coords t) d0 (iblk m c 0 t)) (iblk m c 1 t) (iblk m c 2 t)]
    unfold outFirst
    iapply ((runFirst c (grid0.coords t) _ _ _ _ _ _ _ _ ((hcondFirst t).mpr h0) (fun h => h1 ((hcondLast t).mp h))
      (win0_0.fill (grid0.coords t) d0 (iblk m c 0 t)) (iblk m c 1 t) (iblk m c 2 t)).2 Set.univ _)
    isplitl [H0]; · iexact H0
    isplitl [H1]; · iexact H1
    isplitl [H2]; · iexact H2
    isplitl [H3]; · iexists _; iexact H3
    iintro ⟨H0, H1, H2, ⟨%e3, H3⟩⟩
    isplitl [HΦ]; · iexact HΦ
    isplitl [Ho]; · iexact Ho
    isplitl [H0]; · iexists d0; iexact H0
    isplitl [H1]; · iexact H1
    isplitl [H2]; · iexact H2
    unfold owns; iexists _; isplitr
    swap; · iexact H3
    ipureintro; exact View.read_writes_of_cover _ _ _ _ _ (coverFirst c _ _ _ _ _ _ _ _ _ _ _ _ _ _)
  · simp only [before3_acc m c t h0]
    by_cases h1 : t.val % 22 = 21
    · rw [accAt_last m c t h1]
      iintro ⟨HΦ, Ho, ⟨%d0, H0⟩, ⟨%d1, H1⟩, ⟨%d2, H2⟩, ⟨%d3, H3⟩⟩
      rw [pay2_xz m c t d0 (iblk m c 1 t) (accAt m c (t.val - 1) (Nat.lt_of_le_of_lt (Nat.sub_le _ _) t.isLt)),
        ← outLast_eq c (grid0.coords t) (ms0 t) (hs0 t) (ms1 t) (hs1 t) (ms2 t) (hs2 t) (ms3 t) (hs3 t)
          (fun h => h0 ((hcondFirst t).mp h)) ((hcondLast t).mpr h1) (win0_0.fill (grid0.coords t) d0 (iblk m c 0 t)) (iblk m c 1 t) (iblk m c 2 t)
          (accAt m c (t.val - 1) (Nat.lt_of_le_of_lt (Nat.sub_le _ _) t.isLt))]
      unfold outLast
      iapply ((runLast c (grid0.coords t) _ _ _ _ _ _ _ _ (fun h => h0 ((hcondFirst t).mp h)) ((hcondLast t).mpr h1)
        (win0_0.fill (grid0.coords t) d0 (iblk m c 0 t)) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexists d0; iexact H0
      isplitl [H1]; · iexact H1
      isplitl [H2]; · iexact H2
      unfold owns; iexists _; isplitr
      swap; · iexact H3
      ipureintro; exact View.read_writes_of_cover _ _ _ _ _ (coverLast c _ _ _ _ _ _ _ _ _ _ _ _ _ _ _)
    · rw [accAt_mid m c t h0 h1]
      iintro ⟨HΦ, Ho, ⟨%d0, H0⟩, ⟨%d1, H1⟩, ⟨%d2, H2⟩, ⟨%d3, H3⟩⟩
      rw [pay2_xz m c t d0 (iblk m c 1 t) (accAt m c (t.val - 1) (Nat.lt_of_le_of_lt (Nat.sub_le _ _) t.isLt)),
        ← outMid_eq c (grid0.coords t) (ms0 t) (hs0 t) (ms1 t) (hs1 t) (ms2 t) (hs2 t) (ms3 t) (hs3 t)
          (fun h => h0 ((hcondFirst t).mp h)) (fun h => h1 ((hcondLast t).mp h)) (win0_0.fill (grid0.coords t) d0 (iblk m c 0 t)) (iblk m c 1 t) (iblk m c 2 t)
          (accAt m c (t.val - 1) (Nat.lt_of_le_of_lt (Nat.sub_le _ _) t.isLt))]
      unfold outMid
      iapply ((runMid c (grid0.coords t) _ _ _ _ _ _ _ _ (fun h => h0 ((hcondFirst t).mp h)) (fun h => h1 ((hcondLast t).mp h))
        (win0_0.fill (grid0.coords t) d0 (iblk m c 0 t)) (iblk m c 1 t) (iblk m c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexists d0; iexact H0
      isplitl [H1]; · iexact H1
      isplitl [H2]; · iexact H2
      unfold owns; iexists _; isplitr
      swap; · iexact H3
      ipureintro; exact View.read_writes_of_cover _ _ _ _ _ (coverMid c _ _ _ _ _ _ _ _ _ _ _ _ _ _ _)

/-- The library's body obligation, at every point: no point is idle for a window, and only the `x` window's buffer
    is stated on its fetched part. -/
theorem body_obligation (c : Dev nD) : BodyObligationLoose (dats (F := F) m 0 c) (defs₀ (F := F)) Variants.none () Set.univ := fun t => by
  rw [bigSep_W0, bigSep_W0]
  simp only
  exact sound_body m c t

/-! ## The run and the frame -/

set_option backward.isDefEq.respectTransparency.types false in
/-- At the compiled mesh, for any values, from any memory with zero counters: every weakly fair execution of @main
    terminates, and every final state has every array of the pipeline at what the library computes from the proof
    data and every other unscoped buffer at what the host lines after the region make of the region's results. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME, at any float instance: the five argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.KI.Payload.lean ====
/-
  The body's three blocks of arithmetic read at one entry, over the extended reals.

  Entry (r, j) of the zero block is 0. Entry (r, j) of "the block plus the tile product" is the block's entry plus the
  sum, over the tile's 1280 columns q, of the `x` tile's entry (r, q) — or zero when the global column 1280·k + q is 27000
  or more — times the weight tile's entry (q, j): the change of format before the product is the identity on the
  extended reals, and the matrix product into a zero accumulator is the plain sum of products. Entry (r, j) of the last
  block is tanh of the block's entry plus the bias row's entry (0, j).
-/
import proofs.«426682_j6717328851824_3_alg».proof.Proof.Gen.KernelIdeal
import proofs.«426682_j6717328851824_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

set_option maxRecDepth 16384

noncomputable section

namespace Cert.KernelIdeal.Payload

open Cert.KernelIdeal Cert.KernelIdeal.Gen
open Idealize.ShloMosaic Idealize.ShloMosaic.ValueIdx

/-! ## The tile product's operand indices

The product contracts axis 1 of the [512 × 1280] operand with axis 0 of the [1280 × 1408] one; at output entry `o` and
contraction position `q` the left operand is read at (o 0, q) and the right one at (q, o 1). -/

theorem lhs_dot_S512x1280_S1280x1408_S512x1408_1_0_0_1_n_n_0 (o : S512x1408.Idx) (q : dot_S512x1280_S1280x1408_S512x1408_1_0_0_1_n_n.contr.Idx) :
    (dot_S512x1280_S1280x1408_S512x1408_1_0_0_1_n_n.lhsIdx o q 0).val = (o 0).val := by
  unfold DotDims.lhsIdx
  rw [dif_neg (show ¬(0 : Fin S512x1280.rank) ∈ dot_S512x1280_S1280x1408_S512x1408_1_0_0_1_n_n.lhsBatch by decide),
    dif_pos (show (0 : Fin S512x1280.rank) ∈ dot_S512x1280_S1280x1408_S512x1408_1_0_0_1_n_n.lhsNonContracting by decide)]
  rfl

theorem lhs_dot_S512x1280_S1280x1408_S512x1408_1_0_0_1_n_n_1 (o : S512x1408.Idx) (q : dot_S512x1280_S1280x1408_S512x1408_1_0_0_1_n_n.contr.Idx) :
    (dot_S512x1280_S1280x1408_S512x1408_1_0_0_1_n_n.lhsIdx o q 1).val = (q ⟨0, by decide⟩).val :=
  dot_S512x1280_S1280x1408_S512x1408_1_0_0_1_n_n.lhsIdx_val_of_single rfl o q

theorem rhs_dot_S512x1280_S1280x1408_S512x1408_1_0_0_1_n_n_0 (o : S512x1408.Idx) (q : dot_S512x1280_S1280x1408_S512x1408_1_0_0_1_n_n.contr.Idx) :
    (dot_S512x1280_S1280x1408_S512x1408_1_0_0_1_n_n.rhsIdx o q 0).val = (q ⟨0, by decide⟩).val :=
  dot_S512x1280_S1280x1408_S512x1408_1_0_0_1_n_n.rhsIdx_val_of_single rfl o q

theorem rhs_dot_S512x1280_S1280x1408_S512x1408_1_0_0_1_n_n_1 (o : S512x1408.Idx) (q : dot_S512x1280_S1280x1408_S512x1408_1_0_0_1_n_n.contr.Idx) :
    (dot_S512x1280_S1280x1408_S512x1408_1_0_0_1_n_n.rhsIdx o q 1).val = (o 1).val := by
  unfold DotDims.rhsIdx
  rw [dif_neg (show ¬(1 : Fin S1280x1408.rank) ∈ dot_S512x1280_S1280x1408_S512x1408_1_0_0_1_n_n.rhsBatch by decide),
    dif_pos (show (1 : Fin S1280x1408.rank) ∈ dot_S512x1280_S1280x1408_S512x1408_1_0_0_1_n_n.rhsNonContracting by decide)]
  rfl

/-- The tile product into a zero accumulator, at entry (r, j): the sum over the 1280 columns q of the left operand's
    entry (r, q) times the right operand's entry (q, j). -/
theorem matmul_zero_at (a : FVec Ideal S512x1280 .bf16) (b : FVec Ideal S1280x1408 .bf16) (r : Fin 512) (j : Fin 1408) :
    matmul dot_S512x1280_S1280x1408_S512x1408_1_0_0_1_n_n none a b (constant S512x1408 .f32 0x00000000#32) (ix2 r j)
      = ∑ q : Fin 1280, a (ix2 r q) * b (ix2 q j) := by
  show FloatOps.matmul dot_S512x1280_S1280x1408_S512x1408_1_0_0_1_n_n none a b (constant S512x1408 .f32 0x00000000#32) (ix2 r j) = _
  rw [Ideal.matmul_constant_zero_apply, ← Equiv.sum_comp (contrEquiv1 dot_S512x1280_S1280x1408_S512x1408_1_0_0_1_n_n 1280 rfl rfl).symm]
  refine Finset.sum_congr rfl fun q _ => ?_
  have hq := contrEquiv1_symm_val dot_S512x1280_S1280x1408_S512x1408_1_0_0_1_n_n 1280 rfl rfl q
  have el : dot_S512x1280_S1280x1408_S512x1408_1_0_0_1_n_n.lhsIdx (ix2 r j) ((contrEquiv1 dot_S512x1280_S1280x1408_S512x1408_1_0_0_1_n_n 1280 rfl rfl).symm q) = ix2 r q :=
    funext fun ax => Fin.ext (by
      match ax with
      | ⟨0, _⟩ => exact lhs_dot_S512x1280_S1280x1408_S512x1408_1_0_0_1_n_n_0 _ _
      | ⟨1, _⟩ => exact (lhs_dot_S512x1280_S1280x1408_S512x1408_1_0_0_1_n_n_1 _ _).trans hq)
  have er : dot_S512x1280_S1280x1408_S512x1408_1_0_0_1_n_n.rhsIdx (ix2 r j) ((contrEquiv1 dot_S512x1280_S1280x1408_S512x1408_1_0_0_1_n_n 1280 rfl rfl).symm q) = ix2 q j :=
    funext fun ax => Fin.ext (by
      match ax with
      | ⟨0, _⟩ => exact (rhs_dot_S512x1280_S1280x1408_S512x1408_1_0_0_1_n_n_0 _ _).trans hq
      | ⟨1, _⟩ => exact rhs_dot_S512x1280_S1280x1408_S512x1408_1_0_0_1_n_n_1 _ _)
  rw [el, er]

/-! ## The column mask

Tile `k` (below 22) holds the global columns 1280·k + q, q below 1280: all below 2³¹, so the word arithmetic does not
wrap and the signed comparison with 27000 is the comparison of the numbers. -/

/-- The mask's bit at column `q` of tile `k`. -/
theorem mask_bit (k q : Nat) (hk : k < 22) (hq : q < 1280) :
    IntOp.cmpi .slt (IntOp.addi (Scalar.muli (BitVec.ofNat 32 k) 1280#32) (BitVec.ofNat 32 q)) 27000#32 = 1#1
      ↔ k * 1280 + q < 27000 := by
  have hw : IntOp.addi (Scalar.muli (BitVec.ofNat 32 k) 1280#32) (BitVec.ofNat 32 q) = BitVec.ofNat 32 (k * 1280 + q) := by
    show BitVec.ofNat 32 k * BitVec.ofNat 32 1280 + BitVec.ofNat 32 q = _
    rw [← BitVec.ofNat_mul, ← BitVec.ofNat_add]
  have hn : (BitVec.ofNat 32 (k * 1280 + q)).toNat = k * 1280 + q := by
    rw [BitVec.toNat_ofNat]; exact Nat.mod_eq_of_lt (by omega)
  rw [hw, StableHlo.Predicate.slt_iff_toNat (by rw [hn]; omega) (by decide), hn]
  rfl

/-- The masked, format-changed `x` tile at entry (r, q): the tile's entry when the global column is below 27000, else
    zero. -/
theorem masked_at (i : grid0.Coords) (v3 : Vec Ideal S512x1280 .f32) (r : Fin 512) (q : Fin 1280) :
    (truncf .bf16 (select (cmpi .slt (addi (broadcast S512x1280 (Scalar.muli (BitVec.ofNat 32 (i 1).val) 1280#32))
        (iota .tc S512x1280 32 [1] iota_S512x1280_d1_w32)) (broadcast S512x1280 27000#32)) v3
        (broadcast S512x1280 (Scalar.ofBits (F := Ideal) .f32 0x00000000#32))) bitsLt_bf16_f32 : FVec Ideal S512x1280 .bf16) (ix2 r q)
      = if (i 1).val * 1280 + q.val < 27000 then v3 (ix2 r q) else 0 := by
  have hk : (i 1).val < 22 := (i 1).isLt
  show Scalar.select (IntOp.cmpi .slt (IntOp.addi (Scalar.muli (BitVec.ofNat 32 (i 1).val) 1280#32)
      (iota .tc S512x1280 32 [1] iota_S512x1280_d1_w32 (ix2 r q))) 27000#32) (v3 (ix2 r q)) (Ideal.ofBits .f32 0x00000000#32) = _
  rw [iota_single_apply]
  show Scalar.select (IntOp.cmpi .slt (IntOp.addi (Scalar.muli (BitVec.ofNat 32 (i 1).val) 1280#32)
      (BitVec.ofNat 32 q.val)) 27000#32) (v3 (ix2 r q)) (Ideal.ofBits .f32 0x00000000#32) = _
  by_cases h : (i 1).val * 1280 + q.val < 27000
  · rw [(mask_bit _ _ hk q.isLt).2 h, select_one, if_pos h]
  · rw [eq_zero_of_ne_one (fun hb => h ((mask_bit _ _ hk q.isLt).1 hb)), select_zero, if_neg h, Ideal.ofBits_zero_f32]

/-! ## The three payloads -/

/-- The zero block. -/
theorem pay1_apply (r : Fin 512) (j : Fin 1408) : k0_pay1 (F := Ideal) (ix2 r j) = 0 := by
  show Ideal.ofBits .f32 0x00000000#32 = 0
  exact Ideal.ofBits_zero_f32

/-- The block plus the tile product, at a grid point whose reduction coordinate is `(i 1).val`. -/
theorem pay2_apply (i : grid0.Coords) (v3 : Vec Ideal S512x1280 .f32) (v13 : Vec Ideal S1280x1408 .bf16) (v15 : Vec Ideal S512x1408 .f32)
    (r : Fin 512) (j : Fin 1408) :
    k0_pay2 (F := Ideal) i v3 v13 v15 (ix2 r j)
      = v15 (ix2 r j) + ∑ q : Fin 1280, (if (i 1).val * 1280 + q.val < 27000 then v3 (ix2 r q) else 0) * v13 (ix2 q j) := by
  unfold k0_pay2
  dsimp only
  rw [addf_apply, shapeCast_self, shapeCast_self, matmul_zero_at]
  refine congrArg (v15 (ix2 r j) + ·) (Finset.sum_congr rfl fun q _ => ?_)
  exact congrArg (· * v13 (ix2 q j)) (masked_at i v3 r q)

/-- tanh of the block plus the bias row. -/
theorem pay3_apply (v23 : Vec Ideal S512x1408 .f32) (v25 : Vec Ideal S1x1408 .f32) (r : Fin 512) (j : Fin 1408) :
    k0_pay3 (F := Ideal) v23 v25 (ix2 r j) = Ideal.tanh (v23 (ix2 r j) + v25 (ix2 0 j)) := by
  unfold k0_pay3
  rw [shapeCast_self, shapeCast_self]
  show Ideal.tanh (v23 (ix2 r j) + broadcastTo S512x1408 v25 broadcasts_S1x1408_S512x1408 (ix2 r j)) = _
  rw [broadcastTo_1b_ab_apply]

end Cert.KernelIdeal.Payload

end
-- ==== Proof.LibScatterGather.lean ====
/-
  The host's gather and accumulating scatter, read at one index, for the shapes this program uses: a table of `n` rows
  (scalars, or rows of `h` numbers) addressed through an [m × 1] column of 32-bit start indices.

  A SCATTER reads the start index signed and does not clamp it: update `e` is added to row `landing n (idx e)`, which is
  nowhere when the index is negative or at least `n` (the update is dropped). So the result at row `k` is the operand
  there plus the sum of the updates whose index lands on `k`; for rows of `h` numbers, feature by feature.
  A GATHER reads the start index signed and clamps it into the table: result row `e` is the table's row
  `rowOf n (idx e)`.
  Two facts tie them together: an index that lands on `k` is the word of `k` (so comparing an index with the word of a
  row number decides landing), and an index that lands on `k` is not negative, so the wrap-around of negative indices
  (`index + n` when negative) leaves it alone and the clamped read of it is row `k`.
-/
import Idealize.ShloMosaic.PureOps.Ideal
import Idealize.ShloMosaic.PureOps.Ideal.Laws
import Idealize.ShloMosaic.Lib.ValueIdx
import Idealize.ShloMosaic.Lib.StableHlo.Predicate

noncomputable section

namespace Cert.Decode

open Idealize.ShloMosaic Idealize.ShloMosaic.ValueIdx

/-- Where a start index (a 32-bit word read signed) lands among `n` rows: nowhere when negative or at least `n`. -/
def landing (n : Nat) (w : BitVec 32) : Option (Fin n) :=
  if h : 0 ≤ w.toInt ∧ w.toInt < n then some ⟨w.toInt.toNat, by omega⟩ else none

/-- The row a gather reads for a start index: the index read signed and clamped into the table. -/
def rowOf (n : Nat) (hn : 0 < n) (w : BitVec 32) : Fin n := ⟨min w.toInt.toNat (n - 1), by omega⟩

/-! ## The accumulating scatter of scalars: where update `j` lands -/

section ScatterScalar

variable {n m : Nat} (d : ScatterDims ⟨1, ![n]⟩ ⟨2, ![m, 1]⟩ ⟨1, ![m]⟩)

/-- Update `j` reads its start index at row `j 0` of the index column: the one update axis is the scatter axis, and the
    index vector has the single component 0. -/
theorem siIdx_scalar (hsd : d.scatterDimsToOperandDims = [0]) (hiv : d.indexVectorDim = 1)
    (j : (⟨1, ![m]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (j X).val = (j 0).val := fun X => by
      have hX : X = 0 := Subsingleton.elim _ _
      subst hX; rfl
    exact e _
  | ⟨1, _⟩ =>
    unfold ScatterDims.siIdx
    rw [dif_pos (by rw [hiv])]
    apply Fin.ext
    show c.val = 0
    have := c.isLt
    omega

/-- The window of update `j` starts at its index, read signed. -/
theorem start_scalar (hsd : d.scatterDimsToOperandDims = [0]) (hiv : d.indexVectorDim = 1)
    (idx : IVec ⟨2, ![m, 1]⟩ 32) (j : (⟨1, ![m]⟩ : Shape).Idx) (a : Fin 1) :
    d.start j idx a = (idx (ix2 (j 0) 0)).toInt := by
  have ha : a ∈ d.scatterDimsToOperandDims := by
    rw [hsd, Subsingleton.elim a 0]; exact List.mem_singleton.mpr rfl
  unfold ScatterDims.start
  rw [dif_pos ha, siIdx_scalar d hsd hiv]
  rfl

/-- The operand's one axis is inserted: an update has no window coordinate on it. -/
theorem window_scalar (hiw : d.insertedWindowDims = [0]) (j : (⟨1, ![m]⟩ : Shape).Idx) (a : Fin 1) : d.window j a = 0 := by
  have ha : a ∉ d.sKept := by
    rw [Subsingleton.elim a 0]
    simp [ScatterDims.sKept, Shape.kept, hiw]
  unfold ScatterDims.window
  rw [dif_neg ha]

/-- Update `j` lands on the row its index lands on. -/
theorem resultIdx_scalar (hiw : d.insertedWindowDims = [0]) (hsd : d.scatterDimsToOperandDims = [0]) (hiv : d.indexVectorDim = 1)
    (idx : IVec ⟨2, ![m, 1]⟩ 32) (j : (⟨1, ![m]⟩ : Shape).Idx) :
    d.resultIdx? j idx = (landing n (idx (ix2 (j 0) 0))).map ix1 := by
  have hsw : ∀ a : Fin 1, d.start j idx a + (d.window j a : Int) = (idx (ix2 (j 0) 0)).toInt := fun a => by
    rw [start_scalar d hsd hiv, window_scalar d hiw]; simp
  unfold ScatterDims.resultIdx? landing
  by_cases hw : 0 ≤ (idx (ix2 (j 0) 0)).toInt ∧ (idx (ix2 (j 0) 0)).toInt < n
  · rw [dif_pos (fun a => by rw [hsw a, Subsingleton.elim a 0]; exact hw), dif_pos hw]
    simp only [Option.map_some]
    congr 1
    funext a
    have ha : a = 0 := Subsingleton.elim _ _
    subst ha
    apply Fin.ext
    show (d.start j idx 0 + (d.window j 0 : Int)).toNat = (idx (ix2 (j 0) 0)).toInt.toNat
    rw [hsw 0]
  · rw [dif_neg (fun hall => hw (by have h0 := hall 0; rw [hsw 0] at h0; exact h0)), dif_neg hw]
    rfl

end ScatterScalar

/-! ## The accumulating scatter of rows: where update `j` lands -/

section ScatterRows

variable {n m h : Nat} (d : ScatterDims ⟨2, ![n, h]⟩ ⟨2, ![m, 1]⟩ ⟨2, ![m, h]⟩)

/-- Of the update's two axes, axis 1 is the window axis, so axis 0 is the only scatter axis. -/
theorem uScatter_rows (huw : d.updateWindowDims = [1]) (X : Fin 2) (hX : X ∈ d.uScatter) : X = 0 := by
  have hne : X ≠ 1 := by simpa [ScatterDims.uScatter, Shape.kept, huw] using hX
  have hlt : X.val < 2 := X.isLt
  have hv : X.val ≠ 1 := fun hv => hne (Fin.ext hv)
  apply Fin.ext
  show X.val = 0
  omega

/-- Update `j` reads its start index at row `j 0` of the index column. -/
theorem siIdx_rows (huw : d.updateWindowDims = [1]) (hsd : d.scatterDimsToOperandDims = [0]) (hiv : d.indexVectorDim = 1)
    (j : (⟨2, ![m, h]⟩ : Shape).Idx) (c : Fin d.scatterDimsToOperandDims.length) : d.siIdx j c = ix2 (j 0) 0 := by
  have hl : d.scatterDimsToOperandDims.length = 1 := by rw [hsd]; rfl
  funext b
  match b with
  | ⟨0, _⟩ =>
    unfold ScatterDims.siIdx
    rw [dif_neg (by rw [hiv]; simp)]
    unfold ScatterDims.siCoord
    apply Fin.ext
    simp only [Fin.val_cast]
    have e : ∀ X : Fin 2, X ∈ d.uScatter → (j X).val = (j 0).val := fun X hX => by rw [uScatter_rows d huw X hX]
    exact e _ (List.getElem_mem _)
  | ⟨1, _⟩ =>
    unfold ScatterDims.siIdx
    rw [dif_pos (by rw [hiv])]
    apply Fin.ext
    show c.val = 0
    have := c.isLt
    omega

/-- On the table's row axis the window of update `j` starts at its index, read signed. -/
theorem start_rows0 (huw : d.updateWindowDims = [1]) (hsd : d.scatterDimsToOperandDims = [0]) (hiv : d.indexVectorDim = 1)
    (idx : IVec ⟨2, ![m, 1]⟩ 32) (j : (⟨2, ![m, h]⟩ : Shape).Idx) :
    d.start j idx 0 = (idx (ix2 (j 0) 0)).toInt := by
  have ha : (0 : Fin 2) ∈ d.scatterDimsToOperandDims := by rw [hsd]; exact List.mem_singleton.mpr rfl
  unfold ScatterDims.start
  rw [dif_pos ha, siIdx_rows d huw hsd hiv]
  rfl

/-- The feature axis is not start-indexed: the window starts at 0 there. -/
theorem start_rows1 (hsd : d.scatterDimsToOperandDims = [0]) (idx : IVec ⟨2, ![m, 1]⟩ 32) (j : (⟨2, ![m, h]⟩ : Shape).Idx) :
    d.start j idx 1 = 0 := by
  have ha : (1 : Fin 2) ∉ d.scatterDimsToOperandDims := by rw [hsd]; simp
  unfold ScatterDims.start
  rw [dif_neg ha]

/-- The row axis is inserted: no window coordinate on it. -/
theorem window_rows0 (hiw : d.insertedWindowDims = [0]) (j : (⟨2, ![m, h]⟩ : Shape).Idx) : d.window j 0 = 0 := by
  have ha : (0 : Fin 2) ∉ d.sKept := by simp [ScatterDims.sKept, Shape.kept, hiw]
  unfold ScatterDims.window
  rw [dif_neg ha]

/-- The feature axis takes the update's window coordinate, its coordinate on axis 1. -/
theorem window_rows1 (huw : d.updateWindowDims = [1]) (hiw : d.insertedWindowDims = [0]) (j : (⟨2, ![m, h]⟩ : Shape).Idx) :
    d.window j 1 = (j 1).val := by
  have ha : (1 : Fin 2) ∈ d.sKept := by simp [ScatterDims.sKept, Shape.kept, hiw]
  unfold ScatterDims.window
  rw [dif_pos ha]
  have e : ∀ X : Fin 2, X ∈ d.updateWindowDims → (j X).val = (j 1).val := fun X hX => by
    rw [huw] at hX; rw [List.mem_singleton.1 hX]
  exact e _ (List.getElem_mem _)

/-- Update `j` lands on the row its index lands on, at its own feature. -/
theorem resultIdx_rows (huw : d.updateWindowDims = [1]) (hiw : d.insertedWindowDims = [0]) (hsd : d.scatterDimsToOperandDims = [0])
    (hiv : d.indexVectorDim = 1) (idx : IVec ⟨2, ![m, 1]⟩ 32) (j : (⟨2, ![m, h]⟩ : Shape).Idx) :
    d.resultIdx? j idx
      = (landing n (idx (ix2 (j 0) 0))).map (fun r => (ix2 r (j 1) : (⟨2, ![n, h]⟩ : Shape).Idx)) := by
  have h0 : d.start j idx 0 + (d.window j 0 : Int) = (idx (ix2 (j 0) 0)).toInt := by
    rw [start_rows0 d huw hsd hiv, window_rows0 d hiw]; simp
  have h1 : d.start j idx 1 + (d.window j 1 : Int) = ((j 1).val : Int) := by
    rw [start_rows1 d hsd, window_rows1 d huw hiw]; simp
  have hj1 : ((j 1).val : Int) < (h : Int) := by exact_mod_cast (j 1).isLt
  unfold ScatterDims.resultIdx? landing
  by_cases hw : 0 ≤ (idx (ix2 (j 0) 0)).toInt ∧ (idx (ix2 (j 0) 0)).toInt < n
  · have hall : ∀ a : Fin 2, 0 ≤ d.start j idx a + (d.window j a : Int) ∧
        d.start j idx a + (d.window j a : Int) < ((⟨2, ![n, h]⟩ : Shape).size a : Int) :=
      Fin.forall_fin_two.2 ⟨by rw [h0]; exact hw, by rw [h1]; exact ⟨by omega, hj1⟩⟩
    rw [dif_pos hall, dif_pos hw]
    simp only [Option.map_some]
    congr 1
    funext a
    revert a
    refine Fin.forall_fin_two.2 ⟨?_, ?_⟩
    · apply Fin.ext
      show (d.start j idx 0 + (d.window j 0 : Int)).toNat = (idx (ix2 (j 0) 0)).toInt.toNat
      rw [h0]
    · apply Fin.ext
      show (d.start j idx 1 + (d.window j 1 : Int)).toNat = (j 1).val
      rw [h1]; simp
  · rw [dif_neg (fun hall => hw (by have a0 := hall 0; rw [h0] at a0; exact a0)), dif_neg hw]
    rfl

end ScatterRows

/-- Two rank-2 indices that are equal have equal coordinates. -/
theorem ix2_inj {n0 n1 : Nat} {a a' : Fin n0} {b b' : Fin n1} (h : ix2 a b = ix2 a' b') : a = a' ∧ b = b' :=
  ⟨congrFun h 0, congrFun h 1⟩

/-- Two rank-1 indices with the same coordinate are the same index. -/
theorem ix1_inj {n : Nat} {a b : Fin n} (h : ix1 a = ix1 b) : a = b := congrFun h 0

/-- The accumulating scatter of scalars at row `k`. -/
theorem scatterAdd_scalar {n m : Nat} (d : ScatterDims ⟨1, ![n]⟩ ⟨2, ![m, 1]⟩ ⟨1, ![m]⟩)
    (huw : d.updateWindowDims = []) (hiw : d.insertedWindowDims = [0]) (hsd : d.scatterDimsToOperandDims = [0]) (hiv : d.indexVectorDim = 1)
    (x : (⟨1, ![n]⟩ : Shape).Idx → EReal) (idx : IVec ⟨2, ![m, 1]⟩ 32) (upd : (⟨1, ![m]⟩ : Shape).Idx → EReal) (k : Fin n) :
    Host.scatterAdd (F := Ideal) (φ := .f32) d x idx upd (ix1 k)
      = x (ix1 k) + ∑ e ∈ Finset.univ.filter (fun e : Fin m => landing n (idx (ix2 e 0)) = some k), upd (ix1 e) := by
  have hmem : ∀ j : (⟨1, ![m]⟩ : Shape).Idx,
      d.resultIdx? j idx = some (ix1 k) ↔ landing n (idx (ix2 (j 0) 0)) = some k := fun j => by
    rw [resultIdx_scalar d hiw hsd hiv, Option.map_eq_some_iff]
    constructor
    · rintro ⟨a, ha, hak⟩; rw [ha, ix1_inj hak]
    · intro hl; exact ⟨k, hl, rfl⟩
  show x (ix1 k) + ∑ j ∈ Finset.univ.filter (fun j => d.resultIdx? j idx = some (ix1 k)), upd j = _
  congr 1
  -- an update index is its one coordinate: the updates that land on row k are those whose index lands there
  refine Finset.sum_bij' (fun j _ => j 0) (fun e _ => ix1 e)
    (fun j hj => Finset.mem_filter.2 ⟨Finset.mem_univ _, (hmem j).1 (Finset.mem_filter.1 hj).2⟩)
    (fun e he => Finset.mem_filter.2 ⟨Finset.mem_univ _, (hmem (ix1 e)).2 (Finset.mem_filter.1 he).2⟩)
    (fun j _ => (eq_ix1 j).symm) (fun _ _ => rfl) (fun j _ => congrArg upd (eq_ix1 j))

/-- The accumulating scatter of rows at row `k`, feature `j`. -/
theorem scatterAdd_rows {n m h : Nat} (d : ScatterDims ⟨2, ![n, h]⟩ ⟨2, ![m, 1]⟩ ⟨2, ![m, h]⟩)
    (huw : d.updateWindowDims = [1]) (hiw : d.insertedWindowDims = [0]) (hsd : d.scatterDimsToOperandDims = [0]) (hiv : d.indexVectorDim = 1)
    (x : (⟨2, ![n, h]⟩ : Shape).Idx → EReal) (idx : IVec ⟨2, ![m, 1]⟩ 32) (upd : (⟨2, ![m, h]⟩ : Shape).Idx → EReal) (k : Fin n) (j : Fin h) :
    Host.scatterAdd (F := Ideal) (φ := .f32) d x idx upd (ix2 k j)
      = x (ix2 k j) + ∑ e ∈ Finset.univ.filter (fun e : Fin m => landing n (idx (ix2 e 0)) = some k), upd (ix2 e j) := by
  have hmem : ∀ q : (⟨2, ![m, h]⟩ : Shape).Idx,
      d.resultIdx? q idx = some (ix2 k j) ↔ landing n (idx (ix2 (q 0) 0)) = some k ∧ q 1 = j := fun q => by
    rw [resultIdx_rows d huw hiw hsd hiv]
    cases hl : landing n (idx (ix2 (q 0) 0)) with
    | none => simp
    | some r =>
      simp only [Option.map_some, Option.some.injEq]
      constructor
      · intro hak; exact ix2_inj hak
      · rintro ⟨hr, hq⟩; rw [hr, hq]
  show x (ix2 k j) + ∑ q ∈ Finset.univ.filter (fun q => d.resultIdx? q idx = some (ix2 k j)), upd q = _
  congr 1
  -- an update index is (its row, its feature): the updates that land on (k, j) are feature j of the rows whose index lands on k
  refine Finset.sum_bij' (fun q _ => q 0) (fun e _ => ix2 e j)
    (fun q hq => Finset.mem_filter.2 ⟨Finset.mem_univ _, ((hmem q).1 (Finset.mem_filter.1 hq).2).1⟩)
    (fun e he => Finset.mem_filter.2 ⟨Finset.mem_univ _, (hmem (ix2 e j)).2 ⟨(Finset.mem_filter.1 he).2, rfl⟩⟩)
    (fun q hq => ?_) (fun _ _ => rfl) (fun q hq => ?_)
  · have hq1 := ((hmem q).1 (Finset.mem_filter.1 hq).2).2
    show ix2 (q 0) j = q
    rw [← hq1]; exact (eq_ix2 q).symm
  · have hq1 := ((hmem q).1 (Finset.mem_filter.1 hq).2).2
    show upd q = upd (ix2 (q 0) j)
    rw [← hq1]; exact congrArg upd (eq_ix2 q)

/-! ## The gather of rows: which table entry result index `q` reads -/

section GatherRows

variable {N n h : Nat} (d : GatherDims ⟨2, ![N, h]⟩ ⟨2, ![n, 1]⟩ ⟨2, ![n, h]⟩)

/-- Of the result's two axes, axis 1 is the offset axis, so axis 0 is the only batch axis. -/
theorem batchDims_rows (hoff : d.offsetDims = [1]) (X : Fin 2) (hX : X ∈ d.batchDims) : X = 0 := by
  have hne : X ≠ 1 := by simpa [GatherDims.batchDims, Shape.kept, hoff] using hX
  have hlt : X.val < 2 := X.isLt
  have hv : X.val ≠ 1 := fun hv => hne (Fin.ext hv)
  apply Fin.ext
  show X.val = 0
  omega

/-- Result index `q` reads its start index at row `q 0` of the index column. -/
theorem gatherSiIdx_rows (hoff : d.offsetDims = [1]) (hsim : d.startIndexMap = [0]) (hivd : d.indexVectorDim = 1)
    (q : (⟨2, ![n, h]⟩ : Shape).Idx) (c : Fin d.startIndexMap.length) : d.siIdx q c = ix2 (q 0) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 0).val := fun X hX => by rw [batchDims_rows d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its start index clamped into the table, its own feature): the row axis is
    collapsed and start-indexed with a slice of one row, the feature axis is the offset axis and starts at 0. -/
theorem operandIdx_rows (hoff : d.offsetDims = [1]) (hcoll : d.collapsedSliceDims = [0]) (hob : d.operandBatchingDims = [])
    (hsim : d.startIndexMap = [0]) (hivd : d.indexVectorDim = 1) (hss : d.sliceSizes = ![1, h])
    (idx : IVec ⟨2, ![n, 1]⟩ 32) (q : (⟨2, ![n, h]⟩ : Shape).Idx) (hN : 0 < N) :
    d.operandIdx q idx = (ix2 (rowOf N hN (idx (ix2 (q 0) 0))) (q 1) : (⟨2, ![N, h]⟩ : Shape).Idx) := by
  have hb : ∀ a : Fin 2, a ∉ d.operandBatchingDims := fun a => by rw [hob]; exact List.not_mem_nil
  have hk0 : (0 : Fin 2) ∉ d.sKept := by rw [GatherDims.mem_sKept, hcoll]; simp
  have hk1 : (1 : Fin 2) ∈ d.sKept := by rw [GatherDims.mem_sKept, hcoll, hob]; simp
  have hm0 : (0 : Fin 2) ∈ d.startIndexMap := by rw [hsim]; exact List.mem_singleton.mpr rfl
  have hm1 : (1 : Fin 2) ∉ d.startIndexMap := by rw [hsim]; simp
  have hsl : d.sliceSizes 0 = 1 := by rw [hss]; rfl
  funext a
  revert a
  refine Fin.forall_fin_two.2 ⟨?_, ?_⟩
  · apply Fin.ext
    show d.start q idx 0 + d.batchCoord q 0 + d.offCoord q 0 = min (idx (ix2 (q 0) 0)).toInt.toNat (N - 1)
    rw [GatherDims.batchCoord_eq_zero _ _ _ (hb 0), GatherDims.offCoord_eq_zero _ _ _ hk0]
    simp only [Nat.add_zero]
    unfold GatherDims.start
    rw [dif_pos hm0, gatherSiIdx_rows d hoff hsim hivd, hsl]
    rfl
  · apply Fin.ext
    show d.start q idx 1 + d.batchCoord q 1 + d.offCoord q 1 = (q 1).val
    rw [GatherDims.batchCoord_eq_zero _ _ _ (hb 1)]
    unfold GatherDims.start GatherDims.offCoord
    rw [dif_neg hm1, dif_pos hk1]
    simp only [Nat.add_zero, Nat.zero_add]
    have e : ∀ X : Fin 2, X ∈ d.offsetDims → (q X).val = (q 1).val := fun X hX => by
      rw [hoff] at hX; rw [List.mem_singleton.1 hX]
    exact e _ (List.getElem_mem _)

end GatherRows

/-- The gather of scalars at result row `e`. -/
theorem gather_scalar {α : Type} {N n : Nat} (d : GatherDims ⟨1, ![N]⟩ ⟨2, ![n, 1]⟩ ⟨1, ![n]⟩)
    (hcoll : d.collapsedSliceDims = [0]) (hob : d.operandBatchingDims = []) (hsim : d.startIndexMap = [0]) (hivd : d.indexVectorDim = 1)
    (x : (⟨1, ![N]⟩ : Shape).Idx → α) (idx : IVec ⟨2, ![n, 1]⟩ 32) (e : Fin n) (hN : 0 < N) :
    Host.gather d x idx (ix1 e) = x (ix1 (rowOf N hN (idx (ix2 e 0)))) := by
  -- the take-shaped gather read at one position, its rank-1 index and its index-column row written by coordinates
  have h1 : ∀ {q : Nat} (p : Fin q), (Shape.Idx.ofFin p : (⟨1, ![q]⟩ : Shape).Idx) = ix1 p := fun p => by
    funext a; match a with | ⟨0, _⟩ => rfl
  have h2 : StableHlo.Predicate.ixP e = ix2 e 0 := by
    funext a; match a with | ⟨0, _⟩ => rfl | ⟨1, _⟩ => rfl
  rw [← h1 e, ← h2]
  exact (StableHlo.Predicate.gather_take d hcoll hob hsim hivd x idx e hN).trans (congrArg x (h1 _))

/-- The gather of rows at result row `e`, feature `j`. -/
theorem gather_rows {α : Type} {N n h : Nat} (d : GatherDims ⟨2, ![N, h]⟩ ⟨2, ![n, 1]⟩ ⟨2, ![n, h]⟩)
    (hoff : d.offsetDims = [1]) (hcoll : d.collapsedSliceDims = [0]) (hob : d.operandBatchingDims = [])
    (hsb : d.startIndicesBatchingDims = []) (hsim : d.startIndexMap = [0]) (hivd : d.indexVectorDim = 1) (hss : d.sliceSizes = ![1, h])
    (x : (⟨2, ![N, h]⟩ : Shape).Idx → α) (idx : IVec ⟨2, ![n, 1]⟩ 32) (e : Fin n) (j : Fin h) (hN : 0 < N) :
    Host.gather d x idx (ix2 e j) = x (ix2 (rowOf N hN (idx (ix2 e 0))) j) := by
  show x (d.operandIdx (ix2 e j) idx) = _
  rw [operandIdx_rows d hoff hcoll hob hsim hivd hss idx (ix2 e j) hN]
  rfl

/-- An index lands on row `k` exactly when it is the word of `k`. -/
theorem landing_eq_some_iff {n : Nat} (hn : n ≤ 2 ^ 31) (w : BitVec 32) (k : Fin n) :
    landing n w = some k ↔ w = BitVec.ofNat 32 k.val := by
  have hk := k.isLt
  have hwlt := w.isLt
  unfold landing
  constructor
  · intro h
    split at h
    · rename_i hw
      -- the landing row's number is the index read signed; a word below 2^31 reads the same signed and unsigned
      have hv : w.toInt.toNat = k.val := congrArg Fin.val (Option.some.inj h)
      have hc := BitVec.toInt_eq_toNat_cond w
      apply BitVec.eq_of_toNat_eq
      rw [BitVec.toNat_ofNat, Nat.mod_eq_of_lt (by omega)]
      split at hc <;> omega
    · exact absurd h (by simp)
  · intro h
    subst h
    have htn : (BitVec.ofNat 32 k.val).toNat = k.val := by
      rw [BitVec.toNat_ofNat]; exact Nat.mod_eq_of_lt (by omega)
    have hti : (BitVec.ofNat 32 k.val).toInt = (k.val : Int) := by
      rw [BitVec.toInt_eq_toNat_cond, htn, if_pos (by omega)]
    rw [dif_pos ⟨by omega, by omega⟩]
    congr 1
    apply Fin.ext
    show (BitVec.ofNat 32 k.val).toInt.toNat = k.val
    omega

/-- An index that lands on row `k` is not negative: wrapping negative indices around leaves it alone, and the clamped
    read of it is row `k`. -/
theorem rowOf_wrap_of_landing {n : Nat} (hn : 0 < n) (hn' : n < 2 ^ 31) (w : BitVec 32) (k : Fin n) (h : landing n w = some k) :
    rowOf n hn (Scalar.select (Scalar.cmpi .slt w 0#32) (w + BitVec.ofNat 32 n) w) = k := by
  unfold landing at h
  split at h
  · rename_i hw
    have hk : w.toInt.toNat = k.val := congrArg Fin.val (Option.some.inj h)
    -- a landing index is not below zero, so the signed comparison with zero fails and the select keeps the index
    have hs : w.slt 0#32 = false := by
      simp only [BitVec.slt, BitVec.toInt_zero, decide_eq_false_iff_not, not_lt]
      exact hw.1
    have hc : Scalar.cmpi .slt w 0#32 = 0#1 := by
      show BitVec.ofBool (w.slt 0#32) = 0#1
      rw [hs]; rfl
    rw [hc, select_zero]
    apply Fin.ext
    show min w.toInt.toNat (n - 1) = k.val
    omega
  · exact absurd h (by simp)

end Cert.Decode

end
-- ==== Proof.Spec.lean ====
/-
  The two programs as functions of the five argument arrays, index by index, over the extended reals.

  Both compute, for a batch row `b` and an output unit `j`,
      tanh ( Σ over the nonzeros e that belong to unit j of  x[b, src e] · w e   +   bias j ).
  The reference takes the sum nonzero by nonzero: it reads column `src e` of `x` (a negative index wrapped around by
  27000, the read clamped into the table) and adds the product into unit `seg e` (an index outside 0‥1386 is dropped):
  `G`. The kernel first adds every weight `w e` into cell (src e, seg e) of a 28160 × 1408 table of zeros (negative
  indices wrapped around by the table's extents, an index outside the table dropped), then multiplies the rows of `x`,
  cut off to zero from column 27000 on, with that table, twenty-two tiles of 1280 columns at a time, each tile's product
  added onto the ones before, and adds the bias filled out with zeros to 1408 entries: `K`.
-/
import Idealize.ShloMosaic.PureOps.Ideal
import Idealize.ShloMosaic.Lib.ValueIdx
import proofs.«426682_j6717328851824_3_alg».proof.Proof.LibScatterGather

noncomputable section

namespace Cert.Spec

open Idealize.ShloMosaic Idealize.ShloMosaic.ValueIdx Cert.Decode

/-- Index sets of the literal shapes. -/
abbrev I1 (n : Nat) : Type := (⟨1, ![n]⟩ : Shape).Idx
abbrev I2 (a b : Nat) : Type := (⟨2, ![a, b]⟩ : Shape).Idx

/-- A negative start index wrapped around an axis of extent `n` (jnp's indexing convention): `w + n` when `w` is
    negative as a signed word, else `w`. -/
def wrap (n : Nat) (w : BitVec 32) : BitVec 32 := Scalar.select (Scalar.cmpi .slt w 0#32) (w + BitVec.ofNat 32 n) w

/-! ## The reference's form -/

/-- Row `b`, unit `j` of the reference's result: the products `x[b, column of e] · w e` of the nonzeros whose
    segment index lands on `j`, summed onto zero, plus the bias, under tanh. -/
def Gat (x : I2 1024 27000 → EReal) (w : I1 138700 → EReal) (bias : I1 1387 → EReal) (src seg : I1 138700 → BitVec 32)
    (b : Fin 1024) (j : Fin 1387) : EReal :=
  Ideal.tanh ((0 + ∑ e ∈ Finset.univ.filter (fun e : Fin 138700 => landing 1387 (seg (ix1 e)) = some j),
      x (ix2 b (rowOf 27000 (by norm_num) (wrap 27000 (src (ix1 e))))) * w (ix1 e)) + bias (ix1 j))

/-- The reference's result array. -/
def G (x : I2 1024 27000 → EReal) (w : I1 138700 → EReal) (bias : I1 1387 → EReal) (src seg : I1 138700 → BitVec 32) :
    I2 1024 1387 → EReal := fun i => Gat x w bias src seg (i 0) (i 1)

/-! ## The kernel's form -/

/-- Row `b` of `x` filled out with zeros from column 27000 on. -/
def xmN (x : I2 1024 27000 → EReal) (b : Fin 1024) (k : ℕ) : EReal := if h : k < 27000 then x (ix2 b ⟨k, h⟩) else 0

/-- Cell (k, j) of the dense weight table: zero plus the weights of the nonzeros whose (wrapped) source index is `k`
    and whose (wrapped) segment index is `j`, both read signed. -/
def dwN (w : I1 138700 → EReal) (src seg : I1 138700 → BitVec 32) (k j : ℕ) : EReal :=
  0 + ∑ e ∈ Finset.univ.filter (fun e : Fin 138700 =>
      (wrap 28160 (src (ix1 e))).toInt = (k : ℤ) ∧ (wrap 1408 (seg (ix1 e))).toInt = (j : ℤ)), w (ix1 e)

/-- The bias filled out with zeros from entry 1387 on. -/
def bpadN (bias : I1 1387 → EReal) (j : ℕ) : EReal := if h : j < 1387 then bias (ix1 ⟨j, h⟩) else 0

/-- Row `b`, unit `j` of the kernel's result: the twenty-two tile products, each a sum over the tile's 1280
    columns, summed in tile order, plus the padded bias, under tanh. -/
def Kat (x : I2 1024 27000 → EReal) (w : I1 138700 → EReal) (bias : I1 1387 → EReal) (src seg : I1 138700 → BitVec 32)
    (b : Fin 1024) (j : Fin 1387) : EReal :=
  Ideal.tanh ((∑ kk ∈ Finset.range 22, ∑ kj : Fin 1280,
      xmN x b (kk * 1280 + kj.val) * dwN w src seg (kk * 1280 + kj.val) j.val) + bpadN bias j.val)

/-- The kernel's result array. -/
def K (x : I2 1024 27000 → EReal) (w : I1 138700 → EReal) (bias : I1 1387 → EReal) (src seg : I1 138700 → BitVec 32) :
    I2 1024 1387 → EReal := fun i => Kat x w bias src seg (i 0) (i 1)

end Cert.Spec

end
-- ==== Proof.KI.Accum.lean ====
/-
  The output block at a write-back point, in closed form over the extended reals.

  Along one row of the grid (a fixed batch half, the reduction coordinate k running 0‥21) the output block starts as
  the zero block plus tile 0's product and gains one tile product per point; after the last tile the bias row is added
  and tanh applied. By induction on k, entry (r, j) after point (half, k), k ≤ 21, before the final step, is the sum
  over the tiles kk ≤ k and their columns q of x̃[512·half + r, 1280·kk + q] · W[1280·kk + q, j], where x̃ is `x` with
  zeros from column 27000 on (the body's mask, and the fetched part of the last tile) and W the weight array; so at
  k = 21 the entry is tanh of the sum over all twenty-two tiles plus the bias entry.
-/
import proofs.«426682_j6717328851824_3_alg».proof.Proof.KI.Frame
import proofs.«426682_j6717328851824_3_alg».proof.Proof.KI.Payload
import proofs.«426682_j6717328851824_3_alg».proof.Proof.Spec
import Idealize.ShloMosaic.Lib.ValueIdx
import Idealize.ShloMosaic.Lib.Pipeline.Value

set_option maxRecDepth 16384

noncomputable section

namespace Cert.KernelIdeal.KV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ)

/-- The weight array as the region finds it, by row number (zero past the last row: never read). -/
def Wn (c : Dev nD) (k : ℕ) (j : Fin 1408) : EReal :=
  if h : k < 28160 then (V m c main_v15 : S28160x1408.Idx → EReal) (ix2 ⟨k, h⟩ j) else 0

/-- The grid is 2 × 22 with the reduction coordinate the fast one. -/
theorem coords_eq : ∀ t : Fin cfg0.N, (grid0.coords t 0).val = t.val / 22 ∧ (grid0.coords t 1).val = t.val % 22 :=
  (by decide +kernel : ∀ t : Fin grid0.N, (grid0.coords t 0).val = t.val / 22 ∧ (grid0.coords t 1).val = t.val % 22)

/-! ## The windows' block indices over the grid -/

/-- The `x` window's block at a point: its batch half and its tile. -/
theorem idx0 : ∀ t : Fin cfg0.N, win0_0.index t 0 = t.val / 22 ∧ win0_0.index t 1 = t.val % 22 :=
  (by decide +kernel : ∀ t : Fin grid0.N, win0_0.index t 0 = t.val / 22 ∧ win0_0.index t 1 = t.val % 22)

/-- The weight window's block at a point: its tile of rows, all the columns. -/
theorem idx1 : ∀ t : Fin cfg0.N, win0_1.index t 0 = t.val % 22 ∧ win0_1.index t 1 = 0 :=
  (by decide +kernel : ∀ t : Fin grid0.N, win0_1.index t 0 = t.val % 22 ∧ win0_1.index t 1 = 0)

/-- The bias window's block is the whole row at every point. -/
theorem idx2 : ∀ t : Fin cfg0.N, win0_2.index t 0 = 0 ∧ win0_2.index t 1 = 0 :=
  (by decide +kernel : ∀ t : Fin grid0.N, win0_2.index t 0 = 0 ∧ win0_2.index t 1 = 0)

/-! ## The blocks read off their arrays -/

/-- Entry (q, j) of the weight tile at point `t` is row 1280·k + q, column j of the weight array, k the tile. -/
theorem iblk1_apply (c : Dev nD) (t : Fin cfg0.N) (q : Fin 1280) (j : Fin 1408) :
    (iblk m c 1 t : S1280x1408.Idx → EReal) (ix2 q j) = Wn m c ((t.val % 22) * 1280 + q.val) j := by
  have hi := idx1 t
  have hq := q.isLt
  have ht : t.val % 22 < 22 := Nat.mod_lt _ (by norm_num)
  unfold Wn
  rw [dif_pos (by omega)]
  unfold iblk
  rw [View.read_apply]
  show (V m c main_v15 : S28160x1408.Idx → EReal) _ = (V m c main_v15 : S28160x1408.Idx → EReal) _
  refine congrArg (V m c main_v15 : S28160x1408.Idx → EReal) (funext fun a => Fin.ext ?_)
  match a with
  | ⟨0, _⟩ => show win0_1.index t 0 * 1280 + 1 * q.val = t.val % 22 * 1280 + q.val; rw [hi.1]; omega
  | ⟨1, _⟩ => show win0_1.index t 1 * 1408 + 1 * j.val = j.val; rw [hi.2]; omega

/-- Entry (0, j) of the bias block at any point is entry (0, j) of the bias row. -/
theorem iblk2_apply (c : Dev nD) (t : Fin cfg0.N) (j : Fin 1408) :
    (iblk m c 2 t : S1x1408.Idx → EReal) (ix2 0 j) = (V m c main_v17 : S1x1408.Idx → EReal) (ix2 0 j) := by
  have hi := idx2 t
  unfold iblk
  rw [View.read_apply]
  show (V m c main_v17 : S1x1408.Idx → EReal) _ = (V m c main_v17 : S1x1408.Idx → EReal) _
  refine congrArg (V m c main_v17 : S1x1408.Idx → EReal) (funext fun a => Fin.ext ?_)
  match a with
  | ⟨0, _⟩ => show win0_2.index t 0 * 1 + 1 * 0 = 0; rw [hi.1]
  | ⟨1, _⟩ => show win0_2.index t 1 * 1408 + 1 * j.val = j.val; rw [hi.2]; omega

/-- Entry (r, q) of the `x` tile at point `t`, masked at column 27000, is `x` with zeros from column 27000 on at
    row 512·half + r, column 1280·k + q. -/
theorem xz_apply (c : Dev nD) (t : Fin cfg0.N) (r : Fin 512) (q : Fin 1280) (b : Fin 1024)
    (hbv : b.val = (t.val / 22) * 512 + r.val) :
    (if (t.val % 22) * 1280 + q.val < 27000 then (xz m c t : S512x1280.Idx → EReal) (ix2 r q) else 0)
      = Cert.Spec.xmN (V m c main_arg0) b ((t.val % 22) * 1280 + q.val) := by
  have hi := idx0 t
  have hco := coords_eq t
  unfold Cert.Spec.xmN
  by_cases hcol : (t.val % 22) * 1280 + q.val < 27000
  · rw [if_pos hcol, dif_pos hcol]
    -- a column below 27000 lies in the fetched part of the tile
    have hm : win0_0.moved (grid0.coords t) (ix2 r q) = true := by
      by_contra hn
      have hge := col_ge_of_not_moved (grid0.coords t) (ix2 r q) hn
      rw [hco.2] at hge
      have : ((ix2 r q : S512x1280.Idx) 1).val = q.val := rfl
      omega
    unfold xz Window.fill
    rw [dif_pos hm]
    unfold iblk
    rw [View.read_apply]
    show (V m c main_arg0 : S1024x27000.Idx → EReal) _ = (V m c main_arg0 : S1024x27000.Idx → EReal) _
    refine congrArg (V m c main_arg0 : S1024x27000.Idx → EReal) (funext fun a => Fin.ext ?_)
    match a with
    | ⟨0, _⟩ => show win0_0.index t 0 * 512 + 1 * r.val = b.val; rw [hi.1, hbv]; omega
    | ⟨1, _⟩ => show win0_0.index t 1 * 1280 + 1 * q.val = t.val % 22 * 1280 + q.val; rw [hi.2]; omega
  · rw [if_neg hcol, dif_neg hcol]

/-! ## One tile's step, and the induction along a row of the grid -/

/-- The block plus the tile product at point `t`, at entry (r, j): the block's entry plus tile k's share of the
    row-by-column sum. -/
theorem pay2_at (c : Dev nD) (t : Fin cfg0.N) (acc : Vec Ideal S512x1408 .f32) (r : Fin 512) (j : Fin 1408) (b : Fin 1024)
    (hbv : b.val = (t.val / 22) * 512 + r.val) :
    k0_pay2 (F := Ideal) (grid0.coords t) (xz m c t) (iblk m c 1 t) acc (ix2 r j)
      = (acc : S512x1408.Idx → EReal) (ix2 r j) + ∑ q : Fin 1280,
          Cert.Spec.xmN (V m c main_arg0) b ((t.val % 22) * 1280 + q.val) * Wn m c ((t.val % 22) * 1280 + q.val) j := by
  refine (Payload.pay2_apply (grid0.coords t) (xz m c t) (iblk m c 1 t) acc r j).trans ?_
  refine congrArg ((acc : S512x1408.Idx → EReal) (ix2 r j) + ·) (Finset.sum_congr rfl fun q _ => ?_)
  rw [(coords_eq t).2, xz_apply m c t r q b hbv, iblk1_apply m c t q j]

/-- After point (half, k), k ≤ 20: the sum over the tiles up to k. -/
theorem accAt_partial (c : Dev nD) (r : Fin 512) (j : Fin 1408) (b : Fin 1024) :
    ∀ (n : ℕ) (hn : n < cfg0.N), n % 22 ≤ 20 → b.val = (n / 22) * 512 + r.val →
      (accAt m c n hn : S512x1408.Idx → EReal) (ix2 r j)
        = ∑ kk ∈ Finset.range (n % 22 + 1), ∑ q : Fin 1280,
            Cert.Spec.xmN (V m c main_arg0) b (kk * 1280 + q.val) * Wn m c (kk * 1280 + q.val) j := by
  intro n
  induction n using Nat.strong_induction_on with
  | _ n ih =>
    intro hn h hbv
    by_cases h0 : n % 22 = 0
    · -- a first tile: the zero block plus tile 0's share
      have e : accAt m c n hn = k0_pay2 (F := Ideal) (grid0.coords ⟨n, hn⟩) (xz m c ⟨n, hn⟩) (iblk m c 1 ⟨n, hn⟩) (k0_pay1 (F := Ideal)) :=
        accAt_first m c ⟨n, hn⟩ h0
      rw [e, pay2_at m c ⟨n, hn⟩ _ r j b hbv, Payload.pay1_apply, zero_add]
      show _ = ∑ kk ∈ Finset.range (n % 22 + 1), _
      rw [h0, Finset.sum_range_one]
    · -- a later tile: what the point before left, which is in the same row of the grid, plus tile k's share
      have hn' : n - 1 < cfg0.N := lt_of_le_of_lt (Nat.sub_le _ _) hn
      have e : accAt m c n hn = k0_pay2 (F := Ideal) (grid0.coords ⟨n, hn⟩) (xz m c ⟨n, hn⟩) (iblk m c 1 ⟨n, hn⟩) (accAt m c (n - 1) hn') :=
        accAt_mid m c ⟨n, hn⟩ h0 (by show ¬ n % 22 = 21; omega)
      rw [e, pay2_at m c ⟨n, hn⟩ _ r j b hbv, ih (n - 1) (by omega) hn' (by omega) (by omega)]
      show _ + ∑ q : Fin 1280, Cert.Spec.xmN (V m c main_arg0) b (n % 22 * 1280 + q.val) * Wn m c (n % 22 * 1280 + q.val) j = _
      rw [show (n - 1) % 22 + 1 = n % 22 from by omega, Finset.sum_range_succ]

/-- Entry (r, j) of the output block after a last tile: tanh of the whole row-by-column sum plus the bias entry. -/
theorem accAt_flush (c : Dev nD) (t : Fin cfg0.N) (h21 : t.val % 22 = 21) (r : Fin 512) (j : Fin 1408)
    (hb : (t.val / 22) * 512 + r.val < 1024) :
    accAt m c t.val t.isLt (ix2 r j)
      = Ideal.tanh ((∑ kk ∈ Finset.range 22, ∑ q : Fin 1280,
            Cert.Spec.xmN (V m c main_arg0) ⟨(t.val / 22) * 512 + r.val, hb⟩ (kk * 1280 + q.val) * Wn m c (kk * 1280 + q.val) j)
          + (V m c main_v17 : S1x1408.Idx → EReal) (ix2 0 j)) := by
  have h0 : ¬ t.val % 22 = 0 := by omega
  have hN : t.val < 44 := lt_of_lt_of_eq t.isLt (show cfg0.N = 44 from N_0)
  rw [accAt_last m c t h21, Payload.pay3_apply, pay2_at m c t _ r j ⟨(t.val / 22) * 512 + r.val, hb⟩ rfl, iblk2_apply,
    accAt_partial m c r j ⟨(t.val / 22) * 512 + r.val, hb⟩ (t.val - 1) _ (by omega) (by show (t.val / 22) * 512 + r.val = ((t.val - 1) / 22) * 512 + r.val; omega)]
  refine congrArg Ideal.tanh (congrArg (· + (V m c main_v17 : S1x1408.Idx → EReal) (ix2 0 j)) ?_)
  rw [h21, show (t.val - 1) % 22 + 1 = 21 from by omega]
  exact (Finset.sum_range_succ (fun kk => ∑ q : Fin 1280,
    Cert.Spec.xmN (V m c main_arg0) ⟨(t.val / 22) * 512 + r.val, hb⟩ (kk * 1280 + q.val) * Wn m c (kk * 1280 + q.val) j) 21).symm

end Cert.KernelIdeal.KV

end
-- ==== Proof.LibScatterPairs.lean ====
/-
  Two more shapes of the host's gather and accumulating scatter read at one index: a gather of COLUMNS of a table
  (`x[:, idx]`), and an accumulating scatter of scalars addressed by PAIRS of start indices (`.at[i, j].add(v)`).
-/
import Idealize.ShloMosaic.PureOps.Ideal
import Idealize.ShloMosaic.PureOps.Ideal.Laws
import Idealize.ShloMosaic.Lib.ValueIdx
import Idealize.ShloMosaic.Lib.StableHlo.Predicate
import proofs.«426682_j6717328851824_3_alg».proof.Proof.LibScatterGather

noncomputable section

namespace Cert.Decode

open Idealize.ShloMosaic Idealize.ShloMosaic.ValueIdx

/-! ## The gather of columns: which table entry result index `q` reads -/

section GatherCols

variable {R N n : Nat} (d : GatherDims ⟨2, ![R, N]⟩ ⟨2, ![n, 1]⟩ ⟨2, ![R, n]⟩)

/-- Of the result's two axes, axis 0 is the offset axis, so axis 1 is the only batch axis. -/
theorem batchDims_cols (hoff : d.offsetDims = [0]) (X : Fin 2) (hX : X ∈ d.batchDims) : X = 1 := by
  have hne : X ≠ 0 := by simpa [GatherDims.batchDims, Shape.kept, hoff] using hX
  have hlt : X.val < 2 := X.isLt
  have hv : X.val ≠ 0 := fun hv => hne (Fin.ext hv)
  apply Fin.ext
  show X.val = 1
  omega

/-- Result index `q` reads its start index at row `q 1` of the index column: its batch coordinate is its second. -/
theorem gatherSiIdx_cols (hoff : d.offsetDims = [0]) (hsim : d.startIndexMap = [1]) (hivd : d.indexVectorDim = 1)
    (q : (⟨2, ![R, n]⟩ : Shape).Idx) (c : Fin d.startIndexMap.length) : d.siIdx q c = ix2 (q 1) 0 := by
  have hl : d.startIndexMap.length = 1 := by rw [hsim]; rfl
  funext b
  match b with
  | ⟨0, _⟩ =>
    unfold GatherDims.siIdx
    rw [dif_neg (by rw [hivd]; simp)]
    unfold GatherDims.siCoord
    apply Fin.ext
    simp only [Fin.val_cast]
    have e : ∀ X : Fin 2, X ∈ d.batchDims → (q X).val = (q 1).val := fun X hX => by rw [batchDims_cols d hoff X hX]
    exact e _ (List.getElem_mem _)
  | ⟨1, _⟩ =>
    unfold GatherDims.siIdx
    rw [dif_pos (by rw [hivd])]
    apply Fin.ext
    show c.val = 0
    have := c.isLt
    omega

/-- Result index `q` reads the table at (its own row, its start index clamped into the table): the row axis is the
    offset axis and starts at 0, the column axis is collapsed and start-indexed with a slice of one column. -/
theorem operandIdx_cols (hoff : d.offsetDims = [0]) (hcoll : d.collapsedSliceDims = [1]) (hob : d.operandBatchingDims = [])
    (hsim : d.startIndexMap = [1]) (hivd : d.indexVectorDim = 1) (hss : d.sliceSizes = ![R, 1])
    (idx : IVec ⟨2, ![n, 1]⟩ 32) (q : (⟨2, ![R, n]⟩ : Shape).Idx) (hN : 0 < N) :
    d.operandIdx q idx = (ix2 (q 0) (rowOf N hN (idx (ix2 (q 1) 0))) : (⟨2, ![R, N]⟩ : Shape).Idx) := by
  have hb : ∀ a : Fin 2, a ∉ d.operandBatchingDims := fun a => by rw [hob]; exact List.not_mem_nil
  have hk0 : (0 : Fin 2) ∈ d.sKept := by rw [GatherDims.mem_sKept, hcoll, hob]; simp
  have hk1 : (1 : Fin 2) ∉ d.sKept := by rw [GatherDims.mem_sKept, hcoll]; simp
  have hm0 : (0 : Fin 2) ∉ d.startIndexMap := by rw [hsim]; simp
  have hm1 : (1 : Fin 2) ∈ d.startIndexMap := by rw [hsim]; exact List.mem_singleton.mpr rfl
  have hsl : d.sliceSizes 1 = 1 := by rw [hss]; rfl
  funext a
  revert a
  refine Fin.forall_fin_two.2 ⟨?_, ?_⟩
  · apply Fin.ext
    show d.start q idx 0 + d.batchCoord q 0 + d.offCoord q 0 = (q 0).val
    rw [GatherDims.batchCoord_eq_zero _ _ _ (hb 0)]
    unfold GatherDims.start GatherDims.offCoord
    rw [dif_neg hm0, dif_pos hk0]
    simp only [Nat.add_zero, Nat.zero_add]
    have e : ∀ X : Fin 2, X ∈ d.offsetDims → (q X).val = (q 0).val := fun X hX => by
      rw [hoff] at hX; rw [List.mem_singleton.1 hX]
    exact e _ (List.getElem_mem _)
  · apply Fin.ext
    show d.start q idx 1 + d.batchCoord q 1 + d.offCoord q 1 = min (idx (ix2 (q 1) 0)).toInt.toNat (N - 1)
    rw [GatherDims.batchCoord_eq_zero _ _ _ (hb 1), GatherDims.offCoord_eq_zero _ _ _ hk1]
    simp only [Nat.add_zero]
    unfold GatherDims.start
    rw [dif_pos hm1, gatherSiIdx_cols d hoff hsim hivd, hsl]
    rfl

end GatherCols

/-- The gather of columns at result row `b`, position `e`: the table's row `b` at the column the start index, read
    signed and clamped into the table, names. -/
theorem gather_cols {α : Type} {R N n : Nat} (d : GatherDims ⟨2, ![R, N]⟩ ⟨2, ![n, 1]⟩ ⟨2, ![R, n]⟩)
    (hoff : d.offsetDims = [0]) (hcoll : d.collapsedSliceDims = [1]) (hob : d.operandBatchingDims = [])
    (hsb : d.startIndicesBatchingDims = []) (hsim : d.startIndexMap = [1]) (hivd : d.indexVectorDim = 1) (hss : d.sliceSizes = ![R, 1])
    (x : (⟨2, ![R, N]⟩ : Shape).Idx → α) (idx : IVec ⟨2, ![n, 1]⟩ 32) (b : Fin R) (e : Fin n) (hN : 0 < N) :
    Host.gather d x idx (ix2 b e) = x (ix2 b (rowOf N hN (idx (ix2 e 0)))) := by
  show x (d.operandIdx (ix2 b e) idx) = _
  rw [operandIdx_cols d hoff hcoll hob hsim hivd hss idx (ix2 b e) hN]
  rfl

/-- A word lands on row `k` exactly when, read signed, it is `k`. -/
theorem landing_eq_some_iff_toInt {n : Nat} (w : BitVec 32) (k : Fin n) : landing n w = some k ↔ w.toInt = (k.val : ℤ) := by
  have hk := k.isLt
  unfold landing
  constructor
  · intro h
    split at h
    · rename_i hw
      -- the landing row's number is the index read signed, which is not negative here
      have hv : w.toInt.toNat = k.val := congrArg Fin.val (Option.some.inj h)
      omega
    · exact absurd h (by simp)
  · intro h
    rw [dif_pos ⟨by omega, by omega⟩]
    congr 1
    apply Fin.ext
    show w.toInt.toNat = k.val
    omega

/-! ## The accumulating scatter of scalars addressed by index pairs: where update `q` lands -/

section ScatterPairs

variable {n0 n1 m : Nat} (d : ScatterDims ⟨2, ![n0, n1]⟩ ⟨2, ![m, 2]⟩ ⟨1, ![m]⟩)

/-- Update `q` reads component `a` of its start index at row `q 0`, column `a` of the index table: the one update
    axis is the scatter axis, and the index vector lies along the table's columns. -/
theorem siIdx_pairs (hiv : d.indexVectorDim = 1) (q : (⟨1, ![m]⟩ : Shape).Idx)
    (c : Fin d.scatterDimsToOperandDims.length) (a : Fin 2) (hc : c.val = a.val) : d.siIdx q c = ix2 (q 0) a := by
  funext b
  match b with
  | ⟨0, _⟩ =>
    unfold ScatterDims.siIdx
    rw [dif_neg (by rw [hiv]; simp)]
    unfold ScatterDims.siCoord
    apply Fin.ext
    simp only [Fin.val_cast]
    have e : ∀ X : Fin 1, (q X).val = (q 0).val := fun X => by
      have hX : X = 0 := Subsingleton.elim _ _
      subst hX; rfl
    exact e _
  | ⟨1, _⟩ =>
    unfold ScatterDims.siIdx
    rw [dif_pos (by rw [hiv])]
    apply Fin.ext
    show c.val = a.val
    exact hc

/-- On operand axis `a` the window of update `q` starts at component `a` of its index pair, read signed: the map
    sends component 0 to the rows and component 1 to the columns. -/
theorem start_pairs (hsd : d.scatterDimsToOperandDims = [0, 1]) (hiv : d.indexVectorDim = 1)
    (idx : IVec ⟨2, ![m, 2]⟩ 32) (q : (⟨1, ![m]⟩ : Shape).Idx) (a : Fin 2) :
    d.start q idx a = (idx (ix2 (q 0) a)).toInt := by
  have hmem : ∀ a : Fin 2, a ∈ ([0, 1] : List (Fin 2)) := by decide
  have hpos : ∀ a : Fin 2, ([0, 1] : List (Fin 2)).idxOf a = a.val := by decide
  have ha : a ∈ d.scatterDimsToOperandDims := by rw [hsd]; exact hmem a
  have hi : d.scatterDimsToOperandDims.idxOf a = a.val := by rw [hsd]; exact hpos a
  unfold ScatterDims.start
  rw [dif_pos ha, siIdx_pairs d hiv q _ a hi]
  rfl

/-- Both operand axes are inserted: an update has no window coordinate on either. -/
theorem window_pairs (hiw : d.insertedWindowDims = [0, 1]) (q : (⟨1, ![m]⟩ : Shape).Idx) (a : Fin 2) : d.window q a = 0 := by
  have hmem : ∀ a : Fin 2, a ∈ ([0, 1] : List (Fin 2)) := by decide
  have ha : a ∉ d.sKept := by
    simp only [ScatterDims.sKept, Shape.kept, hiw, List.mem_filter, List.mem_finRange, true_and, decide_not,
      Bool.not_eq_eq_eq_not, Bool.not_true, decide_eq_false_iff_not, not_not]
    exact hmem a
  unfold ScatterDims.window
  rw [dif_neg ha]

/-- Update `q` lands on cell (k, j) exactly when the first component of its index pair lands on row `k` and the
    second on column `j`. -/
theorem resultIdx_pairs_iff (hiw : d.insertedWindowDims = [0, 1]) (hsd : d.scatterDimsToOperandDims = [0, 1])
    (hiv : d.indexVectorDim = 1) (idx : IVec ⟨2, ![m, 2]⟩ 32) (q : (⟨1, ![m]⟩ : Shape).Idx) (k : Fin n0) (j : Fin n1) :
    d.resultIdx? q idx = some (ix2 k j)
      ↔ landing n0 (idx (ix2 (q 0) 0)) = some k ∧ landing n1 (idx (ix2 (q 0) 1)) = some j := by
  have hsw : ∀ a : Fin 2, d.start q idx a + (d.window q a : Int) = (idx (ix2 (q 0) a)).toInt := fun a => by
    rw [start_pairs d hsd hiv, window_pairs d hiw]; simp
  have hk := k.isLt
  have hj := j.isLt
  rw [landing_eq_some_iff_toInt, landing_eq_some_iff_toInt]
  unfold ScatterDims.resultIdx?
  by_cases hall : ∀ a : Fin 2, 0 ≤ d.start q idx a + (d.window q a : Int) ∧
      d.start q idx a + (d.window q a : Int) < ((⟨2, ![n0, n1]⟩ : Shape).size a : Int)
  · rw [dif_pos hall]
    have a0 := hall 0
    have a1 := hall 1
    rw [hsw 0] at a0
    rw [hsw 1] at a1
    constructor
    · intro h
      -- the landing cell's coordinates are the two components read signed, neither negative here
      have hf := Option.some.inj h
      have h0 : (d.start q idx 0 + (d.window q 0 : Int)).toNat = k.val := congrArg (fun f => (f 0).val) hf
      have h1 : (d.start q idx 1 + (d.window q 1 : Int)).toNat = j.val := congrArg (fun f => (f 1).val) hf
      rw [hsw 0] at h0
      rw [hsw 1] at h1
      omega
    · rintro ⟨h0, h1⟩
      congr 1
      funext a
      revert a
      refine Fin.forall_fin_two.2 ⟨?_, ?_⟩
      · apply Fin.ext
        show (d.start q idx 0 + (d.window q 0 : Int)).toNat = k.val
        rw [hsw 0]; omega
      · apply Fin.ext
        show (d.start q idx 1 + (d.window q 1 : Int)).toNat = j.val
        rw [hsw 1]; omega
  · rw [dif_neg hall]
    constructor
    · intro h; exact absurd h (by simp)
    · rintro ⟨h0, h1⟩
      -- components that are a row number and a column number are inside the operand on both axes
      exfalso
      apply hall
      refine Fin.forall_fin_two.2 ⟨?_, ?_⟩
      · rw [hsw 0]
        show 0 ≤ (idx (ix2 (q 0) 0)).toInt ∧ (idx (ix2 (q 0) 0)).toInt < (n0 : Int)
        omega
      · rw [hsw 1]
        show 0 ≤ (idx (ix2 (q 0) 1)).toInt ∧ (idx (ix2 (q 0) 1)).toInt < (n1 : Int)
        omega

end ScatterPairs

/-- The accumulating scatter of scalars addressed by index pairs, at cell (k, j): the operand there plus the updates
    whose first index lands on row `k` and whose second lands on column `j`. -/
theorem scatterAdd_pairs {n0 n1 m : Nat} (d : ScatterDims ⟨2, ![n0, n1]⟩ ⟨2, ![m, 2]⟩ ⟨1, ![m]⟩)
    (huw : d.updateWindowDims = []) (hiw : d.insertedWindowDims = [0, 1]) (hsd : d.scatterDimsToOperandDims = [0, 1]) (hiv : d.indexVectorDim = 1)
    (x : (⟨2, ![n0, n1]⟩ : Shape).Idx → EReal) (idx : IVec ⟨2, ![m, 2]⟩ 32) (upd : (⟨1, ![m]⟩ : Shape).Idx → EReal) (k : Fin n0) (j : Fin n1) :
    Host.scatterAdd (F := Ideal) (φ := .f32) d x idx upd (ix2 k j)
      = x (ix2 k j) + ∑ e ∈ Finset.univ.filter (fun e : Fin m => landing n0 (idx (ix2 e 0)) = some k ∧ landing n1 (idx (ix2 e 1)) = some j), upd (ix1 e) := by
  show x (ix2 k j) + ∑ q ∈ Finset.univ.filter (fun q => d.resultIdx? q idx = some (ix2 k j)), upd q = _
  congr 1
  -- an update index is its one coordinate: the updates that land on cell (k, j) are those whose index pair lands there
  refine Finset.sum_bij' (fun q _ => q 0) (fun e _ => ix1 e)
    (fun q hq => Finset.mem_filter.2 ⟨Finset.mem_univ _, (resultIdx_pairs_iff d hiw hsd hiv idx q k j).1 (Finset.mem_filter.1 hq).2⟩)
    (fun e he => Finset.mem_filter.2 ⟨Finset.mem_univ _, (resultIdx_pairs_iff d hiw hsd hiv idx (ix1 e) k j).2 (Finset.mem_filter.1 he).2⟩)
    (fun q _ => (eq_ix1 q).symm) (fun _ _ => rfl) (fun q _ => congrArg upd (eq_ix1 q))

end Cert.Decode

end
-- ==== Proof.KI.HostSide.lean ====
/-
  What the region finds in its weight and bias arrays, and what the host line after the region does.

  Before the region the program wraps negative source and segment indices around by 28160 and 1408, lays the two index
  vectors side by side as pairs, adds every weight into the cell its pair names of a 28160 × 1408 table of zeros (a
  pair outside the table is dropped), and changes the table's float format (the identity on the extended reals): entry
  (k, j) of the weight array is `Spec.dwN`. It fills the bias out with the zero the integer 0 converts to, up to 1408
  entries, and lays it as one row: entry (0, j) of the bias array is `Spec.bpadN`. After the region the result is the
  first 1387 columns of the region's output array.
-/
import proofs.«426682_j6717328851824_3_alg».proof.Proof.Gen.KernelIdeal.Frame
import proofs.«426682_j6717328851824_3_alg».proof.Proof.Spec
import proofs.«426682_j6717328851824_3_alg».proof.Proof.LibScatterPairs
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.ValueIdx Cert.Decode

variable (m : (ℓ : Loc nD τ sig) → Buf (Elt Ideal) ℓ)

/-! ## The weight array -/

/-- A vector of start indices with the negative ones wrapped around by `n`. -/
abbrev wrapVec (n : Nat) (v : IVec S138700 32) : IVec S138700 32 :=
  select (cmpi .slt v (broadcastInDim S138700 ![] Facts₀.bcast_S_S138700 (constantI S_ 32 0#32)))
    (addi v (broadcastInDim S138700 ![] Facts₀.bcast_S_S138700 (constantI S_ 32 (BitVec.ofNat 32 n)))) v

/-- Entry `e` of a wrapped index vector is the wrapped entry. -/
theorem wrapVec_apply (n : Nat) (v : IVec S138700 32) (e : Fin 138700) : wrapVec n v (ix1 e) = Cert.Spec.wrap n (v (ix1 e)) := rfl

/-- The weight array as the region finds it: the weights added into the table of zeros at the pairs of wrapped indices,
    its float format changed. -/
theorem V_w_term (c : Dev nD) :
    (V m c main_v15 : S28160x1408.Idx → EReal)
      = truncf .bf16 (Host.scatterAdd (F := Ideal) scatter_S28160x1408_S138700x2_S138700_n_01_01_1
          (broadcastInDim S28160x1408 ![] Facts₀.bcast_S_S28160x1408 (constant (F := Ideal) S_ .f32 0x00000000#32))
          (concatenate S138700x2 1
            [⟨S138700x1, broadcastInDim S138700x1 ![0] Facts₀.bcast_S138700_S138700x1_0 (wrapVec 28160 (m ((c.tc : Thread nD τ).loc main_arg3)))⟩,
             ⟨S138700x1, broadcastInDim S138700x1 ![0] Facts₀.bcast_S138700_S138700x1_0 (wrapVec 1408 (m ((c.tc : Thread nD τ).loc main_arg4)))⟩]
            Facts₀.concatenates_S138700x1_S138700x1_S138700x2_d1)
          (m ((c.tc : Thread nD τ).loc main_arg1))) Facts₀.bitsLt_bf16_f32 := by
  dsimp only [Gen.V, Gen.V0]
  simp only [Gen.hostOps0, Gen.hostOps0_1, Gen.hostOps0_2, List.flatten_cons, List.flatten_nil, List.append_nil, List.cons_append, List.nil_append]
  after_results_simp
  rfl

/-- Entry (k, j) of the weight array as the region finds it. -/
theorem V_w (c : Dev nD) (k : Fin 28160) (j : Fin 1408) :
    (V m c main_v15 : S28160x1408.Idx → EReal) (ix2 k j)
      = Cert.Spec.dwN (m ((c.tc : Thread nD τ).loc main_arg1)) (m ((c.tc : Thread nD τ).loc main_arg3)) (m ((c.tc : Thread nD τ).loc main_arg4)) k.val j.val := by
  rw [V_w_term m c]
  -- the float format change is the identity on the extended reals
  rw [truncf_apply]
  rw [scatterAdd_pairs scatter_S28160x1408_S138700x2_S138700_n_01_01_1 rfl rfl rfl rfl]
  unfold Cert.Spec.dwN
  refine congrArg₂ (fun a b : EReal => a + b) ?_ (Finset.sum_congr (Finset.filter_congr fun e _ => ?_) (fun _ _ => rfl))
  · -- the table of zeros: the scalar zero read everywhere
    rw [StableHlo.Predicate.bcast_scalar _ Facts₀.h_S_, constant_apply, Ideal.ofBits_zero_f32]
  · rw [landing_eq_some_iff_toInt, landing_eq_some_iff_toInt]
    -- the index pair of update e: its wrapped source index beside its wrapped segment index
    rw [concatenate_pair_apply_left (t := S138700x2) (s₁ := S138700x1) (s₂ := S138700x1) (1 : Fin 2) _ _
          Facts₀.concatenates_S138700x1_S138700x1_S138700x2_d1 (ix2 e (0 : Fin 2) : S138700x2.Idx) rfl (ix2 e (0 : Fin 1) : S138700x1.Idx)
          (Fin.forall_fin_two.2 ⟨rfl, rfl⟩),
        concatenate_pair_apply_right (t := S138700x2) (s₁ := S138700x1) (s₂ := S138700x1) (1 : Fin 2) _ _
          Facts₀.concatenates_S138700x1_S138700x1_S138700x2_d1 (ix2 e (1 : Fin 2) : S138700x2.Idx) rfl rfl (ix2 e (0 : Fin 1) : S138700x1.Idx)
          (Fin.forall_fin_two.2 ⟨fun _ => rfl, fun h => absurd rfl h⟩) rfl,
        broadcastInDim_apply (s := S138700) (t := S138700x1) _ Facts₀.bcast_S138700_S138700x1_0 _ (ix2 e (0 : Fin 1) : S138700x1.Idx) (ix1 e : S138700.Idx)
          (Fin.forall_fin_one.2 rfl),
        broadcastInDim_apply (s := S138700) (t := S138700x1) _ Facts₀.bcast_S138700_S138700x1_0 _ (ix2 e (0 : Fin 1) : S138700x1.Idx) (ix1 e : S138700.Idx)
          (Fin.forall_fin_one.2 rfl),
        wrapVec_apply, wrapVec_apply]

/-! ## The bias array -/

/-- A vector padded at the back only, read at position `j`: the vector there while `j` is inside it, the padding value past
    its end. -/
theorem pad_back_apply {α : Type} {n N p : Nat} (x : (⟨1, ![n]⟩ : Shape).Idx → α) {u : Shape} (v : u.Idx → α)
    (h : (⟨1, ![n]⟩ : Shape).Pads (![0] : Fin 1 → Nat) ![p] ![0] ⟨1, ![N]⟩) (hu : 0 < u.numel) (j : Fin N) :
    pad ⟨1, ![N]⟩ ![0] ![p] ![0] x v h hu (ix1 j) = if hj : j.val < n then x (ix1 ⟨j.val, hj⟩) else v (Shape.Idx.first hu) := by
  unfold pad
  by_cases hj : j.val < n
  · have hin : ∀ a : Fin 1, (![0] : Fin 1 → Nat) a ≤ ((ix1 j : (⟨1, ![N]⟩ : Shape).Idx) (a.cast h.1)).val
        ∧ (((ix1 j : (⟨1, ![N]⟩ : Shape).Idx) (a.cast h.1)).val - (![0] : Fin 1 → Nat) a) % ((![0] : Fin 1 → Nat) a + 1) = 0
        ∧ (((ix1 j : (⟨1, ![N]⟩ : Shape).Idx) (a.cast h.1)).val - (![0] : Fin 1 → Nat) a) / ((![0] : Fin 1 → Nat) a + 1) < (⟨1, ![n]⟩ : Shape).size a :=
      Fin.forall_fin_one.2 (by
        show 0 ≤ j.val ∧ (j.val - 0) % 1 = 0 ∧ (j.val - 0) / 1 < n
        refine ⟨Nat.zero_le _, Nat.mod_one _, ?_⟩
        rw [Nat.sub_zero, Nat.div_one]
        exact hj)
    rw [dif_pos hin, dif_pos hj]
    congr 1
    funext a
    revert a
    refine Fin.forall_fin_one.2 ?_
    apply Fin.ext
    show (j.val - 0) / 1 = j.val
    rw [Nat.sub_zero, Nat.div_one]
  · rw [dif_neg hj, dif_neg (fun hin => hj (by
      have e : (j.val - 0) / 1 < n := (hin 0).2.2
      rw [Nat.sub_zero, Nat.div_one] at e
      exact e))]

/-- The bias array as the region finds it: the bias padded at the back with the converted integer zero, laid as one row. -/
theorem V_b_term (c : Dev nD) :
    (V m c main_v17 : S1x1408.Idx → EReal)
      = shapeCast S1x1408 (pad S1408 ![0] ![21] ![0] (m ((c.tc : Thread nD τ).loc main_arg2) : S1387.Idx → EReal)
          (sitofp (F := Ideal) .f32 (constantI S_ 32 0#32)) Facts₀.pads_S1387_S1408_0210 Facts₀.h_S_) Facts₀.shapeCasts_S1408_S1x1408 := by
  dsimp only [Gen.V, Gen.V0]
  simp only [Gen.hostOps0, Gen.hostOps0_1, Gen.hostOps0_2, List.flatten_cons, List.flatten_nil, List.append_nil, List.cons_append, List.nil_append]
  after_results
  rfl

/-- Entry (0, j) of the bias array as the region finds it. -/
theorem V_b (c : Dev nD) (j : Fin 1408) :
    (V m c main_v17 : S1x1408.Idx → EReal) (ix2 0 j) = Cert.Spec.bpadN (m ((c.tc : Thread nD τ).loc main_arg2)) j.val := by
  rw [V_b_term m c]
  -- the one-row matrix at (0, j) is the vector at j: the same row-major position
  rw [shapeCast_apply _ Facts₀.shapeCasts_S1408_S1x1408 (ix2 0 j) (ix1 j) (by
    rw [Shape.rowMajor_val_one, Shape.rowMajor_val_two]
    show j.val = 0 * 1408 + j.val
    omega)]
  rw [pad_back_apply]
  unfold Cert.Spec.bpadN
  by_cases hj : j.val < 1387
  · rw [dif_pos hj, dif_pos hj]
  · rw [dif_neg hj, dif_neg hj]
    -- the padding value: the integer zero converted is the real zero
    show ((((0#32 : BitVec 32).toInt : ℤ) : ℝ) : EReal) = 0
    simp

/-- The `x` array as the region finds it is the argument. -/
theorem V_x (c : Dev nD) : V m c main_arg0 = m ((c.tc : Thread nD τ).loc main_arg0) := V_main_arg0 m c

end Cert.KernelIdeal.HostSide

end
-- ==== Proof.KI.Final.lean ====
/-
  The kernel's run with its result named: every weakly fair execution ends with the result array at `Spec.K` of the five
  argument arrays, and the arguments unchanged.

  The output window writes its block back after the last tile of each grid row: two blocks of 512 rows, which tile
  the 1024 × 1408 output array. Each written block is the restriction of one array function (row b, column j: tanh of
  the whole sum for row b plus the bias entry), so the array ends holding that function; the host line after the
  region keeps its first 1387 columns; and with the weight and bias arrays read as the scattered table and the
  padded bias this is `Spec.K`.
-/
import proofs.«426682_j6717328851824_3_alg».proof.Proof.KI.Accum
import proofs.«426682_j6717328851824_3_alg».proof.Proof.KI.HostSide
import proofs.«426682_j6717328851824_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat Cfg Window)

section Value

variable (m : (ℓ : Loc nD τ sig) → Buf (Elt Ideal) ℓ)

/-- Row `b`, column `j` of the output array after the region: tanh of the whole row-by-column sum plus the bias entry. -/
def Gat (c : Dev nD) (b : Fin 1024) (j : Fin 1408) : EReal :=
  Ideal.tanh ((∑ kk ∈ Finset.range 22, ∑ q : Fin 1280,
      Cert.Spec.xmN (V m c main_arg0) b (kk * 1280 + q.val) * Wn m c (kk * 1280 + q.val) j)
    + (V m c main_v17 : S1x1408.Idx → EReal) (ix2 0 j))

/-- The output array after the region, as one function of its index. -/
def Gout (c : Dev nD) : S1024x1408.Idx → EReal := fun i => Gat m c (i 0) (i 1)

/-- The output window's block index at a grid point: the batch half, and column block 0. -/
theorem idx_facts3 : ∀ t : Fin cfg0.N, win0_3.index t (0 : Fin 2) = t.val / 22 ∧ win0_3.index t (1 : Fin 2) = 0 :=
  (by decide +kernel : ∀ t : Fin grid0.N, win0_3.index t (0 : Fin 2) = t.val / 22 ∧ win0_3.index t (1 : Fin 2) = 0)

/-- What a write-back point writes is its block of `Gout`: the block after a last tile holds, at (r, j), tanh of the
    whole sum for row 512 · half + r plus the bias entry, and the block's rows are those rows of the array. -/
theorem flushed_eq (c : Dev nD) (t : Fin cfg0.N) (hf : (cfg0.win 3).flush t = true) :
    (dats m 0 c).flushed 3 t = ((cfg0.win 3).blk t).view.read (Elt Ideal) (Gout m c) := by
  have h21 : t.val % 22 = 21 := (flush0_3 t).mp hf
  have hN : t.val < 44 := lt_of_lt_of_eq t.isLt (show cfg0.N = 44 from N_0)
  show (cfg0.win 3).cut (grid0.coords t) ((dats m 0 c).after 3 t) = _
  rw [after3]
  show accAt m c t.val t.isLt = _
  funext y
  rw [View.read_apply]
  show accAt m c t.val t.isLt y = Gout m c (((cfg0.win 3).blk t).view.emb y)
  obtain ⟨r, j, rfl⟩ : ∃ (r : Fin 512) (j : Fin 1408), y = ix2 r j := ⟨y 0, y 1, eq_ix2 y⟩
  have hr : r.val < 512 := r.isLt
  have hb : (t.val / 22) * 512 + r.val < 1024 := by omega
  have e0 : (((cfg0.win 3).blk t).view.emb (ix2 r j)) 0 = (⟨(t.val / 22) * 512 + r.val, hb⟩ : Fin 1024) := by
    apply Fin.ext
    show win0_3.index t (0 : Fin 2) * 512 + 1 * r.val = (t.val / 22) * 512 + r.val
    rw [(idx_facts3 t).1]; omega
  have e1 : (((cfg0.win 3).blk t).view.emb (ix2 r j)) 1 = j := by
    apply Fin.ext
    show win0_3.index t (1 : Fin 2) * 1408 + 1 * j.val = j.val
    rw [(idx_facts3 t).2]; omega
  unfold Gout
  rw [e0, e1]
  exact accAt_flush m c t h21 r j hb

/-- An index of the output array is in point `t`'s block iff each coordinate is in the block's range on its axis. -/
theorem mem_blk3 (t : Fin cfg0.N) (i : S1024x1408.Idx) :
    i ∈ ((cfg0.win 3).blk t).view.set ↔ ∀ a : Fin 2, win0_3.index t a * S512x1408.size a ≤ (i a).val ∧ (i a).val < win0_3.index t a * S512x1408.size a + S512x1408.size a := by
  show i ∈ ((View.whole main_v18).slice (win0_3.rect t)).set ↔ _
  rw [View.set_slice_whole, Rect.mem_set_unit]
  exact Iff.rfl

/-- The two written blocks tile the array: index `i` lies in the block written after the last tile of its batch half. -/
theorem cover (i : S1024x1408.Idx) :
    ∃ t : Fin cfg0.N, (cfg0.win 3).flush t = true ∧ i ∈ ((cfg0.win 3).blk t).view.set := by
  have hi0 : (i 0).val < 1024 := (i 0).isLt
  have hi1 : (i 1).val < 1408 := (i 1).isLt
  have hN : cfg0.N = 44 := N_0
  obtain ⟨t, ht⟩ : ∃ t : Fin cfg0.N, t.val = (i 0).val / 512 * 22 + 21 := ⟨⟨(i 0).val / 512 * 22 + 21, by rw [hN]; omega⟩, rfl⟩
  obtain ⟨q0, q1⟩ := idx_facts3 t
  refine ⟨t, (flush0_3 t).mpr (by omega), ?_⟩
  rw [mem_blk3]
  intro a
  match a with
  | ⟨0, _⟩ =>
    show win0_3.index t (0 : Fin 2) * 512 ≤ (i 0).val ∧ (i 0).val < win0_3.index t (0 : Fin 2) * 512 + 512
    rw [q0]; omega
  | ⟨1, _⟩ =>
    show win0_3.index t (1 : Fin 2) * 1408 ≤ (i 1).val ∧ (i 1).val < win0_3.index t (1 : Fin 2) * 1408 + 1408
    rw [q1]; omega

/-- THE OUTPUT ARRAY after the region holds `Gout`. -/
theorem final (c : Dev nD) : (dats m 0 c).arrAt 3 cfg0.N = Gout m c :=
  (dats m 0 c).arrAt_eq_of_cover 3 (Gout m c) (fun t hf => flushed_eq m c t hf) cover

/-- After the host line that follows the region, the result buffer holds the first 1387 columns of `Gout`. -/
theorem tail_v19 (c : Dev nD) :
    Pipeline.afterTail₀ cfgs (dats m) 0 (V0 m) [hostOps1] c main_v19
      = extractStridedSlice S1024x1387 ![0, 0] (Gout m c) slices_S1024x1408_S1024x1387_0_0 := by
  unfold Pipeline.afterTail₀
  show StableHlo.after hostOps1 _ (Proc.devRef .tc main_v19) = _
  after_results
  have hA : Pipeline.withArrays (cfgs 0).spec c (V0 m c) (fun w => (dats m 0 c).arrAt w (cfgs 0).N) (Proc.devRef .tc main_v18)
      = Gout m c :=
    (Pipeline.withArrays_arr spec0 launch0.win.arr_inj c _ _ 3).trans (final m c)
  rw [hA]

/-- An entry of the weight array as the region finds it is the scattered table's. -/
theorem Wn_eq (c : Dev nD) (k : ℕ) (hk : k < 28160) (j : Fin 1408) :
    Wn m c k j = Cert.Spec.dwN (m ((c.tc : Thread nD τ).loc main_arg1)) (m ((c.tc : Thread nD τ).loc main_arg3))
      (m ((c.tc : Thread nD τ).loc main_arg4)) k j.val := by
  unfold Wn
  rw [dif_pos hk]
  exact HostSide.V_w m c ⟨k, hk⟩ j

/-- The first 1387 columns of `Gout`, entry by entry, are `Spec.K` of the five argument arrays: the weight array is the
    scattered table, the bias row the padded bias, and the `x` array the argument. -/
theorem slice_eq_K (c : Dev nD) :
    extractStridedSlice S1024x1387 ![0, 0] (Gout m c) slices_S1024x1408_S1024x1387_0_0
      = Cert.Spec.K (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  funext i
  obtain ⟨b, j, rfl⟩ : ∃ (b : Fin 1024) (j : Fin 1387), i = ix2 b j := ⟨i 0, i 1, eq_ix2 i⟩
  have hj : j.val < 1387 := j.isLt
  rw [slice2_axis1_apply 0 (Gout m c) slices_S1024x1408_S1024x1387_0_0 b j (⟨j.val, by omega⟩ : Fin 1408) (Nat.zero_add _).symm]
  show Gat m c b ⟨j.val, _⟩ = Cert.Spec.Kat _ _ _ _ _ b j
  unfold Gat Cert.Spec.Kat
  rw [HostSide.V_x, HostSide.V_b]
  refine congrArg Ideal.tanh (congrArg (fun s => s + Cert.Spec.bpadN _ j.val)
    (Finset.sum_congr rfl fun kk hkk => Finset.sum_congr rfl fun q _ => ?_))
  have hkk' : kk < 22 := Finset.mem_range.mp hkk
  have hq : q.val < 1280 := q.isLt
  rw [Wn_eq m c (kk * 1280 + q.val) (by omega)]

end Value

/-- THE KERNEL'S RUN at the ideal values. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v19)
          = Cert.Spec.K (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono (fun _ h c =>
    ⟨((h c).2 main_v19 (Pipeline.mem_restRefs_of main_v19 (by decide) (by decide))).trans ((tail_v19 m c).trans (slice_eq_K m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KV

end
-- ==== Proof.RefValue.lean ====
/-
  The reference's run read back: its result array is `Spec.G` of its five argument arrays.

  Stage by stage: negative source indices are wrapped around by 27000; the gather reads, for batch row b and nonzero
  e, column (that index, clamped into 0‥26999) of row b of `x`; the product with `w e` is transposed so that the
  nonzeros run along the rows; the accumulating scatter adds row e into row `seg e` of a 1387 × 1024 table of zeros
  when that index lands inside it; the table is transposed back, the bias added along the rows, and tanh applied.
-/
import proofs.«426682_j6717328851824_3_alg».proof.Defs
import proofs.«426682_j6717328851824_3_alg».proof.Proof.Gen.ReferenceIdeal
import proofs.«426682_j6717328851824_3_alg».proof.Proof.Gen.ReferenceIdeal.Run
import proofs.«426682_j6717328851824_3_alg».proof.Proof.Gen.ReferenceIdeal.Read
import proofs.«426682_j6717328851824_3_alg».proof.Proof.Spec
import proofs.«426682_j6717328851824_3_alg».proof.Proof.LibScatterPairs
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Decode

/-! ## The composed index maps at an index given by its coordinates -/

/-- The transpose back reads the scatter's table at the swapped coordinates. -/
theorem idx14_ix2 (b : Fin 1024) (j : Fin 1387) : Read.idx_main_v14 (ix2 b j) = ix2 j b := by
  funext a; match a with | ⟨0, _⟩ => rfl | ⟨1, _⟩ => rfl

/-- The bias broadcast along the rows reads entry `j`. -/
theorem idx15_16_ix2 (b : Fin 1024) (j : Fin 1387) : Read.idx_main_v15 (Read.idx_main_v16 (ix2 b j)) = ix1 j := by
  funext a; match a with | ⟨0, _⟩ => rfl

/-- The segment-index column's row `e` is entry `e` of the segment indices. -/
theorem idx12_ix2 (e : Fin 138700) : Read.idx_main_v12 (ix2 e (0 : Fin 1)) = ix1 e := by
  funext a; match a with | ⟨0, _⟩ => rfl

/-- The source-index column's row `e` is entry `e` of the wrapped source indices. -/
theorem idx5_ix2 (e : Fin 138700) : Read.idx_main_v5 (ix2 e (0 : Fin 1)) = ix1 e := by
  funext a; match a with | ⟨0, _⟩ => rfl

/-- The transpose of the products reads them at the swapped coordinates. -/
theorem idx10_ix2 (e : Fin 138700) (b : Fin 1024) : Read.idx_main_v10 (ix2 e b) = ix2 b e := by
  funext a; match a with | ⟨0, _⟩ => rfl | ⟨1, _⟩ => rfl

/-- The weights broadcast along the batch rows read entry `e`. -/
theorem idx7_8_ix2 (b : Fin 1024) (e : Fin 138700) : Read.idx_main_v7 (Read.idx_main_v8 (ix2 b e)) = ix1 e := by
  funext a; match a with | ⟨0, _⟩ => rfl

/-! ## The stages at an index -/

/-- Entry `e` of the wrapped source indices. -/
theorem v4_at (x3 : IVec S138700 32) (e : Fin 138700) :
    Read.val_main_v4 (F := Ideal) x3 (ix1 e) = Cert.Spec.wrap 27000 (x3 (ix1 e)) := by
  rw [Read.val_main_v4_apply, Read.val_main_v1_apply, Read.val_main_v3_apply, Read.val_main_v0_apply,
    Read.val_main_v2_apply, Read.val_main_c_apply, Read.val_main_c_0_apply]
  rfl

/-- Row `e` of the source-index column. -/
theorem v5_at (x3 : IVec S138700 32) (e : Fin 138700) :
    Read.val_main_v5 (F := Ideal) x3 (ix2 e (0 : Fin 1)) = Cert.Spec.wrap 27000 (x3 (ix1 e)) := by
  rw [Read.val_main_v5_apply, idx5_ix2, v4_at]

/-- Row `e` of the segment-index column. -/
theorem v12_at (x4 : IVec S138700 32) (e : Fin 138700) :
    Read.val_main_v12 (F := Ideal) x4 (ix2 e (0 : Fin 1)) = x4 (ix1 e) := by
  rw [Read.val_main_v12_apply, idx12_ix2]

/-- The gather at (b, e): row `b` of `x` at the column the wrapped source index of `e`, clamped, names. -/
theorem v6_at (x0 : FVec Ideal S1024x27000 .f32) (x3 : IVec S138700 32) (b : Fin 1024) (e : Fin 138700) :
    Read.val_main_v6 (F := Ideal) x0 x3 (ix2 b e)
      = x0 (ix2 b (rowOf 27000 (by norm_num) (Cert.Spec.wrap 27000 (x3 (ix1 e))))) := by
  unfold Read.val_main_v6
  rw [gather_cols gather_S1024x27000_S138700x1_S1024x138700_0_1_n_n_1_1_10241 rfl rfl rfl rfl rfl rfl rfl x0
    (Read.val_main_v5 (F := Ideal) x3) b e (by norm_num), v5_at]

/-- The transposed product at (e, b). -/
theorem v10_at (x0 : FVec Ideal S1024x27000 .f32) (x1 : FVec Ideal S138700 .f32) (x3 : IVec S138700 32)
    (e : Fin 138700) (b : Fin 1024) :
    Read.val_main_v10 (F := Ideal) x0 x1 x3 (ix2 e b)
      = x0 (ix2 b (rowOf 27000 (by norm_num) (Cert.Spec.wrap 27000 (x3 (ix1 e))))) * x1 (ix1 e) := by
  rw [Read.val_main_v10_apply, idx10_ix2, Read.val_main_v9_apply, v6_at, Read.val_main_v8_apply,
    Read.val_main_v7_apply, idx7_8_ix2]
  rfl

/-- The table of zeros the scatter accumulates into. -/
theorem v11_at (k : Fin 1387) (b : Fin 1024) : Read.val_main_v11 (F := Ideal) (ix2 k b) = 0 := by
  rw [Read.val_main_v11_apply, Read.val_main_cst_apply]
  exact Ideal.ofBits_zero_f32

/-- The accumulating scatter at (k, b): zero plus the products of the nonzeros whose segment index lands on `k`. -/
theorem v13_at (x0 : FVec Ideal S1024x27000 .f32) (x1 : FVec Ideal S138700 .f32) (x3 x4 : IVec S138700 32)
    (k : Fin 1387) (b : Fin 1024) :
    Read.val_main_v13 (F := Ideal) x0 x1 x3 x4 (ix2 k b)
      = 0 + ∑ e ∈ Finset.univ.filter (fun e : Fin 138700 => landing 1387 (x4 (ix1 e)) = some k),
          x0 (ix2 b (rowOf 27000 (by norm_num) (Cert.Spec.wrap 27000 (x3 (ix1 e))))) * x1 (ix1 e) := by
  unfold Read.val_main_v13
  rw [scatterAdd_rows scatter_S1387x1024_S138700x1_S138700x1024_1_0_0_1 rfl rfl rfl rfl
    (Read.val_main_v11 (F := Ideal)) (Read.val_main_v12 (F := Ideal) x4) (Read.val_main_v10 (F := Ideal) x0 x1 x3) k b,
    v11_at]
  simp only [v12_at, v10_at]

/-- The reference's last stage, at the ideal values, is `Spec.G` of the arguments. -/
theorem result_eq (x0 : FVec Ideal S1024x27000 .f32) (x1 : FVec Ideal S138700 .f32) (x2 : FVec Ideal S1387 .f32)
    (x3 x4 : IVec S138700 32) :
    Cert.ReferenceIdeal.Read.val_main_v18 (F := Ideal) x0 x1 x2 x3 x4 = Cert.Spec.G x0 x1 x2 x3 x4 := by
  funext i
  obtain ⟨b, j, rfl⟩ : ∃ (b : Fin 1024) (j : Fin 1387), i = ix2 b j := ⟨i 0, i 1, eq_ix2 i⟩
  show _ = Cert.Spec.Gat x0 x1 x2 x3 x4 b j
  unfold Cert.Spec.Gat
  rw [Read.val_main_v18_apply, Read.val_main_v17_apply, Read.val_main_v14_apply, idx14_ix2, v13_at,
    Read.val_main_v16_apply, Read.val_main_v15_apply, idx15_16_ix2, Ideal.hostUnary_tanh_def, Ideal.addf_def]

/-- The reference's run: every weakly fair execution ends with the result array at `Spec.G` of the argument arrays and
    the arguments unchanged. -/
theorem run_G (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v18)
          = Cert.Spec.G (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run (defs (F := Ideal)) _ _).mono
    (fun _ h c => ⟨by rw [(h c).1, Cert.ReferenceIdeal.Read.val_main_v18_eq, result_eq], (h c).2⟩)
    (Cert.ReferenceIdeal.Value.run (F := Ideal) m ρ)

end Cert.ReferenceIdeal.RefValue

end
-- ==== Proof.Algebra.lean ====
/-
  The kernel's form of the result is the reference's, on inputs in range with finite `x` and `w`.

  With every source index in 0‥26999 and every segment index non-negative the wrap-arounds are the identity, the
  clamped read of column `src e` is column `src e`, and cell (k, j) of the dense table holds the sum of the weights
  of the nonzeros with `src e = k` and `seg e = j`. Then for an output unit j < 1387
      Σ_k x̃[b, k] · (Σ_{e : src e = k, seg e = j} w e)  =  Σ_{e : seg e = j} x[b, src e] · w e :
  distribute the product over the inner sum (which needs `x` and `w` real: the extended reals do not distribute at
  the infinities), exchange the two sums, and note that each nonzero e meets exactly one k, its own source index,
  which is below 27000 so that x̃ is x there. The twenty-two tiles of 1280 columns are the 28160 columns in order.
-/
import proofs.«426682_j6717328851824_3_alg».proof.Proof.Spec

noncomputable section

namespace Cert.Spec

open Idealize.ShloMosaic Idealize.ShloMosaic.ValueIdx Cert.Decode

/-! ## Word facts: indices in range are left alone -/

/-- A word that is not negative read signed is not wrapped around. -/
theorem wrap_of_nonneg (n : Nat) (w : BitVec 32) (h : 0 ≤ w.toInt) : wrap n w = w := by
  have hs : w.slt 0#32 = false := by
    simp only [BitVec.slt, BitVec.toInt_zero, decide_eq_false_iff_not, not_lt]
    exact h
  have hc : Scalar.cmpi .slt w 0#32 = 0#1 := by
    show BitVec.ofBool (w.slt 0#32) = 0#1
    rw [hs]; rfl
  unfold wrap
  rw [hc, select_zero]

/-- The clamped read of an index inside the table is that index. -/
theorem rowOf_of_lt (n : Nat) (hn : 0 < n) (w : BitVec 32) (h0 : 0 ≤ w.toInt) (h1 : w.toInt < n) :
    rowOf n hn w = ⟨w.toInt.toNat, by omega⟩ := by
  apply Fin.ext
  show min w.toInt.toNat (n - 1) = w.toInt.toNat
  omega

/-- A non-negative index lands on row `j` exactly when it is `j` read signed. -/
theorem landing_iff_toInt (n : Nat) (w : BitVec 32) (h0 : 0 ≤ w.toInt) (j : Fin n) :
    landing n w = some j ↔ w.toInt = (j.val : ℤ) := by
  have hj := j.isLt
  unfold landing
  constructor
  · intro h
    split at h
    · have hv : w.toInt.toNat = j.val := congrArg Fin.val (Option.some.inj h)
      omega
    · exact absurd h (by simp)
  · intro h
    rw [dif_pos ⟨h0, by omega⟩]
    congr 1
    apply Fin.ext
    show w.toInt.toNat = j.val
    omega

/-! ## Sums -/

/-- The tiles of `b` columns, `a` of them in order, are the first `a * b` columns. -/
theorem sum_tiles {M : Type} [AddCommMonoid M] (a b : ℕ) (f : ℕ → M) :
    ∑ kk ∈ Finset.range a, ∑ kj : Fin b, f (kk * b + kj.val) = ∑ k ∈ Finset.range (a * b), f k := by
  induction a with
  | zero => simp
  | succ a ih =>
    rw [Finset.sum_range_succ, ih, Nat.succ_mul, Finset.sum_range_add]
    congr 1
    exact Fin.sum_univ_eq_sum_range (fun i => f (a * b + i)) b

/-- The inclusion of the reals in the extended reals carries finite sums to finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Over the reals: a sum over columns `k` of `a k` times the weights of the nonzeros in column `k` (among those
    with property `P`) is the sum over the nonzeros with `P` of `a` at the nonzero's own column times its weight. -/
theorem fibre_sum_real {m N : ℕ} (a : ℕ → ℝ) (c : Fin m → ℝ) (t : Fin m → ℤ) (P : Fin m → Prop) [DecidablePred P]
    (ht : ∀ e, 0 ≤ t e ∧ t e < N) :
    ∑ k ∈ Finset.range N, a k * ∑ e ∈ Finset.univ.filter (fun e => t e = (k : ℤ) ∧ P e), c e
      = ∑ e ∈ Finset.univ.filter P, a (t e).toNat * c e := by
  -- distribute, write the restricted sums as sums of guarded terms, and exchange the two sums
  simp_rw [Finset.mul_sum, Finset.sum_filter]
  rw [Finset.sum_comm]
  refine Finset.sum_congr rfl (fun e _ => ?_)
  have hte := ht e
  by_cases hP : P e
  · -- nonzero e meets exactly one column, its own
    have hk : (t e).toNat ∈ Finset.range N := Finset.mem_range.2 (by omega)
    rw [if_pos hP]
    refine (Finset.sum_congr rfl (fun k _ => ?_)).trans
      ((Finset.sum_ite_eq (Finset.range N) (t e).toNat (fun k => a k * c e)).trans (if_pos hk))
    by_cases hkk : t e = (k : ℤ)
    · rw [if_pos ⟨hkk, hP⟩, if_pos (show (t e).toNat = k by omega)]
    · rw [if_neg (fun h => hkk h.1), if_neg (show ¬ (t e).toNat = k by omega)]
  · rw [if_neg hP]
    exact Finset.sum_eq_zero (fun k _ => if_neg (fun h => hP h.2))

/-- The same over the extended reals, for finite `a` and `c`. -/
theorem fibre_sum {m N : ℕ} (a : ℕ → EReal) (c : Fin m → EReal) (t : Fin m → ℤ) (P : Fin m → Prop) [DecidablePred P]
    (ha : ∀ k, ∃ r : ℝ, a k = (r : EReal)) (hc : ∀ e, ∃ r : ℝ, c e = (r : EReal)) (ht : ∀ e, 0 ≤ t e ∧ t e < N) :
    ∑ k ∈ Finset.range N, a k * (0 + ∑ e ∈ Finset.univ.filter (fun e => t e = (k : ℤ) ∧ P e), c e)
      = 0 + ∑ e ∈ Finset.univ.filter P, a (t e).toNat * c e := by
  choose ar har using ha
  choose cr hcr using hc
  simp only [zero_add, har, hcr, ← coe_sum, ← EReal.coe_mul]
  rw [fibre_sum_real ar cr t P ht]

/-! ## The two forms -/

/-- Row `b` of `x` filled out with zeros is finite when `x` is. -/
theorem xmN_real (x : I2 1024 27000 → EReal) (hx : ∀ i, ∃ r : ℝ, x i = (r : EReal)) (b : Fin 1024) (k : ℕ) :
    ∃ r : ℝ, xmN x b k = (r : EReal) := by
  unfold xmN
  split
  · exact hx _
  · exact ⟨0, rfl⟩

/-- The two forms agree at every entry. -/
theorem Kat_eq_Gat (x : I2 1024 27000 → EReal) (w : I1 138700 → EReal) (bias : I1 1387 → EReal) (src seg : I1 138700 → BitVec 32)
    (hx : ∀ i, ∃ r : ℝ, x i = (r : EReal)) (hw : ∀ e, ∃ r : ℝ, w e = (r : EReal))
    (hsrc : ∀ e, 0 ≤ (src e).toInt ∧ (src e).toInt < 27000) (hseg : ∀ e, 0 ≤ (seg e).toInt)
    (b : Fin 1024) (j : Fin 1387) :
    Kat x w bias src seg b j = Gat x w bias src seg b j := by
  have hs0 : ∀ e : Fin 138700, 0 ≤ (src (ix1 e)).toInt := fun e => (hsrc (ix1 e)).1
  have hs1 : ∀ e : Fin 138700, (src (ix1 e)).toInt < 27000 := fun e => (hsrc (ix1 e)).2
  have hg0 : ∀ e : Fin 138700, 0 ≤ (seg (ix1 e)).toInt := fun e => hseg (ix1 e)
  -- cell (k, j) of the dense table, the wrap-arounds being the identity
  have hdw : ∀ k : ℕ, dwN w src seg k j.val = 0 + ∑ e ∈ Finset.univ.filter (fun e : Fin 138700 =>
      (src (ix1 e)).toInt = (k : ℤ) ∧ (seg (ix1 e)).toInt = (j.val : ℤ)), w (ix1 e) := fun k => by
    have hf : Finset.univ.filter (fun e : Fin 138700 =>
          (wrap 28160 (src (ix1 e))).toInt = (k : ℤ) ∧ (wrap 1408 (seg (ix1 e))).toInt = (j.val : ℤ))
        = Finset.univ.filter (fun e : Fin 138700 =>
          (src (ix1 e)).toInt = (k : ℤ) ∧ (seg (ix1 e)).toInt = (j.val : ℤ)) :=
      Finset.filter_congr (fun e _ => by rw [wrap_of_nonneg _ _ (hs0 e), wrap_of_nonneg _ _ (hg0 e)])
    unfold dwN
    rw [hf]
  -- the reference's sum: the nonzeros that land on j are those with segment index j, and each reads its own column
  have hG : ∑ e ∈ Finset.univ.filter (fun e : Fin 138700 => landing 1387 (seg (ix1 e)) = some j),
      x (ix2 b (rowOf 27000 (by norm_num) (wrap 27000 (src (ix1 e))))) * w (ix1 e)
      = ∑ e ∈ Finset.univ.filter (fun e : Fin 138700 => (seg (ix1 e)).toInt = (j.val : ℤ)),
        xmN x b (src (ix1 e)).toInt.toNat * w (ix1 e) := by
    rw [Finset.filter_congr (fun e _ => landing_iff_toInt 1387 (seg (ix1 e)) (hg0 e) j)]
    refine Finset.sum_congr rfl (fun e _ => ?_)
    have hxe : x (ix2 b (rowOf 27000 (by norm_num) (wrap 27000 (src (ix1 e)))))
        = xmN x b (src (ix1 e)).toInt.toNat := by
      rw [wrap_of_nonneg _ _ (hs0 e),
        rowOf_of_lt 27000 (by norm_num) _ (hs0 e) (by have := hs1 e; omega)]
      unfold xmN
      rw [dif_pos (by have := hs0 e; have := hs1 e; omega)]
    rw [hxe]
  -- the padded bias below 1387 is the bias
  have hb : bpadN bias j.val = bias (ix1 j) := by
    unfold bpadN
    rw [dif_pos j.isLt]
  unfold Kat Gat
  rw [hG, hb, sum_tiles 22 1280 (fun k => xmN x b k * dwN w src seg k j.val)]
  simp_rw [hdw]
  rw [show (22 * 1280 : ℕ) = 28160 from rfl,
    fibre_sum (xmN x b) (fun e => w (ix1 e)) (fun e => (src (ix1 e)).toInt)
      (fun e => (seg (ix1 e)).toInt = (j.val : ℤ)) (xmN_real x hx b) (fun e => hw _)
      (fun e => ⟨hs0 e, by have := hs1 e; omega⟩)]

/-- The two forms are one array. -/
theorem K_eq_G (x : I2 1024 27000 → EReal) (w : I1 138700 → EReal) (bias : I1 1387 → EReal) (src seg : I1 138700 → BitVec 32)
    (hx : ∀ i, ∃ r : ℝ, x i = (r : EReal)) (hw : ∀ e, ∃ r : ℝ, w e = (r : EReal))
    (hsrc : ∀ e, 0 ≤ (src e).toInt ∧ (src e).toInt < 27000) (hseg : ∀ e, 0 ≤ (seg e).toInt) :
    K x w bias src seg = G x w bias src seg :=
  funext fun i => Kat_eq_Gat x w bias src seg hx hw hsrc hseg (i 0) (i 1)

end Cert.Spec

end
-- ==== Proof.PreDecode.lean ====
/-
  What the precondition says of the five argument arrays: every entry of `x` and of `w` is a real number (its
  absolute value is below +∞), every source index is in 0‥26999 and every segment index is non-negative, read signed.
-/
import proofs.«426682_j6717328851824_3_alg».proof.Proof.Gen.Pre_finite_inputs
import proofs.«426682_j6717328851824_3_alg».proof.Proof.Spec
import Idealize.ShloMosaic.Lib.ReduceAll
import Idealize.ShloMosaic.Lib.StableHlo.Predicate

noncomputable section

namespace Cert.PreDecode

open Idealize.ShloMosaic Idealize.ShloMosaic.ValueIdx Cert.Pre_finite_inputs

variable [Cert.Pre_finite_inputs.Facts]

/-- The scalar shape has one index. -/
instance : Subsingleton S_.Idx := ⟨fun a b => funext fun d => d.elim0⟩

/-- The f32 pattern with all-ones exponent, zero fraction and clear sign denotes +∞. -/
theorem inf_bits : Ideal.ofBits .f32 0x7F800000#32 = (⊤ : EReal) := by
  simp [Ideal.ofBits, Ideal.ieee]

/-- An extended real whose absolute value (the larger of it and its negation) is below +∞ is a real number:
    at −∞ the negation is +∞, and at +∞ the value itself is. -/
theorem real_of_abs_lt_top (v : EReal) (h : max v (-v) < ⊤) : ∃ r : ℝ, v = (r : EReal) := by
  induction v using EReal.rec with
  | bot => simp at h
  | coe r => exact ⟨r, rfl⟩
  | top => simp at h

/-- One element of a mask `|v| < +∞`, the bound a broadcast scalar: the entry is a real number. -/
theorem real_of_mask {s : Shape} (hb : S_.BroadcastsInDim s ![]) (v : FVec Ideal s .f32) (i : s.Idx)
    (h : cmpf .olt (Host.absf v) (broadcastInDim s ![] hb (constant S_ .f32 0x7F800000#32)) i = 1#1) :
    ∃ r : ℝ, v i = (r : EReal) := by
  rw [cmpf_apply, StableHlo.Predicate.bcast_scalar hb Facts.h_S_] at h
  have h' : max (v i) (-(v i)) < (⊤ : EReal) := by
    have e : FloatOps.cmpf (F := Ideal) .olt (Host.absf v i) (constant (F := Ideal) S_ .f32 0x7F800000#32 (Shape.Idx.first Facts.h_S_))
        = BitVec.ofBool (decide (max (v i) (-(v i)) < Ideal.ofBits .f32 0x7F800000#32)) := rfl
    rw [e, StableHlo.Predicate.ofBool_eq_one_iff, decide_eq_true_eq, inf_bits] at h
    exact h
  exact real_of_abs_lt_top _ h'

/-- One element of a signed mask `a ≥ c`, the bound a broadcast scalar word. -/
theorem sge_of_mask {s : Shape} (hb : S_.BroadcastsInDim s ![]) (a : IVec s 32) (c : BitVec 32) (e : s.Idx)
    (h : cmpi .sge a (broadcastInDim s ![] hb (constantI S_ 32 c)) e = 1#1) : c.toInt ≤ (a e).toInt := by
  have e1 : cmpi .sge a (broadcastInDim s ![] hb (constantI S_ 32 c)) e
      = BitVec.ofBool ((broadcastInDim s ![] hb (constantI S_ 32 c) e).sle (a e)) := rfl
  rw [e1, StableHlo.Predicate.bcast_scalar hb Facts.h_S_, StableHlo.Predicate.ofBool_eq_one_iff, BitVec.sle_iff_toInt_le] at h
  exact h

/-- One element of a signed mask `a < c`, the bound a broadcast scalar word. -/
theorem slt_of_mask {s : Shape} (hb : S_.BroadcastsInDim s ![]) (a : IVec s 32) (c : BitVec 32) (e : s.Idx)
    (h : cmpi .slt a (broadcastInDim s ![] hb (constantI S_ 32 c)) e = 1#1) : (a e).toInt < c.toInt := by
  have e1 : cmpi .slt a (broadcastInDim s ![] hb (constantI S_ 32 c)) e
      = BitVec.ofBool ((a e).slt (broadcastInDim s ![] hb (constantI S_ 32 c) e)) := rfl
  rw [e1, StableHlo.Predicate.bcast_scalar hb Facts.h_S_, StableHlo.Predicate.ofBool_eq_one_iff, BitVec.slt_iff_toInt_lt] at h
  exact h

/-- The printed precondition, all ones, gives the four facts the value proof uses. -/
theorem facts_of_pre (x : FVec Ideal S1024x27000 .f32) (w : FVec Ideal S138700 .f32) (bias : FVec Ideal S1387 .f32)
    (src seg : IVec S138700 32)
    (h : Cert.Pre_finite_inputs.fn (F := Ideal) x w bias src seg = fun _ => 1#1) :
    (∀ i, ∃ r : ℝ, x i = (r : EReal)) ∧ (∀ e, ∃ r : ℝ, w e = (r : EReal))
      ∧ (∀ e, 0 ≤ (src e).toInt ∧ (src e).toInt < 27000) ∧ (∀ e, 0 ≤ (seg e).toInt) := by
  have z0 : (0#32 : BitVec 32).toInt = 0 := by decide
  have z1 : (27000#32 : BitVec 32).toInt = 27000 := by decide
  -- the predicate at its one index: a conjunction of six reductions by `and`
  have h0 := congrFun h ix0
  dsimp only [Cert.Pre_finite_inputs.fn, Cert.Pre_finite_inputs.fn_part1] at h0
  obtain ⟨h5, hseg⟩ := IntOp.andi_eq_one.1 h0
  obtain ⟨h4, hlt⟩ := IntOp.andi_eq_one.1 h5
  obtain ⟨h3, hge⟩ := IntOp.andi_eq_one.1 h4
  obtain ⟨h2, _⟩ := IntOp.andi_eq_one.1 h3
  obtain ⟨hx, hw⟩ := IntOp.andi_eq_one.1 h2
  refine ⟨fun i => ?_, fun e => ?_, fun e => ⟨?_, ?_⟩, fun e => ?_⟩
  · exact real_of_mask _ x i (Host.reduce_andi_all _ _ _ _ _ hx i)
  · exact real_of_mask _ w e (Host.reduce_andi_all _ _ _ _ _ hw e)
  · have := sge_of_mask _ src 0#32 e (Host.reduce_andi_all _ _ _ _ _ hge e)
    rwa [z0] at this
  · have := slt_of_mask _ src 27000#32 e (Host.reduce_andi_all _ _ _ _ _ hlt e)
    rwa [z1] at this
  · have := sge_of_mask _ seg 0#32 e (Host.reduce_andi_all _ _ _ _ _ hseg e)
    rwa [z0] at this

end Cert.PreDecode

end
-- ==== Proof.lean ====
/-
  The certificate's five claims, assembled.

  The kernel computes tanh(x̃ · D + bias) where D is the dense 28160 × 1408 table into which the sparse weights were
  added at their (source, segment) cells and x̃ is `x` cut off to zero from column 27000 on; the reference computes, for
  each output unit, tanh of the sum over that unit's nonzeros of x[·, source] · weight, plus the bias. The two frames
  of the kernel (at the word level and at the ideal values) come from the pipeline's proof data and the body's run in
  its three cases; the reference's frame is its run with the result dropped; the idealization changed no operation.
  For the values: the kernel's run names its result `Spec.K` of the five arguments and the reference's run names its
  result `Spec.G`; the precondition says every `x` and weight entry is a real number, every source index lies in
  0‥26999 and every segment index is non-negative; and on such inputs `Spec.K = Spec.G`, by distributing each product
  over the table cell's sum and regrouping the double sum by nonzero.
-/
import proofs.«426682_j6717328851824_3_alg».proof.Defs
import proofs.«426682_j6717328851824_3_alg».proof.Proof.Gen.Kernel
import proofs.«426682_j6717328851824_3_alg».proof.Proof.Gen.KernelIdeal
import proofs.«426682_j6717328851824_3_alg».proof.Proof.Gen.ReferenceIdeal
import proofs.«426682_j6717328851824_3_alg».proof.Proof.Gen.ReferenceIdeal.Run
import proofs.«426682_j6717328851824_3_alg».proof.Proof.Gen.Pre_finite_inputs
import proofs.«426682_j6717328851824_3_alg».proof.Proof.KB.Frame
import proofs.«426682_j6717328851824_3_alg».proof.Proof.KI.Frame
import proofs.«426682_j6717328851824_3_alg».proof.Proof.KI.Final
import proofs.«426682_j6717328851824_3_alg».proof.Proof.RefValue
import proofs.«426682_j6717328851824_3_alg».proof.Proof.Algebra
import proofs.«426682_j6717328851824_3_alg».proof.Proof.PreDecode
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Hand.frame (F := Bits) m ρ

/-- So does the idealized kernel. -/
theorem frame_kernelIdeal : Cert.frame_KernelIdeal := fun m ρ _ => Cert.KernelIdeal.Hand.frame (F := Ideal) m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation: nothing to preserve. -/
theorem preserves : Cert.preserves_Kernel_KernelIdeal := trivial

/-- From memories agreeing on the five arguments, under the precondition, both programs end with the same result:
    the kernel's is `Spec.K` of the arguments, the reference's `Spec.G` of the same arguments, and the two are equal
    on inputs in range with real `x` and weights. -/
theorem algebraic : Cert.algebraic_KernelIdeal_ReferenceIdeal := by
  intro m ρ m' ρ' hpre hagree
  refine ⟨_, Cert.KernelIdeal.KV.kernel_run m ρ, ?_⟩
  refine (θ_run Cert.ReferenceIdeal.defs _ _).mono (fun r h c => ⟨(h c).1.trans ?_, (h c).2⟩)
    (Cert.ReferenceIdeal.RefValue.run_G m' ρ')
  obtain ⟨hx, hw, hsrc, hseg⟩ := Cert.PreDecode.facts_of_pre _ _ _ _ _ (hpre c)
  rw [(hagree c).1, (hagree c).2.1, (hagree c).2.2.1, (hagree c).2.2.2.1, (hagree c).2.2.2.2]
  exact (Cert.Spec.K_eq_G _ _ _ _ _ hx hw hsrc hseg).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
